-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S16x128 : Shape := ⟨2, ![16, 128]⟩
abbrev S256x7x7x30 : Shape := ⟨4, ![256, 7, 7, 30]⟩
abbrev S8x128 : Shape := ⟨2, ![8, 128]⟩
abbrev S1x1 : Shape := ⟨2, ![1, 1]⟩
abbrev S256x7x7x1 : Shape := ⟨4, ![256, 7, 7, 1]⟩
abbrev S256x7x7 : Shape := ⟨3, ![256, 7, 7]⟩
abbrev S256x7x7x4 : Shape := ⟨4, ![256, 7, 7, 4]⟩
abbrev S256x7x7x2 : Shape := ⟨4, ![256, 7, 7, 2]⟩
abbrev S256x7 : Shape := ⟨2, ![256, 7]⟩
abbrev S256 : Shape := ⟨1, ![256]⟩
abbrev S1x256 : Shape := ⟨2, ![1, 256]⟩
abbrev S1 : Shape := ⟨1, ![1]⟩
abbrev S256x7x7x20 : Shape := ⟨4, ![256, 7, 7, 20]⟩
abbrev S2x8x128 : Shape := ⟨3, ![2, 8, 128]⟩
abbrev S2x1x1 : Shape := ⟨3, ![2, 1, 1]⟩
abbrev S2 : Shape := ⟨1, ![2]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S16x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x7x7x30, .f32⟩
  | .local _ .vmem, ⟨1, _⟩ => ⟨S256x7x7x30, .f32⟩
  | .local _ .vmem, ⟨2, _⟩ => ⟨S256x7x7x30, .f32⟩
  | .local _ .vmem, ⟨3, _⟩ => ⟨S256x7x7x30, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x7x7x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x7x7x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x7x7x30_S256x7x7x30_0_0_0_0 : ∀ a, (![0, 0, 0, 0] : Fin 4 → Nat) a + S256x7x7x30.size a ≤ S256x7x7x30.size a
  h_S256x7x7x30 : 0 < S256x7x7x30.numel
  slices_S256x7x7x30_o0_0_0_4_S256x7x7x1 : S256x7x7x30.Slices ![0, 0, 0, 4] S256x7x7x1
  shapeCasts_S256x7x7x1_S256x7x7 : S256x7x7x1.ShapeCasts S256x7x7
  slices_S256x7x7x30_o0_0_0_0_S256x7x7x4 : S256x7x7x30.Slices ![0, 0, 0, 0] S256x7x7x4
  slices_S256x7x7x30_o0_0_0_5_S256x7x7x4 : S256x7x7x30.Slices ![0, 0, 0, 5] S256x7x7x4
  slices_S256x7x7x4_o0_0_0_0_S256x7x7x2 : S256x7x7x4.Slices ![0, 0, 0, 0] S256x7x7x2
  slices_S256x7x7x4_o0_0_0_2_S256x7x7x2 : S256x7x7x4.Slices ![0, 0, 0, 2] S256x7x7x2
  slices_S256x7x7x2_o0_0_0_0_S256x7x7x1 : S256x7x7x2.Slices ![0, 0, 0, 0] S256x7x7x1
  slices_S256x7x7x2_o0_0_0_1_S256x7x7x1 : S256x7x7x2.Slices ![0, 0, 0, 1] S256x7x7x1
  slices_S256x7x7x4_o0_0_0_2_S256x7x7x1 : S256x7x7x4.Slices ![0, 0, 0, 2] S256x7x7x1
  slices_S256x7x7x4_o0_0_0_3_S256x7x7x1 : S256x7x7x4.Slices ![0, 0, 0, 3] S256x7x7x1
  natLt_1_32 : 1 < 32
  shapeCasts_S256x7x7_S256x7x7x1 : S256x7x7.ShapeCasts S256x7x7x1
  broadcasts_S256x7x7x1_S256x7x7x4 : S256x7x7x1.Broadcasts S256x7x7x4
  slices_S256x7x7x30_o0_0_0_9_S256x7x7x1 : S256x7x7x30.Slices ![0, 0, 0, 9] S256x7x7x1
  broadcasts_S256x7x7x1_S256x7x7x2 : S256x7x7x1.Broadcasts S256x7x7x2
  reduces_S256x7x7x2_S256x7x7 : S256x7x7x2.Reduces [3] S256x7x7
  reduces_S256x7x7_S256x7 : S256x7x7.Reduces [2] S256x7
  reduces_S256x7_S256 : S256x7.Reduces [1] S256
  shapeCasts_S256_S1x256 : S256.ShapeCasts S1x256
  reduces_S1x256_S1 : S1x256.Reduces [1] S1
  shapeCasts_S1_S1x1 : S1.ShapeCasts S1x1
  slices_S256x7x7x30_o0_0_0_10_S256x7x7x20 : S256x7x7x30.Slices ![0, 0, 0, 10] S256x7x7x20
  broadcasts_S256x7x7x1_S256x7x7x20 : S256x7x7x1.Broadcasts S256x7x7x20
  reduces_S256x7x7x20_S256x7x7 : S256x7x7x20.Reduces [3] S256x7x7
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S16x128_S2x8x128 : S16x128.ShapeCasts S2x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x7x7x30.size a ≤ S16384x7x7x30.size a
  hwx0_0 : ∀ i : grid0.Coords, EltTy.bits .f32 = 32 ∨ (Rect.block (s := S16384x7x7x30) S256x7x7x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x7x7x30.size a ≤ S16384x7x7x30.size a
  hwx0_1 : ∀ i : grid0.Coords, EltTy.bits .f32 = 32 ∨ (Rect.block (s := S16384x7x7x30) S256x7x7x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S256x7x7x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x7x7x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S16384x7x7x2 : Shape := ⟨4, ![16384, 7, 7, 2]⟩
abbrev S16384x7x7x20 : Shape := ⟨4, ![16384, 7, 7, 20]⟩

abbrev nBuf : Space → Nat
  | .hbm => 211
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .f32⟩
  | 7 => ⟨S16384x7x7x4, .f32⟩
  | 8 => ⟨S16384x7x7x4, .f32⟩
  | 9 => ⟨S16384x7x7x4, .f32⟩
  | 10 => ⟨S16384x7x7x2, .f32⟩
  | 11 => ⟨S16384x7x7x2, .f32⟩
  | 12 => ⟨S_, .f32⟩
  | 13 => ⟨S16384x7x7x2, .f32⟩
  | 14 => ⟨S16384x7x7x2, .f32⟩
  | 15 => ⟨S16384x7x7x2, .f32⟩
  | 16 => ⟨S16384x7x7x2, .f32⟩
  | 17 => ⟨S16384x7x7x2, .f32⟩
  | 18 => ⟨S_, .f32⟩
  | 19 => ⟨S16384x7x7x2, .f32⟩
  | 20 => ⟨S16384x7x7x2, .f32⟩
  | 21 => ⟨S16384x7x7x2, .f32⟩
  | 22 => ⟨S16384x7x7x2, .f32⟩
  | 23 => ⟨S16384x7x7x2, .f32⟩
  | 24 => ⟨S_, .f32⟩
  | 25 => ⟨S16384x7x7x2, .f32⟩
  | 26 => ⟨S16384x7x7x2, .f32⟩
  | 27 => ⟨S16384x7x7x2, .f32⟩
  | 28 => ⟨S16384x7x7x2, .f32⟩
  | 29 => ⟨S16384x7x7x2, .f32⟩
  | 30 => ⟨S_, .f32⟩
  | 31 => ⟨S16384x7x7x2, .f32⟩
  | 32 => ⟨S16384x7x7x2, .f32⟩
  | 33 => ⟨S16384x7x7x2, .f32⟩
  | 34 => ⟨S16384x7x7x2, .f32⟩
  | 35 => ⟨S16384x7x7x2, .f32⟩
  | 36 => ⟨S16384x7x7x2, .f32⟩
  | 37 => ⟨S_, .f32⟩
  | 38 => ⟨S_, .f32⟩
  | 39 => ⟨S16384x7x7x2, .f32⟩
  | 40 => ⟨S16384x7x7x2, .f32⟩
  | 41 => ⟨S16384x7x7x1, .f32⟩
  | 42 => ⟨S16384x7x7, .f32⟩
  | 43 => ⟨S16384x7x7x1, .f32⟩
  | 44 => ⟨S16384x7x7, .f32⟩
  | 45 => ⟨S16384x7x7, .f32⟩
  | 46 => ⟨S16384x7x7x1, .f32⟩
  | 47 => ⟨S16384x7x7, .f32⟩
  | 48 => ⟨S16384x7x7x1, .f32⟩
  | 49 => ⟨S16384x7x7, .f32⟩
  | 50 => ⟨S16384x7x7, .f32⟩
  | 51 => ⟨S16384x7x7x1, .f32⟩
  | 52 => ⟨S16384x7x7, .f32⟩
  | 53 => ⟨S16384x7x7x1, .f32⟩
  | 54 => ⟨S16384x7x7, .f32⟩
  | 55 => ⟨S16384x7x7, .f32⟩
  | 56 => ⟨S16384x7x7, .f32⟩
  | 57 => ⟨S16384x7x7, .f32⟩
  | 58 => ⟨S_, .f32⟩
  | 59 => ⟨S16384x7x7, .f32⟩
  | 60 => ⟨S16384x7x7, .f32⟩
  | 61 => ⟨S16384x7x7, .f32⟩
  | 62 => ⟨S16384x7x7x2, .f32⟩
  | 63 => ⟨S16384x7x7x2, .f32⟩
  | 64 => ⟨S_, .f32⟩
  | 65 => ⟨S16384x7x7x2, .f32⟩
  | 66 => ⟨S16384x7x7x2, .f32⟩
  | 67 => ⟨S16384x7x7x2, .f32⟩
  | 68 => ⟨S16384x7x7x2, .f32⟩
  | 69 => ⟨S16384x7x7x2, .f32⟩
  | 70 => ⟨S_, .f32⟩
  | 71 => ⟨S16384x7x7x2, .f32⟩
  | 72 => ⟨S16384x7x7x2, .f32⟩
  | 73 => ⟨S16384x7x7x2, .f32⟩
  | 74 => ⟨S16384x7x7x2, .f32⟩
  | 75 => ⟨S16384x7x7x2, .f32⟩
  | 76 => ⟨S_, .f32⟩
  | 77 => ⟨S16384x7x7x2, .f32⟩
  | 78 => ⟨S16384x7x7x2, .f32⟩
  | 79 => ⟨S16384x7x7x2, .f32⟩
  | 80 => ⟨S16384x7x7x2, .f32⟩
  | 81 => ⟨S16384x7x7x2, .f32⟩
  | 82 => ⟨S_, .f32⟩
  | 83 => ⟨S16384x7x7x2, .f32⟩
  | 84 => ⟨S16384x7x7x2, .f32⟩
  | 85 => ⟨S16384x7x7x2, .f32⟩
  | 86 => ⟨S16384x7x7x2, .f32⟩
  | 87 => ⟨S16384x7x7x2, .f32⟩
  | 88 => ⟨S16384x7x7x2, .f32⟩
  | 89 => ⟨S_, .f32⟩
  | 90 => ⟨S_, .f32⟩
  | 91 => ⟨S16384x7x7x2, .f32⟩
  | 92 => ⟨S16384x7x7x2, .f32⟩
  | 93 => ⟨S16384x7x7x1, .f32⟩
  | 94 => ⟨S16384x7x7, .f32⟩
  | 95 => ⟨S16384x7x7x1, .f32⟩
  | 96 => ⟨S16384x7x7, .f32⟩
  | 97 => ⟨S16384x7x7, .f32⟩
  | 98 => ⟨S16384x7x7x1, .f32⟩
  | 99 => ⟨S16384x7x7, .f32⟩
  | 100 => ⟨S16384x7x7x1, .f32⟩
  | 101 => ⟨S16384x7x7, .f32⟩
  | 102 => ⟨S16384x7x7, .f32⟩
  | 103 => ⟨S16384x7x7x1, .f32⟩
  | 104 => ⟨S16384x7x7, .f32⟩
  | 105 => ⟨S16384x7x7x1, .f32⟩
  | 106 => ⟨S16384x7x7, .f32⟩
  | 107 => ⟨S16384x7x7, .f32⟩
  | 108 => ⟨S16384x7x7, .f32⟩
  | 109 => ⟨S16384x7x7, .f32⟩
  | 110 => ⟨S_, .f32⟩
  | 111 => ⟨S16384x7x7, .f32⟩
  | 112 => ⟨S16384x7x7, .f32⟩
  | 113 => ⟨S16384x7x7, .f32⟩
  | 114 => ⟨S16384x7x7, .i1⟩
  | 115 => ⟨S16384x7x7, .f32⟩
  | 116 => ⟨S16384x7x7x1, .f32⟩
  | 117 => ⟨S16384x7x7x4, .f32⟩
  | 118 => ⟨S16384x7x7x4, .f32⟩
  | 119 => ⟨S_, .f32⟩
  | 120 => ⟨S16384x7x7x1, .f32⟩
  | 121 => ⟨S16384x7x7x1, .f32⟩
  | 122 => ⟨S16384x7x7x4, .f32⟩
  | 123 => ⟨S16384x7x7x4, .f32⟩
  | 124 => ⟨S16384x7x7x4, .f32⟩
  | 125 => ⟨S16384x7x7x1, .f32⟩
  | 126 => ⟨S16384x7x7, .f32⟩
  | 127 => ⟨S16384x7x7, .f32⟩
  | _ => ⟨S16384x7x7x30, .f32⟩

abbrev hbmTy0_1 (i : Nat) : BufTy := match i % 128 with
  | 0 => ⟨S_, .f32⟩
  | 1 => ⟨S16384x7x7, .f32⟩
  | 2 => ⟨S16384x7x7, .f32⟩
  | 3 => ⟨S16384x7x7x1, .f32⟩
  | 4 => ⟨S16384x7x7, .f32⟩
  | 5 => ⟨S16384x7x7, .f32⟩
  | 6 => ⟨S16384x7x7, .f32⟩
  | 7 => ⟨S_, .f32⟩
  | 8 => ⟨S16384x7x7, .f32⟩
  | 9 => ⟨S16384x7x7, .f32⟩
  | 10 => ⟨S16384x7x7x1, .f32⟩
  | 11 => ⟨S16384x7x7, .f32⟩
  | 12 => ⟨S16384x7x7, .f32⟩
  | 13 => ⟨S16384x7x7x1, .f32⟩
  | 14 => ⟨S16384x7x7, .f32⟩
  | 15 => ⟨S16384x7x7, .f32⟩
  | 16 => ⟨S16384x7x7, .f32⟩
  | 17 => ⟨S16384x7x7, .f32⟩
  | 18 => ⟨S16384x7x7x1, .f32⟩
  | 19 => ⟨S16384x7x7x2, .f32⟩
  | 20 => ⟨S16384x7x7x2, .f32⟩
  | 21 => ⟨S16384x7x7x2, .f32⟩
  | 22 => ⟨S16384x7x7x2, .f32⟩
  | 23 => ⟨S16384x7x7x2, .f32⟩
  | 24 => ⟨S16384x7x7x2, .f32⟩
  | 25 => ⟨S_, .f32⟩
  | 26 => ⟨S_, .f32⟩
  | 27 => ⟨S_, .f32⟩
  | 28 => ⟨S_, .f32⟩
  | 29 => ⟨S16384x7x7x2, .f32⟩
  | 30 => ⟨S_, .f32⟩
  | 31 => ⟨S16384x7x7x2, .f32⟩
  | 32 => ⟨S16384x7x7x2, .f32⟩
  | 33 => ⟨S16384x7x7x2, .f32⟩
  | 34 => ⟨S16384x7x7x2, .f32⟩
  | 35 => ⟨S_, .f32⟩
  | 36 => ⟨S16384x7x7x2, .f32⟩
  | 37 => ⟨S16384x7x7x2, .f32⟩
  | 38 => ⟨S16384x7x7x2, .f32⟩
  | 39 => ⟨S16384x7x7x2, .f32⟩
  | 40 => ⟨S16384x7x7x2, .f32⟩
  | 41 => ⟨S16384x7x7x2, .f32⟩
  | 42 => ⟨S16384x7x7x2, .f32⟩
  | 43 => ⟨S_, .f32⟩
  | 44 => ⟨S_, .f32⟩
  | 45 => ⟨S_, .f32⟩
  | 46 => ⟨S_, .f32⟩
  | 47 => ⟨S16384x7x7, .f32⟩
  | 48 => ⟨S16384x7x7, .f32⟩
  | 49 => ⟨S16384x7x7, .f32⟩
  | 50 => ⟨S_, .f32⟩
  | 51 => ⟨S_, .f32⟩
  | 52 => ⟨S16384x7x7x1, .f32⟩
  | 53 => ⟨S16384x7x7, .f32⟩
  | 54 => ⟨S16384x7x7, .f32⟩
  | 55 => ⟨S16384x7x7x1, .f32⟩
  | 56 => ⟨S16384x7x7, .f32⟩
  | 57 => ⟨S16384x7x7, .f32⟩
  | 58 => ⟨S16384x7x7, .f32⟩
  | 59 => ⟨S16384x7x7, .f32⟩
  | 60 => ⟨S_, .f32⟩
  | 61 => ⟨S_, .f32⟩
  | 62 => ⟨S16384x7x7, .f32⟩
  | 63 => ⟨S16384x7x7, .f32⟩
  | 64 => ⟨S_, .f32⟩
  | 65 => ⟨S_, .f32⟩
  | 66 => ⟨S_, .f32⟩
  | 67 => ⟨S_, .f32⟩
  | 68 => ⟨S_, .f32⟩
  | 69 => ⟨S16384x7x7x20, .f32⟩
  | 70 => ⟨S16384x7x7x20, .f32⟩
  | 71 => ⟨S16384x7x7x20, .f32⟩
  | 72 => ⟨S16384x7x7x20, .f32⟩
  | 73 => ⟨S16384x7x7x20, .f32⟩
  | 74 => ⟨S16384x7x7x20, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | _ => ⟨S16384x7x7x30, .f32⟩

abbrev hbmTy (i : Nat) : BufTy := match i / 128 with
  | 0 => hbmTy0_0 i
  | 1 => hbmTy0_1 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_10 : Ref sig .tc := ⟨.hbm, 89, rfl⟩
abbrev main_call1_v0 : Ref sig .tc := ⟨.hbm, 90, rfl⟩
abbrev main_call1_v1 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_11 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_12 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_13 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_14 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_15 : Ref sig .tc := ⟨.hbm, 153, rfl⟩
abbrev main_v131 : Ref sig .tc := ⟨.hbm, 154, rfl⟩
abbrev main_cst_16 : Ref sig .tc := ⟨.hbm, 155, rfl⟩
abbrev main_v132 : Ref sig .tc := ⟨.hbm, 156, rfl⟩
abbrev main_v133 : Ref sig .tc := ⟨.hbm, 157, rfl⟩
abbrev main_cst_17 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_18 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_cst_19 : Ref sig .tc := ⟨.hbm, 171, rfl⟩
abbrev main_v145 : Ref sig .tc := ⟨.hbm, 172, rfl⟩
abbrev main_cst_20 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_cst_21 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_cst_22 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_cst_23 : Ref sig .tc := ⟨.hbm, 192, rfl⟩
abbrev main_v162 : Ref sig .tc := ⟨.hbm, 193, rfl⟩
abbrev main_v163 : Ref sig .tc := ⟨.hbm, 194, rfl⟩
abbrev main_cst_24 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_cst_25 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_cst_26 : Ref sig .tc := ⟨.hbm, 209, rfl⟩
abbrev main_v176 : Ref sig .tc := ⟨.hbm, 210, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x30_S16384x7x7x4_0_0_0_0 : S16384x7x7x30.Slices ![0, 0, 0, 0] S16384x7x7x4
  slices_S16384x7x7x30_S16384x7x7x4_0_0_0_5 : S16384x7x7x30.Slices ![0, 0, 0, 5] S16384x7x7x4
  slices_S16384x7x7x4_S16384x7x7x2_0_0_0_0 : S16384x7x7x4.Slices ![0, 0, 0, 0] S16384x7x7x2
  slices_S16384x7x7x4_S16384x7x7x2_0_0_0_2 : S16384x7x7x4.Slices ![0, 0, 0, 2] S16384x7x7x2
  bcast_S_S16384x7x7x2 : S_.BroadcastsInDim S16384x7x7x2 (![] : Fin 0 → Fin S16384x7x7x2.rank)
  slices_S16384x7x7x2_S16384x7x7x1_0_0_0_0 : S16384x7x7x2.Slices ![0, 0, 0, 0] S16384x7x7x1
  slices_S16384x7x7x2_S16384x7x7x1_0_0_0_1 : S16384x7x7x2.Slices ![0, 0, 0, 1] S16384x7x7x1
  slices_S16384x7x7x4_S16384x7x7x1_0_0_0_2 : S16384x7x7x4.Slices ![0, 0, 0, 2] S16384x7x7x1
  slices_S16384x7x7x4_S16384x7x7x1_0_0_0_3 : S16384x7x7x4.Slices ![0, 0, 0, 3] S16384x7x7x1
  bcast_S16384x7x7_S16384x7x7x1_0_1_2 : S16384x7x7.BroadcastsInDim S16384x7x7x1 (![0, 1, 2] : Fin 3 → Fin S16384x7x7x1.rank)
  bcast_S16384x7x7x1_S16384x7x7x4_0_1_2_3 : S16384x7x7x1.BroadcastsInDim S16384x7x7x4 (![0, 1, 2, 3] : Fin 4 → Fin S16384x7x7x4.rank)
  bcast_S_S16384x7x7x1 : S_.BroadcastsInDim S16384x7x7x1 (![] : Fin 0 → Fin S16384x7x7x1.rank)
  slices_S16384x7x7x30_S16384x7x7x1_0_0_0_9 : S16384x7x7x30.Slices ![0, 0, 0, 9] S16384x7x7x1
  bcast_S16384x7x7x1_S16384x7x7x2_0_1_2_3 : S16384x7x7x1.BroadcastsInDim S16384x7x7x2 (![0, 1, 2, 3] : Fin 4 → Fin S16384x7x7x2.rank)
  reducesTo_S16384x7x7x2_S_d0_1_2_3 : S16384x7x7x2.ReducesTo [0, 1, 2, 3] S_
  h_S_ : 0 < S_.numel
  reducesTo_S16384x7x7_S_d0_1_2 : S16384x7x7.ReducesTo [0, 1, 2] S_
  slices_S16384x7x7x30_S16384x7x7x20_0_0_0_10 : S16384x7x7x30.Slices ![0, 0, 0, 10] S16384x7x7x20
  bcast_S16384x7x7x1_S16384x7x7x20_0_1_2_3 : S16384x7x7x1.BroadcastsInDim S16384x7x7x20 (![0, 1, 2, 3] : Fin 4 → Fin S16384x7x7x20.rank)
  reducesTo_S16384x7x7x20_S_d0_1_2_3 : S16384x7x7x20.ReducesTo [0, 1, 2, 3] S_

variable [Facts₀]

class Facts : Prop extends Facts₀ where

variable [Facts]
-- ==== Proof.KernelStep.lean ====
/-
  One grid point of the kernel as a function: from the two input blocks `x0` (predictions), `x1` (labels) of a tile and the
  accumulator's contents `xs` before the point, the accumulator's contents after it — `xs` plus the tile's loss —, as the
  body computes it: the values the body passes from one stretch of its text to the next, composed.
-/
import proofs.«400913_j74620761801586_4_alg».proof.Proof.Gen.KernelIdeal.Skeleton

noncomputable section

open Idealize.ShloMosaic

namespace Cert.KernelIdeal.Step

open Cert.KernelIdeal Cert.KernelIdeal.Gen

variable {F : FTy → Type} [FloatOps F]

/-- The accumulator after a point that found it at `xs`. -/
def tileStep (x0 x1 : Vec F S256x7x7x30 .f32) (xs : Vec F S1x1 .f32) : FVec F S1x1 .f32 :=
  k0_pay1 x0 x1 (k0_pay23 (k0_pay4 x1))
    (k0_pay26
      (k0_pay24 (k0_pay4 x1) (k0_pay6 x1) (k0_pay7 x0) (k0_pay8 x0)
        (k0_pay12 (k0_pay6 x1) (k0_pay7 x0) (k0_pay10 x0 x1) (k0_pay11 x0 x1)) (k0_pay13 (k0_pay6 x1) (k0_pay8 x0))
        (k0_pay14 (k0_pay8 x0)) (k0_pay15 (k0_pay6 x1)) (k0_pay16 (k0_pay6 x1)))
      k0_pay25)
    (k0_pay27 (k0_pay6 x1)
      (k0_pay19 (k0_pay7 x0) (k0_pay8 x0)
        (k0_pay12 (k0_pay6 x1) (k0_pay7 x0) (k0_pay10 x0 x1) (k0_pay11 x0 x1)) (k0_pay13 (k0_pay6 x1) (k0_pay8 x0))
        (k0_pay14 (k0_pay8 x0)) (k0_pay15 (k0_pay6 x1)) (k0_pay16 (k0_pay6 x1)))
      (k0_pay23 (k0_pay4 x1)))
    (k0_pay28 (k0_pay4 x1)
      (k0_pay20 x0
        (k0_pay12 (k0_pay6 x1) (k0_pay7 x0) (k0_pay10 x0 x1) (k0_pay11 x0 x1)) (k0_pay13 (k0_pay6 x1) (k0_pay8 x0))
        (k0_pay14 (k0_pay8 x0)) (k0_pay15 (k0_pay6 x1)) (k0_pay16 (k0_pay6 x1)))
      (k0_pay22
        (k0_pay12 (k0_pay6 x1) (k0_pay7 x0) (k0_pay10 x0 x1) (k0_pay11 x0 x1)) (k0_pay13 (k0_pay6 x1) (k0_pay8 x0))
        (k0_pay14 (k0_pay8 x0)) (k0_pay15 (k0_pay6 x1)) (k0_pay16 (k0_pay6 x1))))
    (k0_pay29 x0 (k0_pay5 x1))
    (k0_pay30 (k0_pay4 x1)
      (k0_pay21 x0
        (k0_pay12 (k0_pay6 x1) (k0_pay7 x0) (k0_pay10 x0 x1) (k0_pay11 x0 x1)) (k0_pay13 (k0_pay6 x1) (k0_pay8 x0))
        (k0_pay14 (k0_pay8 x0)) (k0_pay15 (k0_pay6 x1)) (k0_pay16 (k0_pay6 x1))))
    xs

end Cert.KernelIdeal.Step

end
-- ==== Proof.KernelRun.lean ====
/-
  The kernel's run, read as values (at any float type). The grid has 64 points, 32 per core; a point loads its tile's
  two blocks, adds the tile's loss to a one-word accumulator that the first point of each core resets, and copies the
  accumulator to every word of the core's 8 × 128 output block, which is written back after the core's last point. So
  the accumulator after point n is a fold over the points of n's core up to n (`accAt`), the output array holds, on
  core k's eight rows, the accumulator after point 32 k + 31 (`outFinal`), and the host lines after the region read
  word (8 k, 0) of each core's rows, add the two and divide by the batch size (`tailOf`).
-/
import proofs.«400913_j74620761801586_4_alg».proof.Proof.Gen.KernelIdeal.Frame
import proofs.«400913_j74620761801586_4_alg».proof.Proof.KernelStep
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Step

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A load of the whole buffer after stores of which the LAST covers it reads that store's payload. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## What one point leaves, case by case -/

/-- The zero word the first point of a core stores into the accumulator. -/
abbrev zeroAcc : FVec F S1x1 .f32 := k0_pay3

/-- A point that is not a core's first: the accumulator, found at `xs`, is left at the step's value. -/
theorem acc_B (c : Dev nD) (i : grid0.Coords) (a2 : Memref sig .tc .vmem S256x7x7x30 .f32) (h2 : a2.IsWhole) (a3 : Memref sig .tc .vmem S256x7x7x30 .f32) (h3 : a3.IsWhole) (a4 : Memref sig .tc .vmem S8x128 .f32) (h4 : a4.IsWhole) (a5 : Memref sig .tc .vmem S1x1 .f32) (h5 : a5.IsWhole) (hc : ¬cond0_0 i) (x0 x1 : Vec F S256x7x7x30 .f32) (xs : Vec F S1x1 .f32) :
    sout0_B_0 c i a2 h2 a3 h3 a4 h4 a5 h5 hc x0 x1 xs = tileStep x0 x1 xs := by
  unfold sout0_B_0
  rw [View.read_writes_eq_canon _ _ _ (scover0_B_0 c i a2 h2 a3 h3 a4 h4 a5 h5 hc x0 x1 xs)]
  unfold kernelRun0_B
  dsimp only
  sl_unfold_words
  rw [View.canon_unit_zero hz2]
  unfold tileStep
  simp only [View.readAt_eq_ld, h2.read_unread, h3.read_unread, h5.read_unread, View.ld_unit_zero (S := S256x7x7x30) hz4, View.ld_unit_zero (S := S1x1) hz2]

/-- A core's first point: the accumulator is zeroed, then left at the step's value over zero. -/
theorem acc_A (c : Dev nD) (i : grid0.Coords) (a2 : Memref sig .tc .vmem S256x7x7x30 .f32) (h2 : a2.IsWhole) (a3 : Memref sig .tc .vmem S256x7x7x30 .f32) (h3 : a3.IsWhole) (a4 : Memref sig .tc .vmem S8x128 .f32) (h4 : a4.IsWhole) (a5 : Memref sig .tc .vmem S1x1 .f32) (h5 : a5.IsWhole) (hc : cond0_0 i) (x0 x1 : Vec F S256x7x7x30 .f32) :
    sout0_A_0 c i a2 h2 a3 h3 a4 h4 a5 h5 hc x0 x1 = tileStep x0 x1 zeroAcc := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S1x1) hz2]
  unfold tileStep
  simp only [View.readCov_unit_zero (S := S1x1) _ hz2, View.readAt_eq_ld, h2.read_unread, h3.read_unread, h5.read_unread, View.ld_unit_zero (S := S256x7x7x30) hz4, View.ld_unit_zero (S := S1x1) hz2]

/-- The output block a point leaves: every word the accumulator's word after the point. -/
theorem out_B (c : Dev nD) (i : grid0.Coords) (a2 : Memref sig .tc .vmem S256x7x7x30 .f32) (h2 : a2.IsWhole) (a3 : Memref sig .tc .vmem S256x7x7x30 .f32) (h3 : a3.IsWhole) (a4 : Memref sig .tc .vmem S8x128 .f32) (h4 : a4.IsWhole) (a5 : Memref sig .tc .vmem S1x1 .f32) (h5 : a5.IsWhole) (hc : ¬cond0_0 i) (x0 x1 : Vec F S256x7x7x30 .f32) (xs : Vec F S1x1 .f32) :
    out0_B_2 c i a2 h2 a3 h3 a4 h4 a5 h5 hc x0 x1 xs = k0_pay2 (tileStep x0 x1 xs) := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  unfold tileStep
  simp only [View.readCov_unit_zero (S := S1x1) _ hz2, View.readAt_eq_ld, h2.read_unread, h3.read_unread, h5.read_unread, View.ld_unit_zero (S := S256x7x7x30) hz4, View.ld_unit_zero (S := S1x1) hz2]

theorem out_A (c : Dev nD) (i : grid0.Coords) (a2 : Memref sig .tc .vmem S256x7x7x30 .f32) (h2 : a2.IsWhole) (a3 : Memref sig .tc .vmem S256x7x7x30 .f32) (h3 : a3.IsWhole) (a4 : Memref sig .tc .vmem S8x128 .f32) (h4 : a4.IsWhole) (a5 : Memref sig .tc .vmem S1x1 .f32) (h5 : a5.IsWhole) (hc : cond0_0 i) (x0 x1 : Vec F S256x7x7x30 .f32) :
    out0_A_2 c i a2 h2 a3 h3 a4 h4 a5 h5 hc x0 x1 = k0_pay2 (tileStep x0 x1 zeroAcc) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2]
  unfold tileStep
  simp only [readCov_cons_unit_zero (S := S1x1) _ hz2, View.readCov_unit_zero (S := S1x1) _ hz2, View.readAt_eq_ld, h2.read_unread, h3.read_unread, h5.read_unread, View.ld_unit_zero (S := S256x7x7x30) hz4, View.ld_unit_zero (S := S1x1) hz2]

/-! ## The accumulator after each point -/

/-- The accumulator after point `n`: the step's value over zero at a core's first point, over what the point before left
    otherwise. -/
def accAt (c : Dev nD) : (n : ℕ) → n < cfg0.N → Vec F S1x1 .f32
  | 0, h => tileStep (iblk m c 0 ⟨0, h⟩) (iblk m c 1 ⟨0, h⟩) zeroAcc
  | n + 1, h =>
    if (n + 1) % 32 = 0 then tileStep (iblk m c 0 ⟨n + 1, h⟩) (iblk m c 1 ⟨n + 1, h⟩) zeroAcc
    else tileStep (iblk m c 0 ⟨n + 1, h⟩) (iblk m c 1 ⟨n + 1, h⟩) (accAt c n (Nat.lt_of_succ_lt h))

theorem accAt_congr (c : Dev nD) {n n' : ℕ} (e : n = n') (h : n < cfg0.N) (h' : n' < cfg0.N) : accAt m c n h = accAt m c n' h' := by
  subst e; rfl

/-- What the frame's run found after each point is that fold, and the output block its word everywhere. -/
theorem outsAt_eq (c : Dev nD) : ∀ (n : ℕ) (h : n < cfg0.N), outsAt0 m c n h = (k0_pay2 (accAt m c n h), accAt m c n h)
  | 0, h => by
    rw [outsAt0_A m c ⟨0, h⟩ rfl, out_A, acc_A]
    rfl
  | n + 1, h => by
    by_cases h0 : (n + 1) % 32 = 0
    · rw [outsAt0_A m c ⟨n + 1, h⟩ h0, out_A, acc_A]
      simp only [accAt, if_pos h0]
    · have hz : (outsAt0 m c ((⟨n + 1, h⟩ : Fin cfg0.N).val - 1)
            (Nat.lt_of_le_of_lt (Nat.sub_le _ _) (⟨n + 1, h⟩ : Fin cfg0.N).isLt)).2 = accAt m c n (Nat.lt_of_succ_lt h) :=
        congrArg Prod.snd (outsAt_eq c n (Nat.lt_of_succ_lt h))
      rw [outsAt0_B m c ⟨n + 1, h⟩ h0, out_B, acc_B, hz]
      simp only [accAt, if_neg h0]

/-! ## The output array -/

theorem N64 : cfg0.N = 64 := N_0

/-- The output array after the run: on the eight rows of core `k`, the accumulator's word after the core's last point. -/
def outFinal (c : Dev nD) : Vec F S16x128 .f32 := fun i =>
  accAt m c (32 * ((i 0).val / 8) + 31) (by have := N64; have : (i 0).val < 16 := (i 0).isLt; omega) (ix2 ⟨0, Nat.one_pos⟩ ⟨0, Nat.one_pos⟩)

/-- The output's block index at a point is its core; the lane block is always the first. -/
theorem out_index : ∀ t : Fin cfg0.N, win0_2.index t (0 : Fin 2) = t.val / 32 ∧ win0_2.index t (1 : Fin 2) = 0 :=
  (by decide +kernel : ∀ t : Fin grid0.N, _)

/-- Every word of the block a point leaves is the accumulator's one word. -/
theorem splat_apply (v : Vec F S1x1 .f32) (y : S8x128.Idx) : k0_pay2 v y = v (ix2 ⟨0, Nat.one_pos⟩ ⟨0, Nat.one_pos⟩) := by
  unfold k0_pay2
  rw [shapeCast_self]
  exact broadcastTo_apply v broadcasts_S1x1_S8x128 y _ (fun a => by
    match a with
    | ⟨0, _⟩ => show 0 = if (1 : Nat) = 1 then 0 else _; rw [if_pos rfl]
    | ⟨1, _⟩ => show 0 = if (1 : Nat) = 1 then 0 else _; rw [if_pos rfl])

/-- What a core's last point writes back is its block of `outFinal`. -/
theorem flushed_eq (c : Dev nD) (t : Fin cfg0.N) (hf : (cfg0.win 2).flush t = true) :
    (dats m 0 c).flushed 2 t = ((cfg0.win 2).blk t).view.read (Elt F) (outFinal m c) := by
  have h31 : t.val % 32 = 31 := (flush0_2 t).mp hf
  obtain ⟨e0, e1⟩ := out_index t
  show (cfg0.win 2).cut (grid0.coords t) ((dats m 0 c).after 2 t) = _
  rw [after0_2, outsAt_eq]
  funext y
  show k0_pay2 (accAt m c t.val t.isLt) y = outFinal m c (((cfg0.win 2).blk t).view.emb y)
  rw [splat_apply]
  unfold outFinal
  have hy : (y 0).val < 8 := (y 0).isLt
  have hemb : ((((cfg0.win 2).blk t).view.emb y) 0).val = win0_2.index t (0 : Fin 2) * 8 + 1 * (y 0).val := rfl
  exact congrFun (accAt_congr m c (by rw [hemb, e0]; omega) _ _) _

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- So the array ends at `outFinal`: the two cores' last points cover its sixteen rows. -/
theorem final (c : Dev nD) : (dats m 0 c).arrAt 2 cfg0.N = outFinal m c :=
  (dats m 0 c).arrAt_eq_of_cover 2 (outFinal m c) (flushed_eq m c) fun i => by
    have hi0 : (i 0).val < 16 := (i 0).isLt
    have hi1 : (i 1).val < 128 := (i 1).isLt
    have hN := N64
    let t : Fin cfg0.N := ⟨32 * ((i 0).val / 8) + 31, by omega⟩
    obtain ⟨e0, e1⟩ := out_index t
    have tv : t.val = 32 * ((i 0).val / 8) + 31 := rfl
    refine ⟨t, (flush0_2 t).mpr (by rw [tv]; omega), ?_⟩
    rw [mem_blk]
    intro a
    match a with
    | ⟨0, _⟩ => show win0_2.index t (0 : Fin 2) * 8 ≤ (i 0).val ∧ (i 0).val < win0_2.index t (0 : Fin 2) * 8 + 8; rw [e0, tv]; omega
    | ⟨1, _⟩ => show win0_2.index t (1 : Fin 2) * 128 ≤ (i 1).val ∧ (i 1).val < win0_2.index t (1 : Fin 2) * 128 + 128; rw [e1]; omega

/-! ## The host lines after the region -/

/-- The host's seven lines on the output array: rows regrouped by core, word (0, 0) of each core's rows, the two added to
    zero, the sum divided by the batch size. -/
def tailOf (o : FVec F S16x128 .f32) : FVec F S_ .f32 :=
  Host.divf
    (Host.reduceAdd
      (shapeCast S2 (extractStridedSlice S2x1x1 ![0, 0, 0] (shapeCast S2x8x128 o shapeCasts_S16x128_S2x8x128) slices_S2x8x128_S2x1x1_0_0_0) shapeCasts_S2x1x1_S2)
      (constant S_ .f32 0x00000000#32) reducesTo_S2_S_d0 h_S_)
    (constant S_ .f32 0x46800000#32)

/-- The result buffer after the host lines: those lines of the output array as the region left it. -/
theorem tail_eq (c : Dev nD) :
    Pipeline.afterTail₀ cfgs (dats m) 0 (V0 m) [hostOps1] c main_v5 = tailOf (outFinal m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v0)
      = outFinal m c := (Pipeline.withArrays_arr spec0 launch0.win.arr_inj c _ _ 2).trans (final m c)
  rw [hw]
  rfl

/-- The run, read: the result buffer at the host lines of the output array, the arguments unchanged. -/
theorem run : θ_run defs (onTc (τ := τ) (main (F := F))) ⟨m, fun _ => 0, ρ⟩ fun r => ∀ c : Dev nD,
      r.2.mem ((c.tc : Thread nD τ).loc main_v5) = tailOf (outFinal m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 (Pipeline.mem_restRefs_of main_v5 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.LibTiles.lean ====
/-
  Batch tiles. An array over 16384 batch rows is cut into 64 tiles of 256 rows; tile `t` holds rows
  `256 t … 256 t + 255`. `Rel f v r` says that `v` is `r` read through the index map `f`; with `f` the map that sends a
  tile's index to the whole array's (`up4`, `up3`) it says that `v` is tile `t` of `r`. Every operation that acts row by
  row — a pointwise operation, a slice or a broadcast along the last axis, a reshape that drops or adds a trailing unit
  axis — takes tiles to tiles: the lemmas `Rel.*` below, one per operation, generic in the element type where the
  operation is the same on both sides and at the extended reals where the two sides spell it differently (a quotient,
  a square root, a comparison's bit read as a number, a maximum with its arguments swapped).
-/
import Idealize.ShloMosaic.Lib.ValueIdx
import Idealize.ShloMosaic.Lib.Pipeline.Value
import Idealize.ShloMosaic.PureOps.Ideal.Laws

noncomputable section

namespace Cert.Tiles

open Idealize.ShloMosaic Idealize.ShloMosaic.ValueIdx

/-- Row `b` of tile `t` is row `256 t + b` of the batch. -/
def row (t : Fin 64) (b : Fin 256) : Fin 16384 := ⟨256 * t.val + b.val, by have := t.isLt; have := b.isLt; omega⟩

theorem row_val (t : Fin 64) (b : Fin 256) : (row t b).val = 256 * t.val + b.val := rfl

abbrev T4 (K : ℕ) : Shape := ⟨4, ![256, 7, 7, K]⟩
abbrev W4 (K : ℕ) : Shape := ⟨4, ![16384, 7, 7, K]⟩
abbrev T3 : Shape := ⟨3, ![256, 7, 7]⟩
abbrev W3 : Shape := ⟨3, ![16384, 7, 7]⟩

/-- A tile's index, in the whole array. -/
def up4 (t : Fin 64) (K : ℕ) (i : (T4 K).Idx) : (W4 K).Idx := ix4 (row t (i 0)) (i 1) (i 2) (i 3)
def up3 (t : Fin 64) (i : T3.Idx) : W3.Idx := ix3 (row t (i 0)) (i 1) (i 2)

/-- `v` is `r` read through `f`. -/
def Rel {I J α : Type} (f : I → J) (v : I → α) (r : J → α) : Prop := ∀ i, v i = r (f i)

section Pointwise

variable {F : FTy → Type} [FloatOps F] {s s' : Shape} {ψ : FTy} {f : s.Idx → s'.Idx}

theorem Rel.mulf {a b : FVec F s ψ} {a' b' : FVec F s' ψ} (ha : Rel f a a') (hb : Rel f b b') :
    Rel f (mulf a b) (mulf a' b') := fun i => congrArg₂ FloatOps.mulf (ha i) (hb i)

theorem Rel.addf {a b : FVec F s ψ} {a' b' : FVec F s' ψ} (ha : Rel f a a') (hb : Rel f b b') :
    Rel f (addf a b) (addf a' b') := fun i => congrArg₂ FloatOps.addf (ha i) (hb i)

theorem Rel.subf {a b : FVec F s ψ} {a' b' : FVec F s' ψ} (ha : Rel f a a') (hb : Rel f b b') :
    Rel f (subf a b) (subf a' b') := fun i => congrArg₂ FloatOps.subf (ha i) (hb i)

theorem Rel.minimumf {a b : FVec F s ψ} {a' b' : FVec F s' ψ} (ha : Rel f a a') (hb : Rel f b b') :
    Rel f (minimumf a b) (minimumf a' b') := fun i => congrArg₂ FloatOps.minimumf (ha i) (hb i)

theorem Rel.maximumf {a b : FVec F s ψ} {a' b' : FVec F s' ψ} (ha : Rel f a a') (hb : Rel f b b') :
    Rel f (maximumf a b) (maximumf a' b') := fun i => congrArg₂ FloatOps.maximumf (ha i) (hb i)

theorem Rel.cmpf (p : CmpFPredicate) {a b : FVec F s ψ} {a' b' : FVec F s' ψ} (ha : Rel f a a') (hb : Rel f b b') :
    Rel f (cmpf p a b) (cmpf p a' b') := fun i => congrArg₂ (FloatOps.cmpf p) (ha i) (hb i)

/-- A splat of one word is the same constant on any index type. -/
theorem Rel.splat (w : BitVec (FTy.bits .f32)) (h : (⟨0, ![]⟩ : Shape).BroadcastsInDim s' ![]) :
    Rel f (broadcast s (Scalar.ofBits (F := F) .f32 w))
      (broadcastInDim s' ![] h (constant (F := F) ⟨0, ![]⟩ .f32 w)) := fun _ => rfl

end Pointwise

section Layout

variable {α : Type}

/-- A slice along the last axis (channels `o … o + C' - 1` of `C`) of a tile is the tile of the slice. -/
theorem Rel.slice (t : Fin 64) {C C' : ℕ} (o : ℕ) {a : (T4 C).Idx → α} {a' : (W4 C).Idx → α}
    (h : (T4 C).Slices ![0, 0, 0, o] (T4 C')) (h' : (W4 C).Slices ![0, 0, 0, o] (W4 C'))
    (ha : Rel (up4 t C) a a') :
    Rel (up4 t C') (extractStridedSlice (T4 C') ![0, 0, 0, o] a h) (extractStridedSlice (W4 C') ![0, 0, 0, o] a' h') := by
  intro i
  have h3 : o + C' ≤ C := h.2 (3 : Fin 4)
  have hb : o + (i 3).val < C := by have : (i 3).val < C' := (i 3).isLt; omega
  refine (extractStridedSlice_apply _ a h i (ix4 (i 0) (i 1) (i 2) ⟨o + (i 3).val, hb⟩) ?_).trans ?_
  · intro ax
    match ax with
    | ⟨0, _⟩ => show (i 0).val = 0 + (i 0).val; omega
    | ⟨1, _⟩ => show (i 1).val = 0 + (i 1).val; omega
    | ⟨2, _⟩ => show (i 2).val = 0 + (i 2).val; omega
    | ⟨3, _⟩ => rfl
  refine (ha _).trans ?_
  refine (extractStridedSlice_apply _ a' h' (up4 t C' i) (up4 t C (ix4 (i 0) (i 1) (i 2) ⟨o + (i 3).val, hb⟩)) ?_).symm
  intro ax
  match ax with
  | ⟨0, _⟩ => show 256 * t.val + (i 0).val = 0 + (256 * t.val + (i 0).val); omega
  | ⟨1, _⟩ => show (i 1).val = 0 + (i 1).val; omega
  | ⟨2, _⟩ => show (i 2).val = 0 + (i 2).val; omega
  | ⟨3, _⟩ => rfl

/-- Dropping the trailing unit axis. -/
theorem Rel.dropUnit (t : Fin 64) {a : (T4 1).Idx → α} {a' : (W4 1).Idx → α}
    (h : (T4 1).ShapeCasts T3) (h' : (W4 1).ShapeCasts W3) (ha : Rel (up4 t 1) a a') :
    Rel (up3 t) (shapeCast T3 a h) (shapeCast W3 a' h') := by
  intro i
  refine (shapeCast_apply a h i (ix4 (i 0) (i 1) (i 2) ⟨0, Nat.one_pos⟩) ?_).trans ?_
  · rewrite [Shape.rowMajor_val_four, Shape.rowMajor_val_three]
    show (((i 0).val * 7 + (i 1).val) * 7 + (i 2).val) * 1 + 0 = ((i 0).val * 7 + (i 1).val) * 7 + (i 2).val
    omega
  refine (ha _).trans ?_
  refine (shapeCast_apply a' h' (up3 t i) (up4 t 1 (ix4 (i 0) (i 1) (i 2) ⟨0, Nat.one_pos⟩)) ?_).symm
  rewrite [Shape.rowMajor_val_four, Shape.rowMajor_val_three]
  show (((256 * t.val + (i 0).val) * 7 + (i 1).val) * 7 + (i 2).val) * 1 + 0
    = ((256 * t.val + (i 0).val) * 7 + (i 1).val) * 7 + (i 2).val
  omega

/-- Adding a trailing unit axis: a reshape on the tile, a broadcast along the three kept axes on the whole array. -/
theorem Rel.addUnit (t : Fin 64) {a : T3.Idx → α} {a' : W3.Idx → α}
    (h : T3.ShapeCasts (T4 1)) (h' : W3.BroadcastsInDim (W4 1) ![0, 1, 2]) (ha : Rel (up3 t) a a') :
    Rel (up4 t 1) (shapeCast (T4 1) a h) (broadcastInDim (W4 1) ![0, 1, 2] h' a') := by
  intro i
  have h3 : (i 3).val < 1 := (i 3).isLt
  refine (shapeCast_apply a h i (ix3 (i 0) (i 1) (i 2)) ?_).trans ?_
  · rewrite [Shape.rowMajor_val_four, Shape.rowMajor_val_three]
    show ((i 0).val * 7 + (i 1).val) * 7 + (i 2).val = (((i 0).val * 7 + (i 1).val) * 7 + (i 2).val) * 1 + (i 3).val
    omega
  refine (ha _).trans ?_
  refine (broadcastInDim_apply _ h' a' (up4 t 1 i) (up3 t (ix3 (i 0) (i 1) (i 2))) ?_).symm
  intro ax
  match ax with
  | ⟨0, _⟩ => show 256 * t.val + (i 0).val = if (16384 : Nat) = 1 then 0 else 256 * t.val + (i 0).val; rw [if_neg (by decide)]
  | ⟨1, _⟩ => show (i 1).val = if (7 : Nat) = 1 then 0 else (i 1).val; rw [if_neg (by decide)]
  | ⟨2, _⟩ => show (i 2).val = if (7 : Nat) = 1 then 0 else (i 2).val; rw [if_neg (by decide)]

/-- Stretching the trailing unit axis to `K` channels. -/
theorem Rel.stretch (t : Fin 64) {K : ℕ} {a : (T4 1).Idx → α} {a' : (W4 1).Idx → α}
    (h : (T4 1).Broadcasts (T4 K)) (h' : (W4 1).BroadcastsInDim (W4 K) ![0, 1, 2, 3]) (ha : Rel (up4 t 1) a a') :
    Rel (up4 t K) (broadcastTo (T4 K) a h) (broadcastInDim (W4 K) ![0, 1, 2, 3] h' a') := by
  intro i
  refine (broadcastTo_apply a h i (ix4 (i 0) (i 1) (i 2) ⟨0, Nat.one_pos⟩) ?_).trans ?_
  · intro ax
    match ax with
    | ⟨0, _⟩ => show (i 0).val = if (256 : Nat) = 1 then 0 else (i 0).val; rw [if_neg (by decide)]
    | ⟨1, _⟩ => show (i 1).val = if (7 : Nat) = 1 then 0 else (i 1).val; rw [if_neg (by decide)]
    | ⟨2, _⟩ => show (i 2).val = if (7 : Nat) = 1 then 0 else (i 2).val; rw [if_neg (by decide)]
    | ⟨3, _⟩ => show 0 = if (1 : Nat) = 1 then 0 else (i 3).val; rw [if_pos rfl]
  refine (ha _).trans ?_
  refine (broadcastInDim_apply _ h' a' (up4 t K i) (up4 t 1 (ix4 (i 0) (i 1) (i 2) ⟨0, Nat.one_pos⟩)) ?_).symm
  intro ax
  match ax with
  | ⟨0, _⟩ => show 256 * t.val + (i 0).val = if (16384 : Nat) = 1 then 0 else 256 * t.val + (i 0).val; rw [if_neg (by decide)]
  | ⟨1, _⟩ => show (i 1).val = if (7 : Nat) = 1 then 0 else (i 1).val; rw [if_neg (by decide)]
  | ⟨2, _⟩ => show (i 2).val = if (7 : Nat) = 1 then 0 else (i 2).val; rw [if_neg (by decide)]
  | ⟨3, _⟩ => show 0 = if (1 : Nat) = 1 then 0 else (i 3).val; rw [if_pos rfl]

end Layout

section AtIdeal

variable {s s' : Shape} {ψ : FTy} {f : s.Idx → s'.Idx}

/-- The kernel's quotient and the host's are one function of the extended reals. -/
theorem Rel.divf_host {a b : FVec Ideal s ψ} {a' b' : FVec Ideal s' ψ} (ha : Rel f a a') (hb : Rel f b b') :
    Rel f (divf a b) (Host.divf a' b') := fun i => congrArg₂ Ideal.div (ha i) (hb i)

/-- The kernel's square root and the host's likewise. -/
theorem Rel.sqrt_host {a : FVec Ideal s ψ} {a' : FVec Ideal s' ψ} (ha : Rel f a a') :
    Rel f (sqrt a) (Host.sqrt a') := fun i => congrArg Ideal.sqrt (ha i)

/-- On the extended reals `max` commutes: the host's clip writes its bound first. -/
theorem Rel.maximumf_swap {a b : FVec Ideal s ψ} {a' b' : FVec Ideal s' ψ} (ha : Rel f a a') (hb : Rel f b b') :
    Rel f (Idealize.ShloMosaic.maximumf a b) (Idealize.ShloMosaic.maximumf b' a') := fun i => by
  show max (a i) (b i) = max (b' (f i)) (a' (f i))
  rw [ha i, hb i, max_comm]

/-- The clip at zero: the kernel takes `max x 0`, the host `max 0 x` with its bound passed through a conversion that does nothing. -/
theorem Rel.clip {a : FVec Ideal s .f32} {a' : FVec Ideal s' .f32} (w : BitVec (FTy.bits .f32))
    (h : (⟨0, ![]⟩ : Shape).BroadcastsInDim s' ![]) (ha : Rel f a a') :
    Rel f (Idealize.ShloMosaic.maximumf a (broadcast s (Scalar.ofBits (F := Ideal) .f32 w)))
      (Idealize.ShloMosaic.maximumf (broadcastInDim s' ![] h (id (constant (F := Ideal) ⟨0, ![]⟩ .f32 w))) a') := fun i => by
  show max (a i) _ = max _ (a' (f i))
  rw [ha i, max_comm]
  rfl

/-- A comparison's bit read as a number: widened to 32 bits and read signed, or read unsigned as it is, it is 0 or 1. -/
theorem Rel.bit_to_float {a : IVec s 1} {a' : IVec s' 1} (hlt : 1 < 32) (ha : Rel f a a') :
    Rel f (sitofp (F := Ideal) .f32 (extui 32 a hlt)) (uitofp (F := Ideal) .f32 a') := fun i => by
  show (((((a i).setWidth 32).toInt : ℤ) : ℝ) : EReal) = ((((a' (f i)).toNat : ℕ) : ℝ) : EReal)
  rw [ha i]
  have key : ∀ b : BitVec 1, (b.setWidth 32).toInt = (b.toNat : ℤ) := by decide
  rw [key]
  norm_cast

end AtIdeal

section Sums

/-! The kernel sums a tile one axis at a time: channels, then the two grid axes of a cell, then — after a reshape of the 256
    per-row sums to one row — the rows. Each step read at explicit coordinates. -/

abbrev R2 : Shape := ⟨2, ![256, 7]⟩
abbrev R1 : Shape := ⟨1, ![256]⟩
abbrev R1row : Shape := ⟨2, ![1, 256]⟩
abbrev R0 : Shape := ⟨1, ![1]⟩
abbrev R00 : Shape := ⟨2, ![1, 1]⟩

/-- Summing the channels of a cell. -/
theorem sum_channels {K : ℕ} (x : FVec Ideal (T4 K) .f32) (acc : BitVec (FTy.bits .f32)) (h : (T4 K).Reduces [3] T3)
    (hφ : FKind.Formats .f32) (hacc : acc = FKind.add.neutral .f32 hφ) (b : Fin 256) (s1 s2 : Fin 7) :
    multiReduction .add [3] T3 x acc h hφ hacc (ix3 b s1 s2) = ∑ c : Fin K, x (ix4 b s1 s2 c) := by
  rw [Ideal.multiReduction_add_single]
  exact Finset.sum_congr rfl fun c _ => congrArg x (funext fun a => Fin.ext (by
    match a with
    | ⟨0, _⟩ => rfl
    | ⟨1, _⟩ => rfl
    | ⟨2, _⟩ => rfl
    | ⟨3, _⟩ => rfl))

/-- Summing the second grid axis. -/
theorem sum_cols (x : FVec Ideal T3 .f32) (acc : BitVec (FTy.bits .f32)) (h : T3.Reduces [2] R2)
    (hφ : FKind.Formats .f32) (hacc : acc = FKind.add.neutral .f32 hφ) (b : Fin 256) (s1 : Fin 7) :
    multiReduction .add [2] R2 x acc h hφ hacc (ix2 b s1) = ∑ s2 : Fin 7, x (ix3 b s1 s2) := by
  rw [Ideal.multiReduction_add_single]
  exact Finset.sum_congr rfl fun c _ => congrArg x (funext fun a => Fin.ext (by
    match a with
    | ⟨0, _⟩ => rfl
    | ⟨1, _⟩ => rfl
    | ⟨2, _⟩ => rfl))

/-- Summing the first grid axis, then the 256 rows of the tile: the 256 per-row sums are laid out as one row and summed;
    the one number is stored as a 1 × 1 block. -/
theorem sum_rows (x : FVec Ideal R2 .f32) (acc : BitVec (FTy.bits .f32)) (h1 : R2.Reduces [1] R1) (hc1 : R1.ShapeCasts R1row)
    (h0 : R1row.Reduces [1] R0) (hc0 : R0.ShapeCasts R00)
    (hφ : FKind.Formats .f32) (hacc : acc = FKind.add.neutral .f32 hφ) (hφ' : FKind.Formats .f32) (hacc' : acc = FKind.add.neutral .f32 hφ')
    (i : R00.Idx) :
    shapeCast R00 (multiReduction .add [1] R0 (shapeCast R1row (multiReduction .add [1] R1 x acc h1 hφ hacc) hc1) acc h0 hφ' hacc') hc0 i
      = ∑ b : Fin 256, ∑ s1 : Fin 7, x (ix2 b s1) := by
  have hi0 : (i 0).val = 0 := by have : (i 0).val < 1 := (i 0).isLt; omega
  have hi1 : (i 1).val = 0 := by have : (i 1).val < 1 := (i 1).isLt; omega
  refine (shapeCast_apply _ hc0 i (ix1 ⟨0, Nat.one_pos⟩) ?_).trans ?_
  · rewrite [Shape.rowMajor_val_one, Shape.rowMajor_val_two]
    show 0 = (i 0).val * 1 + (i 1).val
    omega
  rw [Ideal.multiReduction_add_single]
  refine Finset.sum_congr rfl fun b _ => ?_
  refine (shapeCast_apply _ hc1 _ (ix1 b) ?_).trans ?_
  · rewrite [Shape.rowMajor_val_one, Shape.rowMajor_val_two]
    show b.val = 0 * 256 + b.val
    omega
  rw [Ideal.multiReduction_add_single]
  exact Finset.sum_congr rfl fun c _ => congrArg x (funext fun a => Fin.ext (by
    match a with
    | ⟨0, _⟩ => rfl
    | ⟨1, _⟩ => rfl))

/-- The whole chain on an array with channels that is tile `t` of `r`: the sum of `r` over the tile's rows, cells and channels. -/
theorem tile_sum4 {K : ℕ} (t : Fin 64) (x : FVec Ideal (T4 K) .f32) (r : (W4 K).Idx → EReal) (hx : Rel (up4 t K) x r)
    (acc : BitVec (FTy.bits .f32)) (h3 : (T4 K).Reduces [3] T3) (h2 : T3.Reduces [2] R2) (h1 : R2.Reduces [1] R1)
    (hc1 : R1.ShapeCasts R1row) (h0 : R1row.Reduces [1] R0) (hc0 : R0.ShapeCasts R00)
    (p3 : FKind.Formats .f32) (q3 : acc = FKind.add.neutral .f32 p3) (p2 : FKind.Formats .f32) (q2 : acc = FKind.add.neutral .f32 p2)
    (p1 : FKind.Formats .f32) (q1 : acc = FKind.add.neutral .f32 p1) (p0 : FKind.Formats .f32) (q0 : acc = FKind.add.neutral .f32 p0)
    (i : R00.Idx) :
    shapeCast R00 (multiReduction .add [1] R0 (shapeCast R1row (multiReduction .add [1] R1 (multiReduction .add [2] R2
      (multiReduction .add [3] T3 x acc h3 p3 q3) acc h2 p2 q2) acc h1 p1 q1) hc1) acc h0 p0 q0) hc0 i
      = ∑ b : Fin 256, ∑ s1 : Fin 7, ∑ s2 : Fin 7, ∑ c : Fin K, r (up4 t K (ix4 b s1 s2 c)) :=
  (sum_rows _ acc h1 hc1 h0 hc0 p1 q1 p0 q0 i).trans (Finset.sum_congr rfl fun b _ => Finset.sum_congr rfl fun s1 _ =>
    (sum_cols _ acc h2 p2 q2 b s1).trans (Finset.sum_congr rfl fun s2 _ =>
      (sum_channels x acc h3 p3 q3 b s1 s2).trans (Finset.sum_congr rfl fun c _ => hx (ix4 b s1 s2 c))))

/-- The same on an array without a channel axis. -/
theorem tile_sum3 (t : Fin 64) (x : FVec Ideal T3 .f32) (r : W3.Idx → EReal) (hx : Rel (up3 t) x r)
    (acc : BitVec (FTy.bits .f32)) (h2 : T3.Reduces [2] R2) (h1 : R2.Reduces [1] R1)
    (hc1 : R1.ShapeCasts R1row) (h0 : R1row.Reduces [1] R0) (hc0 : R0.ShapeCasts R00)
    (p2 : FKind.Formats .f32) (q2 : acc = FKind.add.neutral .f32 p2)
    (p1 : FKind.Formats .f32) (q1 : acc = FKind.add.neutral .f32 p1) (p0 : FKind.Formats .f32) (q0 : acc = FKind.add.neutral .f32 p0)
    (i : R00.Idx) :
    shapeCast R00 (multiReduction .add [1] R0 (shapeCast R1row (multiReduction .add [1] R1 (multiReduction .add [2] R2
      x acc h2 p2 q2) acc h1 p1 q1) hc1) acc h0 p0 q0) hc0 i
      = ∑ b : Fin 256, ∑ s1 : Fin 7, ∑ s2 : Fin 7, r (up3 t (ix3 b s1 s2)) :=
  (sum_rows _ acc h1 hc1 h0 hc0 p1 q1 p0 q0 i).trans (Finset.sum_congr rfl fun b _ => Finset.sum_congr rfl fun s1 _ =>
    (sum_cols x acc h2 p2 q2 b s1).trans (Finset.sum_congr rfl fun s2 _ => hx (ix3 b s1 s2)))

/-- Only the first step of that chain. -/
theorem tile_sum_cols (t : Fin 64) (x : FVec Ideal T3 .f32) (r : W3.Idx → EReal) (hx : Rel (up3 t) x r)
    (acc : BitVec (FTy.bits .f32)) (h2 : T3.Reduces [2] R2) (p2 : FKind.Formats .f32) (q2 : acc = FKind.add.neutral .f32 p2)
    (b : Fin 256) (s1 : Fin 7) :
    multiReduction .add [2] R2 x acc h2 p2 q2 (ix2 b s1) = ∑ s2 : Fin 7, r (up3 t (ix3 b s1 s2)) :=
  (sum_cols x acc h2 p2 q2 b s1).trans (Finset.sum_congr rfl fun s2 _ => hx (ix3 b s1 s2))

end Sums

end Cert.Tiles

end
-- ==== Proof.RefTac.lean ====
/-
  The step that closes one line of a stretch's statement, and the two facts about a list put together from pieces.
  The fold of a stretch's operations over the contents it starts from is computed at the buffer asked for: each
  operation's result at its own buffer is its function of its operands' contents, at any other buffer what was there.
  What is left reads the contents the stretch started from, at the buffers it finds; those are their stages by
  hypothesis, and the stage asked for is, by its definition, the operations' functions applied to them.
-/
import Idealize.ShloMosaic.Lib.StableHlo.Run

namespace Cert.RefStages

open Idealize.ShloMosaic Idealize.ShloMosaic.StableHlo

syntax "ref_stretch" "[" Lean.Parser.Tactic.simpLemma,* "]" : tactic
macro_rules
  | `(tactic| ref_stretch [$hs,*]) =>
    `(tactic| (after_results_simp; first | assumption | (simp only [$hs,*]; try rfl)))

/-- A property of every element of two lists holds of every element of the two put end to end. -/
theorem forall_append {α : Type} {p : α → Prop} {xs ys : List α} (hx : xs.Forall p) (hy : ys.Forall p) : (xs ++ ys).Forall p :=
  List.forall_iff_forall_mem.mpr fun a ha => (List.mem_append.mp ha).elim
    (List.forall_iff_forall_mem.mp hx a) (List.forall_iff_forall_mem.mp hy a)

/-- The same for a fact stated element by element. -/
theorem mem_append_elim {α : Type} {p : α → Prop} {xs ys : List α} (hx : ∀ a ∈ xs, p a) (hy : ∀ a ∈ ys, p a) :
    ∀ a ∈ xs ++ ys, p a := fun a ha => (List.mem_append.mp ha).elim (hx a) (hy a)

end Cert.RefStages
-- ==== Proof.RefStages.lean ====
/-
  The reference's @main as data: its 209 host operations in program order (the two calls of its clip function written out in
  place), cut into 13 consecutive stretches, and each operation's value as a NAMED STAGE — a function of the two
  arguments' contents, defined from the stages of the operation's operands by the operation's own function. Stating the
  run's result over the stages keeps every term the size of one operation.
-/
import proofs.«400913_j74620761801586_4_alg».proof.Proof.Gen.ReferenceIdeal
import proofs.«400913_j74620761801586_4_alg».proof.Proof.RefTac
import Idealize.ShloMosaic.Lib.StableHlo.Run

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F]

/-! ## The stages -/

def val_main_v0 (a0 a1 : (⟨S16384x7x7x30, .f32⟩ : BufTy).Contents (Elt F)) : (⟨S16384x7x7x1, .f32⟩ : BufTy).Contents (Elt F) :=
  ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)) a1
def val_main_v1 (a0 a1 : (⟨S16384x7x7x30, .f32⟩ : BufTy).Contents (Elt F)) : (⟨S16384x7x7, .f32⟩ : BufTy).Contents (Elt F) :=
  shapeCast _ (val_main_v0 (F := F) a0 a1) shapeCasts_S16384x7x7x1_S16384x7x7
def val_main_cst (a0 a1 : (⟨S16384x7x7x30, .f32⟩ : BufTy).Contents (Elt F)) : (⟨S_, .f32⟩ : BufTy).Contents (Elt F) :=
  (constant S_ .f32 0x3F800000#32)
def val_main_v2 (a0 a1 : (⟨S16384x7x7x30, .f32⟩ : BufTy).Contents (Elt F)) : (⟨S16384x7x7, .f32⟩ : BufTy).Contents (Elt F) :=
  (broadcastInDim S16384x7x7 ![] bcast_S_S16384x7x7 : (⟨S_, .f32⟩ : BufTy).Contents (Elt F) → (⟨S16384x7x7, .f32⟩ : BufTy).Contents (Elt F)) (val_main_cst (F := F) a0 a1)
def val_main_v3 (a0 a1 : (⟨S16384x7x7x30, .f32⟩ : BufTy).Contents (Elt F)) : (⟨S16384x7x7, .f32⟩ : BufTy).Contents (Elt F) :=
  (subf : (⟨S16384x7x7, .f32⟩ : BufTy).Contents (Elt F) → (⟨S16384x7x7, .f32⟩ : BufTy).Contents (Elt F) → (⟨S16384x7x7, .f32⟩ : BufTy).Contents (Elt F)) (val_main_v2 (F := F) a0 a1) (val_main_v1 (F := F) a0 a1)
def val_main_v4 (a0 a1 : (⟨S16384x7x7x30, .f32⟩ : BufTy).Contents (Elt F)) : (⟨S16384x7x7x4, .f32⟩ : BufTy).Contents (Elt F) :=
  ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)) a1
def val_main_v5 (a0 a1 : (⟨S16384x7x7x30, .f32⟩ : BufTy).Contents (Elt F)) : (⟨S16384x7x7x4, .f32⟩ : BufTy).Contents (Elt F) :=
  ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)) a0
def val_main_v6 (a0 a1 : (⟨S16384x7x7x30, .f32⟩ : BufTy).Contents (Elt F)) : (⟨S16384x7x7x4, .f32⟩ : BufTy).Contents (Elt F) :=
  ((extractStridedSlice S16384x7x7x4 ![0, 0, 0, 5] · slices_S16384x7x7x30_S16384x7x7x4_0_0_0_5) : (⟨S16384x7x7x30, .f32⟩ : BufTy).Contents (Elt F) → (⟨S16384x7x7x4, .f32⟩ : BufTy).Contents (Elt F)) a0
def val_main_v7 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v5 (F := F) a0 a1)
def val_main_v8 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v5 (F := F) a0 a1)
def val_main_cst_0 (a0 a1 : (⟨S16384x7x7x30, .f32⟩ : BufTy).Contents (Elt F)) : (⟨S_, .f32⟩ : BufTy).Contents (Elt F) :=
  (constant S_ .f32 0x3F000000#32)
def val_main_v9 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_0 (F := F) a0 a1)
def val_main_v10 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v8 (F := F) a0 a1) (val_main_v9 (F := F) a0 a1)
def val_main_v11 (a0 a1 : (⟨S16384x7x7x30, .f32⟩ : BufTy).Contents (Elt F)) : (⟨S16384x7x7x2, .f32⟩ : BufTy).Contents (Elt F) :=
  (subf : (⟨S16384x7x7x2, .f32⟩ : BufTy).Contents (Elt F) → (⟨S16384x7x7x2, .f32⟩ : BufTy).Contents (Elt F) → (⟨S16384x7x7x2, .f32⟩ : BufTy).Contents (Elt F)) (val_main_v7 (F := F) a0 a1) (val_main_v10 (F := F) a0 a1)
def val_main_v12 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v5 (F := F) a0 a1)
def val_main_v13 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v5 (F := F) a0 a1)
def val_main_cst_1 (a0 a1 : (⟨S16384x7x7x30, .f32⟩ : BufTy).Contents (Elt F)) : (⟨S_, .f32⟩ : BufTy).Contents (Elt F) :=
  (constant S_ .f32 0x3F000000#32)
def val_main_v14 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_1 (F := F) a0 a1)
def val_main_v15 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v13 (F := F) a0 a1) (val_main_v14 (F := F) a0 a1)
def val_main_v16 (a0 a1 : (⟨S16384x7x7x30, .f32⟩ : BufTy).Contents (Elt F)) : (⟨S16384x7x7x2, .f32⟩ : BufTy).Contents (Elt F) :=
  (addf : (⟨S16384x7x7x2, .f32⟩ : BufTy).Contents (Elt F) → (⟨S16384x7x7x2, .f32⟩ : BufTy).Contents (Elt F) → (⟨S16384x7x7x2, .f32⟩ : BufTy).Contents (Elt F)) (val_main_v12 (F := F) a0 a1) (val_main_v15 (F := F) a0 a1)
def val_main_v17 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v4 (F := F) a0 a1)
def val_main_v18 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v4 (F := F) a0 a1)
def val_main_cst_2 (a0 a1 : (⟨S16384x7x7x30, .f32⟩ : BufTy).Contents (Elt F)) : (⟨S_, .f32⟩ : BufTy).Contents (Elt F) :=
  (constant S_ .f32 0x3F000000#32)
def val_main_v19 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_2 (F := F) a0 a1)
def val_main_v20 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v18 (F := F) a0 a1) (val_main_v19 (F := F) a0 a1)
def val_main_v21 (a0 a1 : (⟨S16384x7x7x30, .f32⟩ : BufTy).Contents (Elt F)) : (⟨S16384x7x7x2, .f32⟩ : BufTy).Contents (Elt F) :=
  (subf : (⟨S16384x7x7x2, .f32⟩ : BufTy).Contents (Elt F) → (⟨S16384x7x7x2, .f32⟩ : BufTy).Contents (Elt F) → (⟨S16384x7x7x2, .f32⟩ : BufTy).Contents (Elt F)) (val_main_v17 (F := F) a0 a1) (val_main_v20 (F := F) a0 a1)
def val_main_v22 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v4 (F := F) a0 a1)
def val_main_v23 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v4 (F := F) a0 a1)
def val_main_cst_3 (a0 a1 : (⟨S16384x7x7x30, .f32⟩ : BufTy).Contents (Elt F)) : (⟨S_, .f32⟩ : BufTy).Contents (Elt F) :=
  (constant S_ .f32 0x3F000000#32)
def val_main_v24 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_3 (F := F) a0 a1)
def val_main_v25 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v23 (F := F) a0 a1) (val_main_v24 (F := F) a0 a1)
def val_main_v26 (a0 a1 : (⟨S16384x7x7x30, .f32⟩ : BufTy).Contents (Elt F)) : (⟨S16384x7x7x2, .f32⟩ : BufTy).Contents (Elt F) :=
  (addf : (⟨S16384x7x7x2, .f32⟩ : BufTy).Contents (Elt F) → (⟨S16384x7x7x2, .f32⟩ : BufTy).Contents (Elt F) → (⟨S16384x7x7x2, .f32⟩ : BufTy).Contents (Elt F)) (val_main_v22 (F := F) a0 a1) (val_main_v25 (F := F) a0 a1)
def val_main_v27 (a0 a1 : (⟨S16384x7x7x30, .f32⟩ : BufTy).Contents (Elt F)) : (⟨S16384x7x7x2, .f32⟩ : BufTy).Contents (Elt F) :=
  (minimumf : (⟨S16384x7x7x2, .f32⟩ : BufTy).Contents (Elt F) → (⟨S16384x7x7x2, .f32⟩ : BufTy).Contents (Elt F) → (⟨S16384x7x7x2, .f32⟩ : BufTy).Contents (Elt F)) (val_main_v16 (F := F) a0 a1) (val_main_v26 (F := F) a0 a1)
def val_main_v28 (a0 a1 : (⟨S16384x7x7x30, .f32⟩ : BufTy).Contents (Elt F)) : (⟨S16384x7x7x2, .f32⟩ : BufTy).Contents (Elt F) :=
  (maximumf : (⟨S16384x7x7x2, .f32⟩ : BufTy).Contents (Elt F) → (⟨S16384x7x7x2, .f32⟩ : BufTy).Contents (Elt F) → (⟨S16384x7x7x2, .f32⟩ : BufTy).Contents (Elt F)) (val_main_v11 (F := F) a0 a1) (val_main_v21 (F := F) a0 a1)
def val_main_v29 (a0 a1 : (⟨S16384x7x7x30, .f32⟩ : BufTy).Contents (Elt F)) : (⟨S16384x7x7x2, .f32⟩ : BufTy).Contents (Elt F) :=
  (subf : (⟨S16384x7x7x2, .f32⟩ : BufTy).Contents (Elt F) → (⟨S16384x7x7x2, .f32⟩ : BufTy).Contents (Elt F) → (⟨S16384x7x7x2, .f32⟩ : BufTy).Contents (Elt F)) (val_main_v27 (F := F) a0 a1) (val_main_v28 (F := F) a0 a1)
def val_main_cst_4 (a0 a1 : (⟨S16384x7x7x30, .f32⟩ : BufTy).Contents (Elt F)) : (⟨S_, .f32⟩ : BufTy).Contents (Elt F) :=
  (constant S_ .f32 0x00000000#32)
def val_main_call0_v0 (a0 a1 : (⟨S16384x7x7x30, .f32⟩ : BufTy).Contents (Elt F)) : (⟨S_, .f32⟩ : BufTy).Contents (Elt F) :=
  id (val_main_cst_4 (F := F) a0 a1)
def val_main_call0_v1 (a0 a1 : (⟨S16384x7x7x30, .f32⟩ : BufTy).Contents (Elt F)) : (⟨S16384x7x7x2, .f32⟩ : BufTy).Contents (Elt F) :=
  (broadcastInDim S16384x7x7x2 ![] bcast_S_S16384x7x7x2) (val_main_call0_v0 (F := F) a0 a1)
def val_main_v30 (a0 a1 : (⟨S16384x7x7x30, .f32⟩ : BufTy).Contents (Elt F)) : (⟨S16384x7x7x2, .f32⟩ : BufTy).Contents (Elt F) :=
  maximumf (val_main_call0_v1 (F := F) a0 a1) (val_main_v29 (F := F) a0 a1)
def val_main_v31 (a0 a1 : (⟨S16384x7x7x30, .f32⟩ : BufTy).Contents (Elt F)) : (⟨S16384x7x7x1, .f32⟩ : BufTy).Contents (Elt F) :=
  ((extractStridedSlice S16384x7x7x1 ![0, 0, 0, 0] · slices_S16384x7x7x2_S16384x7x7x1_0_0_0_0) : (⟨S16384x7x7x2, .f32⟩ : BufTy).Contents (Elt F) → (⟨S16384x7x7x1, .f32⟩ : BufTy).Contents (Elt F)) (val_main_v30 (F := F) a0 a1)
def val_main_v32 (a0 a1 : (⟨S16384x7x7x30, .f32⟩ : BufTy).Contents (Elt F)) : (⟨S16384x7x7, .f32⟩ : BufTy).Contents (Elt F) :=
  shapeCast _ (val_main_v31 (F := F) a0 a1) shapeCasts_S16384x7x7x1_S16384x7x7
def val_main_v33 (a0 a1 : (⟨S16384x7x7x30, .f32⟩ : BufTy).Contents (Elt F)) : (⟨S16384x7x7x1, .f32⟩ : BufTy).Contents (Elt F) :=
  ((extractStridedSlice S16384x7x7x1 ![0, 0, 0, 1] · slices_S16384x7x7x2_S16384x7x7x1_0_0_0_1) : (⟨S16384x7x7x2, .f32⟩ : BufTy).Contents (Elt F) → (⟨S16384x7x7x1, .f32⟩ : BufTy).Contents (Elt F)) (val_main_v30 (F := F) a0 a1)
def val_main_v34 (a0 a1 : (⟨S16384x7x7x30, .f32⟩ : BufTy).Contents (Elt F)) : (⟨S16384x7x7, .f32⟩ : BufTy).Contents (Elt F) :=
  shapeCast _ (val_main_v33 (F := F) a0 a1) shapeCasts_S16384x7x7x1_S16384x7x7
def val_main_v35 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v32 (F := F) a0 a1) (val_main_v34 (F := F) a0 a1)
def val_main_v36 (a0 a1 : (⟨S16384x7x7x30, .f32⟩ : BufTy).Contents (Elt F)) : (⟨S16384x7x7x1, .f32⟩ : BufTy).Contents (Elt F) :=
  ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)) (val_main_v5 (F := F) a0 a1)
def val_main_v37 (a0 a1 : (⟨S16384x7x7x30, .f32⟩ : BufTy).Contents (Elt F)) : (⟨S16384x7x7, .f32⟩ : BufTy).Contents (Elt F) :=
  shapeCast _ (val_main_v36 (F := F) a0 a1) shapeCasts_S16384x7x7x1_S16384x7x7
def val_main_v38 (a0 a1 : (⟨S16384x7x7x30, .f32⟩ : BufTy).Contents (Elt F)) : (⟨S16384x7x7x1, .f32⟩ : BufTy).Contents (Elt F) :=
  ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)) (val_main_v5 (F := F) a0 a1)
def val_main_v39 (a0 a1 : (⟨S16384x7x7x30, .f32⟩ : BufTy).Contents (Elt F)) : (⟨S16384x7x7, .f32⟩ : BufTy).Contents (Elt F) :=
  shapeCast _ (val_main_v38 (F := F) a0 a1) shapeCasts_S16384x7x7x1_S16384x7x7
def val_main_v40 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v37 (F := F) a0 a1) (val_main_v39 (F := F) a0 a1)
def val_main_v41 (a0 a1 : (⟨S16384x7x7x30, .f32⟩ : BufTy).Contents (Elt F)) : (⟨S16384x7x7x1, .f32⟩ : BufTy).Contents (Elt F) :=
  ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)) (val_main_v4 (F := F) a0 a1)
def val_main_v42 (a0 a1 : (⟨S16384x7x7x30, .f32⟩ : BufTy).Contents (Elt F)) : (⟨S16384x7x7, .f32⟩ : BufTy).Contents (Elt F) :=
  shapeCast _ (val_main_v41 (F := F) a0 a1) shapeCasts_S16384x7x7x1_S16384x7x7
def val_main_v43 (a0 a1 : (⟨S16384x7x7x30, .f32⟩ : BufTy).Contents (Elt F)) : (⟨S16384x7x7x1, .f32⟩ : BufTy).Contents (Elt F) :=
  ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)) (val_main_v4 (F := F) a0 a1)
def val_main_v44 (a0 a1 : (⟨S16384x7x7x30, .f32⟩ : BufTy).Contents (Elt F)) : (⟨S16384x7x7, .f32⟩ : BufTy).Contents (Elt F) :=
  shapeCast _ (val_main_v43 (F := F) a0 a1) shapeCasts_S16384x7x7x1_S16384x7x7
def val_main_v45 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v42 (F := F) a0 a1) (val_main_v44 (F := F) a0 a1)
def val_main_v46 (a0 a1 : (⟨S16384x7x7x30, .f32⟩ : BufTy).Contents (Elt F)) : (⟨S16384x7x7, .f32⟩ : BufTy).Contents (Elt F) :=
  (addf : (⟨S16384x7x7, .f32⟩ : BufTy).Contents (Elt F) → (⟨S16384x7x7, .f32⟩ : BufTy).Contents (Elt F) → (⟨S16384x7x7, .f32⟩ : BufTy).Contents (Elt F)) (val_main_v40 (F := F) a0 a1) (val_main_v45 (F := F) a0 a1)
def val_main_v47 (a0 a1 : (⟨S16384x7x7x30, .f32⟩ : BufTy).Contents (Elt F)) : (⟨S16384x7x7, .f32⟩ : BufTy).Contents (Elt F) :=
  (subf : (⟨S16384x7x7, .f32⟩ : BufTy).Contents (Elt F) → (⟨S16384x7x7, .f32⟩ : BufTy).Contents (Elt F) → (⟨S16384x7x7, .f32⟩ : BufTy).Contents (Elt F)) (val_main_v46 (F := F) a0 a1) (val_main_v35 (F := F) a0 a1)
def val_main_cst_5 (a0 a1 : (⟨S16384x7x7x30, .f32⟩ : BufTy).Contents (Elt F)) : (⟨S_, .f32⟩ : BufTy).Contents (Elt F) :=
  (constant S_ .f32 0x2EDBE6FF#32)
def val_main_v48 (a0 a1 : (⟨S16384x7x7x30, .f32⟩ : BufTy).Contents (Elt F)) : (⟨S16384x7x7, .f32⟩ : BufTy).Contents (Elt F) :=
  (broadcastInDim S16384x7x7 ![] bcast_S_S16384x7x7 : (⟨S_, .f32⟩ : BufTy).Contents (Elt F) → (⟨S16384x7x7, .f32⟩ : BufTy).Contents (Elt F)) (val_main_cst_5 (F := F) a0 a1)
def val_main_v49 (a0 a1 : (⟨S16384x7x7x30, .f32⟩ : BufTy).Contents (Elt F)) : (⟨S16384x7x7, .f32⟩ : BufTy).Contents (Elt F) :=
  (addf : (⟨S16384x7x7, .f32⟩ : BufTy).Contents (Elt F) → (⟨S16384x7x7, .f32⟩ : BufTy).Contents (Elt F) → (⟨S16384x7x7, .f32⟩ : BufTy).Contents (Elt F)) (val_main_v47 (F := F) a0 a1) (val_main_v48 (F := F) a0 a1)
def val_main_v50 (a0 a1 : (⟨S16384x7x7x30, .f32⟩ : BufTy).Contents (Elt F)) : (⟨S16384x7x7, .f32⟩ : BufTy).Contents (Elt F) :=
  (Host.divf : (⟨S16384x7x7, .f32⟩ : BufTy).Contents (Elt F) → (⟨S16384x7x7, .f32⟩ : BufTy).Contents (Elt F) → (⟨S16384x7x7, .f32⟩ : BufTy).Contents (Elt F)) (val_main_v35 (F := F) a0 a1) (val_main_v49 (F := F) a0 a1)
def val_main_v51 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v6 (F := F) a0 a1)
def val_main_v52 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v6 (F := F) a0 a1)
def val_main_cst_6 (a0 a1 : (⟨S16384x7x7x30, .f32⟩ : BufTy).Contents (Elt F)) : (⟨S_, .f32⟩ : BufTy).Contents (Elt F) :=
  (constant S_ .f32 0x3F000000#32)
def val_main_v53 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_6 (F := F) a0 a1)
def val_main_v54 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v52 (F := F) a0 a1) (val_main_v53 (F := F) a0 a1)
def val_main_v55 (a0 a1 : (⟨S16384x7x7x30, .f32⟩ : BufTy).Contents (Elt F)) : (⟨S16384x7x7x2, .f32⟩ : BufTy).Contents (Elt F) :=
  (subf : (⟨S16384x7x7x2, .f32⟩ : BufTy).Contents (Elt F) → (⟨S16384x7x7x2, .f32⟩ : BufTy).Contents (Elt F) → (⟨S16384x7x7x2, .f32⟩ : BufTy).Contents (Elt F)) (val_main_v51 (F := F) a0 a1) (val_main_v54 (F := F) a0 a1)
def val_main_v56 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v6 (F := F) a0 a1)
def val_main_v57 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v6 (F := F) a0 a1)
def val_main_cst_7 (a0 a1 : (⟨S16384x7x7x30, .f32⟩ : BufTy).Contents (Elt F)) : (⟨S_, .f32⟩ : BufTy).Contents (Elt F) :=
  (constant S_ .f32 0x3F000000#32)
def val_main_v58 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_7 (F := F) a0 a1)
def val_main_v59 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v57 (F := F) a0 a1) (val_main_v58 (F := F) a0 a1)
def val_main_v60 (a0 a1 : (⟨S16384x7x7x30, .f32⟩ : BufTy).Contents (Elt F)) : (⟨S16384x7x7x2, .f32⟩ : BufTy).Contents (Elt F) :=
  (addf : (⟨S16384x7x7x2, .f32⟩ : BufTy).Contents (Elt F) → (⟨S16384x7x7x2, .f32⟩ : BufTy).Contents (Elt F) → (⟨S16384x7x7x2, .f32⟩ : BufTy).Contents (Elt F)) (val_main_v56 (F := F) a0 a1) (val_main_v59 (F := F) a0 a1)
def val_main_v61 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v4 (F := F) a0 a1)
def val_main_v62 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v4 (F := F) a0 a1)
def val_main_cst_8 (a0 a1 : (⟨S16384x7x7x30, .f32⟩ : BufTy).Contents (Elt F)) : (⟨S_, .f32⟩ : BufTy).Contents (Elt F) :=
  (constant S_ .f32 0x3F000000#32)
def val_main_v63 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_8 (F := F) a0 a1)
def val_main_v64 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v62 (F := F) a0 a1) (val_main_v63 (F := F) a0 a1)
def val_main_v65 (a0 a1 : (⟨S16384x7x7x30, .f32⟩ : BufTy).Contents (Elt F)) : (⟨S16384x7x7x2, .f32⟩ : BufTy).Contents (Elt F) :=
  (subf : (⟨S16384x7x7x2, .f32⟩ : BufTy).Contents (Elt F) → (⟨S16384x7x7x2, .f32⟩ : BufTy).Contents (Elt F) → (⟨S16384x7x7x2, .f32⟩ : BufTy).Contents (Elt F)) (val_main_v61 (F := F) a0 a1) (val_main_v64 (F := F) a0 a1)
def val_main_v66 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v4 (F := F) a0 a1)
def val_main_v67 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v4 (F := F) a0 a1)
def val_main_cst_9 (a0 a1 : (⟨S16384x7x7x30, .f32⟩ : BufTy).Contents (Elt F)) : (⟨S_, .f32⟩ : BufTy).Contents (Elt F) :=
  (constant S_ .f32 0x3F000000#32)
def val_main_v68 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_9 (F := F) a0 a1)
def val_main_v69 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v67 (F := F) a0 a1) (val_main_v68 (F := F) a0 a1)
def val_main_v70 (a0 a1 : (⟨S16384x7x7x30, .f32⟩ : BufTy).Contents (Elt F)) : (⟨S16384x7x7x2, .f32⟩ : BufTy).Contents (Elt F) :=
  (addf : (⟨S16384x7x7x2, .f32⟩ : BufTy).Contents (Elt F) → (⟨S16384x7x7x2, .f32⟩ : BufTy).Contents (Elt F) → (⟨S16384x7x7x2, .f32⟩ : BufTy).Contents (Elt F)) (val_main_v66 (F := F) a0 a1) (val_main_v69 (F := F) a0 a1)
def val_main_v71 (a0 a1 : (⟨S16384x7x7x30, .f32⟩ : BufTy).Contents (Elt F)) : (⟨S16384x7x7x2, .f32⟩ : BufTy).Contents (Elt F) :=
  (minimumf : (⟨S16384x7x7x2, .f32⟩ : BufTy).Contents (Elt F) → (⟨S16384x7x7x2, .f32⟩ : BufTy).Contents (Elt F) → (⟨S16384x7x7x2, .f32⟩ : BufTy).Contents (Elt F)) (val_main_v60 (F := F) a0 a1) (val_main_v70 (F := F) a0 a1)
def val_main_v72 (a0 a1 : (⟨S16384x7x7x30, .f32⟩ : BufTy).Contents (Elt F)) : (⟨S16384x7x7x2, .f32⟩ : BufTy).Contents (Elt F) :=
  (maximumf : (⟨S16384x7x7x2, .f32⟩ : BufTy).Contents (Elt F) → (⟨S16384x7x7x2, .f32⟩ : BufTy).Contents (Elt F) → (⟨S16384x7x7x2, .f32⟩ : BufTy).Contents (Elt F)) (val_main_v55 (F := F) a0 a1) (val_main_v65 (F := F) a0 a1)
def val_main_v73 (a0 a1 : (⟨S16384x7x7x30, .f32⟩ : BufTy).Contents (Elt F)) : (⟨S16384x7x7x2, .f32⟩ : BufTy).Contents (Elt F) :=
  (subf : (⟨S16384x7x7x2, .f32⟩ : BufTy).Contents (Elt F) → (⟨S16384x7x7x2, .f32⟩ : BufTy).Contents (Elt F) → (⟨S16384x7x7x2, .f32⟩ : BufTy).Contents (Elt F)) (val_main_v71 (F := F) a0 a1) (val_main_v72 (F := F) a0 a1)
def val_main_cst_10 (a0 a1 : (⟨S16384x7x7x30, .f32⟩ : BufTy).Contents (Elt F)) : (⟨S_, .f32⟩ : BufTy).Contents (Elt F) :=
  (constant S_ .f32 0x00000000#32)
def val_main_call1_v0 (a0 a1 : (⟨S16384x7x7x30, .f32⟩ : BufTy).Contents (Elt F)) : (⟨S_, .f32⟩ : BufTy).Contents (Elt F) :=
  id (val_main_cst_10 (F := F) a0 a1)
def val_main_call1_v1 (a0 a1 : (⟨S16384x7x7x30, .f32⟩ : BufTy).Contents (Elt F)) : (⟨S16384x7x7x2, .f32⟩ : BufTy).Contents (Elt F) :=
  (broadcastInDim S16384x7x7x2 ![] bcast_S_S16384x7x7x2) (val_main_call1_v0 (F := F) a0 a1)
def val_main_v74 (a0 a1 : (⟨S16384x7x7x30, .f32⟩ : BufTy).Contents (Elt F)) : (⟨S16384x7x7x2, .f32⟩ : BufTy).Contents (Elt F) :=
  maximumf (val_main_call1_v1 (F := F) a0 a1) (val_main_v73 (F := F) a0 a1)
def val_main_v75 (a0 a1 : (⟨S16384x7x7x30, .f32⟩ : BufTy).Contents (Elt F)) : (⟨S16384x7x7x1, .f32⟩ : BufTy).Contents (Elt F) :=
  ((extractStridedSlice S16384x7x7x1 ![0, 0, 0, 0] · slices_S16384x7x7x2_S16384x7x7x1_0_0_0_0) : (⟨S16384x7x7x2, .f32⟩ : BufTy).Contents (Elt F) → (⟨S16384x7x7x1, .f32⟩ : BufTy).Contents (Elt F)) (val_main_v74 (F := F) a0 a1)
def val_main_v76 (a0 a1 : (⟨S16384x7x7x30, .f32⟩ : BufTy).Contents (Elt F)) : (⟨S16384x7x7, .f32⟩ : BufTy).Contents (Elt F) :=
  shapeCast _ (val_main_v75 (F := F) a0 a1) shapeCasts_S16384x7x7x1_S16384x7x7
def val_main_v77 (a0 a1 : (⟨S16384x7x7x30, .f32⟩ : BufTy).Contents (Elt F)) : (⟨S16384x7x7x1, .f32⟩ : BufTy).Contents (Elt F) :=
  ((extractStridedSlice S16384x7x7x1 ![0, 0, 0, 1] · slices_S16384x7x7x2_S16384x7x7x1_0_0_0_1) : (⟨S16384x7x7x2, .f32⟩ : BufTy).Contents (Elt F) → (⟨S16384x7x7x1, .f32⟩ : BufTy).Contents (Elt F)) (val_main_v74 (F := F) a0 a1)
def val_main_v78 (a0 a1 : (⟨S16384x7x7x30, .f32⟩ : BufTy).Contents (Elt F)) : (⟨S16384x7x7, .f32⟩ : BufTy).Contents (Elt F) :=
  shapeCast _ (val_main_v77 (F := F) a0 a1) shapeCasts_S16384x7x7x1_S16384x7x7
def val_main_v79 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v76 (F := F) a0 a1) (val_main_v78 (F := F) a0 a1)
def val_main_v80 (a0 a1 : (⟨S16384x7x7x30, .f32⟩ : BufTy).Contents (Elt F)) : (⟨S16384x7x7x1, .f32⟩ : BufTy).Contents (Elt F) :=
  ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)) (val_main_v6 (F := F) a0 a1)
def val_main_v81 (a0 a1 : (⟨S16384x7x7x30, .f32⟩ : BufTy).Contents (Elt F)) : (⟨S16384x7x7, .f32⟩ : BufTy).Contents (Elt F) :=
  shapeCast _ (val_main_v80 (F := F) a0 a1) shapeCasts_S16384x7x7x1_S16384x7x7
def val_main_v82 (a0 a1 : (⟨S16384x7x7x30, .f32⟩ : BufTy).Contents (Elt F)) : (⟨S16384x7x7x1, .f32⟩ : BufTy).Contents (Elt F) :=
  ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)) (val_main_v6 (F := F) a0 a1)
def val_main_v83 (a0 a1 : (⟨S16384x7x7x30, .f32⟩ : BufTy).Contents (Elt F)) : (⟨S16384x7x7, .f32⟩ : BufTy).Contents (Elt F) :=
  shapeCast _ (val_main_v82 (F := F) a0 a1) shapeCasts_S16384x7x7x1_S16384x7x7
def val_main_v84 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v81 (F := F) a0 a1) (val_main_v83 (F := F) a0 a1)
def val_main_v85 (a0 a1 : (⟨S16384x7x7x30, .f32⟩ : BufTy).Contents (Elt F)) : (⟨S16384x7x7x1, .f32⟩ : BufTy).Contents (Elt F) :=
  ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)) (val_main_v4 (F := F) a0 a1)
def val_main_v86 (a0 a1 : (⟨S16384x7x7x30, .f32⟩ : BufTy).Contents (Elt F)) : (⟨S16384x7x7, .f32⟩ : BufTy).Contents (Elt F) :=
  shapeCast _ (val_main_v85 (F := F) a0 a1) shapeCasts_S16384x7x7x1_S16384x7x7
def val_main_v87 (a0 a1 : (⟨S16384x7x7x30, .f32⟩ : BufTy).Contents (Elt F)) : (⟨S16384x7x7x1, .f32⟩ : BufTy).Contents (Elt F) :=
  ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)) (val_main_v4 (F := F) a0 a1)
def val_main_v88 (a0 a1 : (⟨S16384x7x7x30, .f32⟩ : BufTy).Contents (Elt F)) : (⟨S16384x7x7, .f32⟩ : BufTy).Contents (Elt F) :=
  shapeCast _ (val_main_v87 (F := F) a0 a1) shapeCasts_S16384x7x7x1_S16384x7x7
def val_main_v89 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v86 (F := F) a0 a1) (val_main_v88 (F := F) a0 a1)
def val_main_v90 (a0 a1 : (⟨S16384x7x7x30, .f32⟩ : BufTy).Contents (Elt F)) : (⟨S16384x7x7, .f32⟩ : BufTy).Contents (Elt F) :=
  (addf : (⟨S16384x7x7, .f32⟩ : BufTy).Contents (Elt F) → (⟨S16384x7x7, .f32⟩ : BufTy).Contents (Elt F) → (⟨S16384x7x7, .f32⟩ : BufTy).Contents (Elt F)) (val_main_v84 (F := F) a0 a1) (val_main_v89 (F := F) a0 a1)
def val_main_v91 (a0 a1 : (⟨S16384x7x7x30, .f32⟩ : BufTy).Contents (Elt F)) : (⟨S16384x7x7, .f32⟩ : BufTy).Contents (Elt F) :=
  (subf : (⟨S16384x7x7, .f32⟩ : BufTy).Contents (Elt F) → (⟨S16384x7x7, .f32⟩ : BufTy).Contents (Elt F) → (⟨S16384x7x7, .f32⟩ : BufTy).Contents (Elt F)) (val_main_v90 (F := F) a0 a1) (val_main_v79 (F := F) a0 a1)
def val_main_cst_11 (a0 a1 : (⟨S16384x7x7x30, .f32⟩ : BufTy).Contents (Elt F)) : (⟨S_, .f32⟩ : BufTy).Contents (Elt F) :=
  (constant S_ .f32 0x2EDBE6FF#32)
def val_main_v92 (a0 a1 : (⟨S16384x7x7x30, .f32⟩ : BufTy).Contents (Elt F)) : (⟨S16384x7x7, .f32⟩ : BufTy).Contents (Elt F) :=
  (broadcastInDim S16384x7x7 ![] bcast_S_S16384x7x7 : (⟨S_, .f32⟩ : BufTy).Contents (Elt F) → (⟨S16384x7x7, .f32⟩ : BufTy).Contents (Elt F)) (val_main_cst_11 (F := F) a0 a1)
def val_main_v93 (a0 a1 : (⟨S16384x7x7x30, .f32⟩ : BufTy).Contents (Elt F)) : (⟨S16384x7x7, .f32⟩ : BufTy).Contents (Elt F) :=
  (addf : (⟨S16384x7x7, .f32⟩ : BufTy).Contents (Elt F) → (⟨S16384x7x7, .f32⟩ : BufTy).Contents (Elt F) → (⟨S16384x7x7, .f32⟩ : BufTy).Contents (Elt F)) (val_main_v91 (F := F) a0 a1) (val_main_v92 (F := F) a0 a1)
def val_main_v94 (a0 a1 : (⟨S16384x7x7x30, .f32⟩ : BufTy).Contents (Elt F)) : (⟨S16384x7x7, .f32⟩ : BufTy).Contents (Elt F) :=
  (Host.divf : (⟨S16384x7x7, .f32⟩ : BufTy).Contents (Elt F) → (⟨S16384x7x7, .f32⟩ : BufTy).Contents (Elt F) → (⟨S16384x7x7, .f32⟩ : BufTy).Contents (Elt F)) (val_main_v79 (F := F) a0 a1) (val_main_v93 (F := F) a0 a1)
def val_main_v95 (a0 a1 : (⟨S16384x7x7x30, .f32⟩ : BufTy).Contents (Elt F)) : (⟨S16384x7x7, .i1⟩ : BufTy).Contents (Elt F) :=
  (cmpf .ogt : (⟨S16384x7x7, .f32⟩ : BufTy).Contents (Elt F) → (⟨S16384x7x7, .f32⟩ : BufTy).Contents (Elt F) → (⟨S16384x7x7, .i1⟩ : BufTy).Contents (Elt F)) (val_main_v50 (F := F) a0 a1) (val_main_v94 (F := F) a0 a1)
def val_main_v96 (a0 a1 : (⟨S16384x7x7x30, .f32⟩ : BufTy).Contents (Elt F)) : (⟨S16384x7x7, .f32⟩ : BufTy).Contents (Elt F) :=
  (uitofp .f32 : (⟨S16384x7x7, .i1⟩ : BufTy).Contents (Elt F) → (⟨S16384x7x7, .f32⟩ : BufTy).Contents (Elt F)) (val_main_v95 (F := F) a0 a1)
def val_main_v97 (a0 a1 : (⟨S16384x7x7x30, .f32⟩ : BufTy).Contents (Elt F)) : (⟨S16384x7x7x1, .f32⟩ : BufTy).Contents (Elt F) :=
  (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)) (val_main_v96 (F := F) a0 a1)
def val_main_v98 (a0 a1 : (⟨S16384x7x7x30, .f32⟩ : BufTy).Contents (Elt F)) : (⟨S16384x7x7x4, .f32⟩ : BufTy).Contents (Elt F) :=
  (broadcastInDim S16384x7x7x4 ![0, 1, 2, 3] bcast_S16384x7x7x1_S16384x7x7x4_0_1_2_3 : (⟨S16384x7x7x1, .f32⟩ : BufTy).Contents (Elt F) → (⟨S16384x7x7x4, .f32⟩ : BufTy).Contents (Elt F)) (val_main_v97 (F := F) a0 a1)
def val_main_v99 (a0 a1 : (⟨S16384x7x7x30, .f32⟩ : BufTy).Contents (Elt F)) : (⟨S16384x7x7x4, .f32⟩ : BufTy).Contents (Elt F) :=
  (mulf : (⟨S16384x7x7x4, .f32⟩ : BufTy).Contents (Elt F) → (⟨S16384x7x7x4, .f32⟩ : BufTy).Contents (Elt F) → (⟨S16384x7x7x4, .f32⟩ : BufTy).Contents (Elt F)) (val_main_v98 (F := F) a0 a1) (val_main_v5 (F := F) a0 a1)
def val_main_cst_12 (a0 a1 : (⟨S16384x7x7x30, .f32⟩ : BufTy).Contents (Elt F)) : (⟨S_, .f32⟩ : BufTy).Contents (Elt F) :=
  (constant S_ .f32 0x3F800000#32)
def val_main_v100 (a0 a1 : (⟨S16384x7x7x30, .f32⟩ : BufTy).Contents (Elt F)) : (⟨S16384x7x7x1, .f32⟩ : BufTy).Contents (Elt F) :=
  (broadcastInDim S16384x7x7x1 ![] bcast_S_S16384x7x7x1 : (⟨S_, .f32⟩ : BufTy).Contents (Elt F) → (⟨S16384x7x7x1, .f32⟩ : BufTy).Contents (Elt F)) (val_main_cst_12 (F := F) a0 a1)
def val_main_v101 (a0 a1 : (⟨S16384x7x7x30, .f32⟩ : BufTy).Contents (Elt F)) : (⟨S16384x7x7x1, .f32⟩ : BufTy).Contents (Elt F) :=
  (subf : (⟨S16384x7x7x1, .f32⟩ : BufTy).Contents (Elt F) → (⟨S16384x7x7x1, .f32⟩ : BufTy).Contents (Elt F) → (⟨S16384x7x7x1, .f32⟩ : BufTy).Contents (Elt F)) (val_main_v100 (F := F) a0 a1) (val_main_v97 (F := F) a0 a1)
def val_main_v102 (a0 a1 : (⟨S16384x7x7x30, .f32⟩ : BufTy).Contents (Elt F)) : (⟨S16384x7x7x4, .f32⟩ : BufTy).Contents (Elt F) :=
  (broadcastInDim S16384x7x7x4 ![0, 1, 2, 3] bcast_S16384x7x7x1_S16384x7x7x4_0_1_2_3 : (⟨S16384x7x7x1, .f32⟩ : BufTy).Contents (Elt F) → (⟨S16384x7x7x4, .f32⟩ : BufTy).Contents (Elt F)) (val_main_v101 (F := F) a0 a1)
def val_main_v103 (a0 a1 : (⟨S16384x7x7x30, .f32⟩ : BufTy).Contents (Elt F)) : (⟨S16384x7x7x4, .f32⟩ : BufTy).Contents (Elt F) :=
  (mulf : (⟨S16384x7x7x4, .f32⟩ : BufTy).Contents (Elt F) → (⟨S16384x7x7x4, .f32⟩ : BufTy).Contents (Elt F) → (⟨S16384x7x7x4, .f32⟩ : BufTy).Contents (Elt F)) (val_main_v102 (F := F) a0 a1) (val_main_v6 (F := F) a0 a1)
def val_main_v104 (a0 a1 : (⟨S16384x7x7x30, .f32⟩ : BufTy).Contents (Elt F)) : (⟨S16384x7x7x4, .f32⟩ : BufTy).Contents (Elt F) :=
  (addf : (⟨S16384x7x7x4, .f32⟩ : BufTy).Contents (Elt F) → (⟨S16384x7x7x4, .f32⟩ : BufTy).Contents (Elt F) → (⟨S16384x7x7x4, .f32⟩ : BufTy).Contents (Elt F)) (val_main_v99 (F := F) a0 a1) (val_main_v103 (F := F) a0 a1)
def val_main_v105 (a0 a1 : (⟨S16384x7x7x30, .f32⟩ : BufTy).Contents (Elt F)) : (⟨S16384x7x7x1, .f32⟩ : BufTy).Contents (Elt F) :=
  ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)) a0
def val_main_v106 (a0 a1 : (⟨S16384x7x7x30, .f32⟩ : BufTy).Contents (Elt F)) : (⟨S16384x7x7, .f32⟩ : BufTy).Contents (Elt F) :=
  shapeCast _ (val_main_v105 (F := F) a0 a1) shapeCasts_S16384x7x7x1_S16384x7x7
def val_main_v107 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v96 (F := F) a0 a1) (val_main_v106 (F := F) a0 a1)
def val_main_cst_13 (a0 a1 : (⟨S16384x7x7x30, .f32⟩ : BufTy).Contents (Elt F)) : (⟨S_, .f32⟩ : BufTy).Contents (Elt F) :=
  (constant S_ .f32 0x3F800000#32)
def val_main_v108 (a0 a1 : (⟨S16384x7x7x30, .f32⟩ : BufTy).Contents (Elt F)) : (⟨S16384x7x7, .f32⟩ : BufTy).Contents (Elt F) :=
  (broadcastInDim S16384x7x7 ![] bcast_S_S16384x7x7 : (⟨S_, .f32⟩ : BufTy).Contents (Elt F) → (⟨S16384x7x7, .f32⟩ : BufTy).Contents (Elt F)) (val_main_cst_13 (F := F) a0 a1)
def val_main_v109 (a0 a1 : (⟨S16384x7x7x30, .f32⟩ : BufTy).Contents (Elt F)) : (⟨S16384x7x7, .f32⟩ : BufTy).Contents (Elt F) :=
  (subf : (⟨S16384x7x7, .f32⟩ : BufTy).Contents (Elt F) → (⟨S16384x7x7, .f32⟩ : BufTy).Contents (Elt F) → (⟨S16384x7x7, .f32⟩ : BufTy).Contents (Elt F)) (val_main_v108 (F := F) a0 a1) (val_main_v96 (F := F) a0 a1)
def val_main_v110 (a0 a1 : (⟨S16384x7x7x30, .f32⟩ : BufTy).Contents (Elt F)) : (⟨S16384x7x7x1, .f32⟩ : BufTy).Contents (Elt F) :=
  ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)) a0
def val_main_v111 (a0 a1 : (⟨S16384x7x7x30, .f32⟩ : BufTy).Contents (Elt F)) : (⟨S16384x7x7, .f32⟩ : BufTy).Contents (Elt F) :=
  shapeCast _ (val_main_v110 (F := F) a0 a1) shapeCasts_S16384x7x7x1_S16384x7x7
def val_main_v112 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v109 (F := F) a0 a1) (val_main_v111 (F := F) a0 a1)
def val_main_v113 (a0 a1 : (⟨S16384x7x7x30, .f32⟩ : BufTy).Contents (Elt F)) : (⟨S16384x7x7, .f32⟩ : BufTy).Contents (Elt F) :=
  (addf : (⟨S16384x7x7, .f32⟩ : BufTy).Contents (Elt F) → (⟨S16384x7x7, .f32⟩ : BufTy).Contents (Elt F) → (⟨S16384x7x7, .f32⟩ : BufTy).Contents (Elt F)) (val_main_v107 (F := F) a0 a1) (val_main_v112 (F := F) a0 a1)
def val_main_cst_14 (a0 a1 : (⟨S16384x7x7x30, .f32⟩ : BufTy).Contents (Elt F)) : (⟨S_, .f32⟩ : BufTy).Contents (Elt F) :=
  (constant S_ .f32 0x3F800000#32)
def val_main_v114 (a0 a1 : (⟨S16384x7x7x30, .f32⟩ : BufTy).Contents (Elt F)) : (⟨S16384x7x7, .f32⟩ : BufTy).Contents (Elt F) :=
  (broadcastInDim S16384x7x7 ![] bcast_S_S16384x7x7 : (⟨S_, .f32⟩ : BufTy).Contents (Elt F) → (⟨S16384x7x7, .f32⟩ : BufTy).Contents (Elt F)) (val_main_cst_14 (F := F) a0 a1)
def val_main_v115 (a0 a1 : (⟨S16384x7x7x30, .f32⟩ : BufTy).Contents (Elt F)) : (⟨S16384x7x7, .f32⟩ : BufTy).Contents (Elt F) :=
  (subf : (⟨S16384x7x7, .f32⟩ : BufTy).Contents (Elt F) → (⟨S16384x7x7, .f32⟩ : BufTy).Contents (Elt F) → (⟨S16384x7x7, .f32⟩ : BufTy).Contents (Elt F)) (val_main_v114 (F := F) a0 a1) (val_main_v96 (F := F) a0 a1)
def val_main_v116 (a0 a1 : (⟨S16384x7x7x30, .f32⟩ : BufTy).Contents (Elt F)) : (⟨S16384x7x7x1, .f32⟩ : BufTy).Contents (Elt F) :=
  ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)) a0
def val_main_v117 (a0 a1 : (⟨S16384x7x7x30, .f32⟩ : BufTy).Contents (Elt F)) : (⟨S16384x7x7, .f32⟩ : BufTy).Contents (Elt F) :=
  shapeCast _ (val_main_v116 (F := F) a0 a1) shapeCasts_S16384x7x7x1_S16384x7x7
def val_main_v118 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v115 (F := F) a0 a1) (val_main_v117 (F := F) a0 a1)
def val_main_v119 (a0 a1 : (⟨S16384x7x7x30, .f32⟩ : BufTy).Contents (Elt F)) : (⟨S16384x7x7x1, .f32⟩ : BufTy).Contents (Elt F) :=
  ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)) a0
def val_main_v120 (a0 a1 : (⟨S16384x7x7x30, .f32⟩ : BufTy).Contents (Elt F)) : (⟨S16384x7x7, .f32⟩ : BufTy).Contents (Elt F) :=
  shapeCast _ (val_main_v119 (F := F) a0 a1) shapeCasts_S16384x7x7x1_S16384x7x7
def val_main_v121 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v96 (F := F) a0 a1) (val_main_v120 (F := F) a0 a1)
def val_main_v122 (a0 a1 : (⟨S16384x7x7x30, .f32⟩ : BufTy).Contents (Elt F)) : (⟨S16384x7x7, .f32⟩ : BufTy).Contents (Elt F) :=
  (addf : (⟨S16384x7x7, .f32⟩ : BufTy).Contents (Elt F) → (⟨S16384x7x7, .f32⟩ : BufTy).Contents (Elt F) → (⟨S16384x7x7, .f32⟩ : BufTy).Contents (Elt F)) (val_main_v118 (F := F) a0 a1) (val_main_v121 (F := F) a0 a1)
def val_main_v123 (a0 a1 : (⟨S16384x7x7x30, .f32⟩ : BufTy).Contents (Elt F)) : (⟨S16384x7x7, .f32⟩ : BufTy).Contents (Elt F) :=
  (maximumf : (⟨S16384x7x7, .f32⟩ : BufTy).Contents (Elt F) → (⟨S16384x7x7, .f32⟩ : BufTy).Contents (Elt F) → (⟨S16384x7x7, .f32⟩ : BufTy).Contents (Elt F)) (val_main_v50 (F := F) a0 a1) (val_main_v94 (F := F) a0 a1)
def val_main_v124 (a0 a1 : (⟨S16384x7x7x30, .f32⟩ : BufTy).Contents (Elt F)) : (⟨S16384x7x7x1, .f32⟩ : BufTy).Contents (Elt F) :=
  (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)) (val_main_v1 (F := F) a0 a1)
def val_main_v125 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v104 (F := F) a0 a1)
def val_main_v126 (a0 a1 : (⟨S16384x7x7x30, .f32⟩ : BufTy).Contents (Elt F)) : (⟨S16384x7x7x2, .f32⟩ : BufTy).Contents (Elt F) :=
  ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)) (val_main_v4 (F := F) a0 a1)
def val_main_v127 (a0 a1 : (⟨S16384x7x7x30, .f32⟩ : BufTy).Contents (Elt F)) : (⟨S16384x7x7x2, .f32⟩ : BufTy).Contents (Elt F) :=
  (subf : (⟨S16384x7x7x2, .f32⟩ : BufTy).Contents (Elt F) → (⟨S16384x7x7x2, .f32⟩ : BufTy).Contents (Elt F) → (⟨S16384x7x7x2, .f32⟩ : BufTy).Contents (Elt F)) (val_main_v125 (F := F) a0 a1) (val_main_v126 (F := F) a0 a1)
def val_main_v128 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v127 (F := F) a0 a1) (val_main_v127 (F := F) a0 a1)
def val_main_v129 (a0 a1 : (⟨S16384x7x7x30, .f32⟩ : BufTy).Contents (Elt F)) : (⟨S16384x7x7x2, .f32⟩ : BufTy).Contents (Elt F) :=
  (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)) (val_main_v124 (F := F) a0 a1)
def val_main_v130 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v129 (F := F) a0 a1) (val_main_v128 (F := F) a0 a1)
def val_main_cst_15 (a0 a1 : (⟨S16384x7x7x30, .f32⟩ : BufTy).Contents (Elt F)) : (⟨S_, .f32⟩ : BufTy).Contents (Elt F) :=
  (constant S_ .f32 0x00000000#32)
def val_main_v131 (a0 a1 : (⟨S16384x7x7x30, .f32⟩ : BufTy).Contents (Elt F)) : (⟨S_, .f32⟩ : BufTy).Contents (Elt F) :=
  ((fun x v => Host.reduceAdd x v reducesTo_S16384x7x7x2_S_d0_1_2_3 h_S_) : (⟨S16384x7x7x2, .f32⟩ : BufTy).Contents (Elt F) → (⟨S_, .f32⟩ : BufTy).Contents (Elt F) → (⟨S_, .f32⟩ : BufTy).Contents (Elt F)) (val_main_v130 (F := F) a0 a1) (val_main_cst_15 (F := F) a0 a1)
def val_main_cst_16 (a0 a1 : (⟨S16384x7x7x30, .f32⟩ : BufTy).Contents (Elt F)) : (⟨S_, .f32⟩ : BufTy).Contents (Elt F) :=
  (constant S_ .f32 0x40A00000#32)
def val_main_v132 (a0 a1 : (⟨S16384x7x7x30, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (val_main_cst_16 (F := F) a0 a1) (val_main_v131 (F := F) a0 a1)
def val_main_v133 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v104 (F := F) a0 a1)
def val_main_cst_17 (a0 a1 : (⟨S16384x7x7x30, .f32⟩ : BufTy).Contents (Elt F)) : (⟨S_, .f32⟩ : BufTy).Contents (Elt F) :=
  (constant S_ .f32 0x322BCC77#32)
def val_main_v134 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_17 (F := F) a0 a1)
def val_main_v135 (a0 a1 : (⟨S16384x7x7x30, .f32⟩ : BufTy).Contents (Elt F)) : (⟨S16384x7x7x2, .f32⟩ : BufTy).Contents (Elt F) :=
  (maximumf : (⟨S16384x7x7x2, .f32⟩ : BufTy).Contents (Elt F) → (⟨S16384x7x7x2, .f32⟩ : BufTy).Contents (Elt F) → (⟨S16384x7x7x2, .f32⟩ : BufTy).Contents (Elt F)) (val_main_v133 (F := F) a0 a1) (val_main_v134 (F := F) a0 a1)
def val_main_v136 (a0 a1 : (⟨S16384x7x7x30, .f32⟩ : BufTy).Contents (Elt F)) : (⟨S16384x7x7x2, .f32⟩ : BufTy).Contents (Elt F) :=
  (Host.sqrt : (⟨S16384x7x7x2, .f32⟩ : BufTy).Contents (Elt F) → (⟨S16384x7x7x2, .f32⟩ : BufTy).Contents (Elt F)) (val_main_v135 (F := F) a0 a1)
def val_main_v137 (a0 a1 : (⟨S16384x7x7x30, .f32⟩ : BufTy).Contents (Elt F)) : (⟨S16384x7x7x2, .f32⟩ : BufTy).Contents (Elt F) :=
  ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) (val_main_v4 (F := F) a0 a1)
def val_main_cst_18 (a0 a1 : (⟨S16384x7x7x30, .f32⟩ : BufTy).Contents (Elt F)) : (⟨S_, .f32⟩ : BufTy).Contents (Elt F) :=
  (constant S_ .f32 0x322BCC77#32)
def val_main_v138 (a0 a1 : (⟨S16384x7x7x30, .f32⟩ : BufTy).Contents (Elt F)) : (⟨S16384x7x7x2, .f32⟩ : BufTy).Contents (Elt F) :=
  (broadcastInDim S16384x7x7x2 ![] bcast_S_S16384x7x7x2 : (⟨S_, .f32⟩ : BufTy).Contents (Elt F) → (⟨S16384x7x7x2, .f32⟩ : BufTy).Contents (Elt F)) (val_main_cst_18 (F := F) a0 a1)
def val_main_v139 (a0 a1 : (⟨S16384x7x7x30, .f32⟩ : BufTy).Contents (Elt F)) : (⟨S16384x7x7x2, .f32⟩ : BufTy).Contents (Elt F) :=
  (maximumf : (⟨S16384x7x7x2, .f32⟩ : BufTy).Contents (Elt F) → (⟨S16384x7x7x2, .f32⟩ : BufTy).Contents (Elt F) → (⟨S16384x7x7x2, .f32⟩ : BufTy).Contents (Elt F)) (val_main_v137 (F := F) a0 a1) (val_main_v138 (F := F) a0 a1)
def val_main_v140 (a0 a1 : (⟨S16384x7x7x30, .f32⟩ : BufTy).Contents (Elt F)) : (⟨S16384x7x7x2, .f32⟩ : BufTy).Contents (Elt F) :=
  (Host.sqrt : (⟨S16384x7x7x2, .f32⟩ : BufTy).Contents (Elt F) → (⟨S16384x7x7x2, .f32⟩ : BufTy).Contents (Elt F)) (val_main_v139 (F := F) a0 a1)
def val_main_v141 (a0 a1 : (⟨S16384x7x7x30, .f32⟩ : BufTy).Contents (Elt F)) : (⟨S16384x7x7x2, .f32⟩ : BufTy).Contents (Elt F) :=
  (subf : (⟨S16384x7x7x2, .f32⟩ : BufTy).Contents (Elt F) → (⟨S16384x7x7x2, .f32⟩ : BufTy).Contents (Elt F) → (⟨S16384x7x7x2, .f32⟩ : BufTy).Contents (Elt F)) (val_main_v136 (F := F) a0 a1) (val_main_v140 (F := F) a0 a1)
def val_main_v142 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v141 (F := F) a0 a1) (val_main_v141 (F := F) a0 a1)
def val_main_v143 (a0 a1 : (⟨S16384x7x7x30, .f32⟩ : BufTy).Contents (Elt F)) : (⟨S16384x7x7x2, .f32⟩ : BufTy).Contents (Elt F) :=
  (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)) (val_main_v124 (F := F) a0 a1)
def val_main_v144 (a0 a1 : (⟨S16384x7x7x30, .f32⟩ : BufTy).Contents (Elt F)) : (⟨S16384x7x7x2, .f32⟩ : BufTy).Contents (Elt F) :=
  (mulf : (⟨S16384x7x7x2, .f32⟩ : BufTy).Contents (Elt F) → (⟨S16384x7x7x2, .f32⟩ : BufTy).Contents (Elt F) → (⟨S16384x7x7x2, .f32⟩ : BufTy).Contents (Elt F)) (val_main_v143 (F := F) a0 a1) (val_main_v142 (F := F) a0 a1)
def val_main_cst_19 (a0 a1 : (⟨S16384x7x7x30, .f32⟩ : BufTy).Contents (Elt F)) : (⟨S_, .f32⟩ : BufTy).Contents (Elt F) :=
  (constant S_ .f32 0x00000000#32)
def val_main_v145 (a0 a1 : (⟨S16384x7x7x30, .f32⟩ : BufTy).Contents (Elt F)) : (⟨S_, .f32⟩ : BufTy).Contents (Elt F) :=
  ((fun x v => Host.reduceAdd x v reducesTo_S16384x7x7x2_S_d0_1_2_3 h_S_) : (⟨S16384x7x7x2, .f32⟩ : BufTy).Contents (Elt F) → (⟨S_, .f32⟩ : BufTy).Contents (Elt F) → (⟨S_, .f32⟩ : BufTy).Contents (Elt F)) (val_main_v144 (F := F) a0 a1) (val_main_cst_19 (F := F) a0 a1)
def val_main_cst_20 (a0 a1 : (⟨S16384x7x7x30, .f32⟩ : BufTy).Contents (Elt F)) : (⟨S_, .f32⟩ : BufTy).Contents (Elt F) :=
  (constant S_ .f32 0x40A00000#32)
def val_main_v146 (a0 a1 : (⟨S16384x7x7x30, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (val_main_cst_20 (F := F) a0 a1) (val_main_v145 (F := F) a0 a1)
def val_main_v147 (a0 a1 : (⟨S16384x7x7x30, .f32⟩ : BufTy).Contents (Elt F)) : (⟨S16384x7x7, .f32⟩ : BufTy).Contents (Elt F) :=
  (subf : (⟨S16384x7x7, .f32⟩ : BufTy).Contents (Elt F) → (⟨S16384x7x7, .f32⟩ : BufTy).Contents (Elt F) → (⟨S16384x7x7, .f32⟩ : BufTy).Contents (Elt F)) (val_main_v113 (F := F) a0 a1) (val_main_v123 (F := F) a0 a1)
def val_main_v148 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v147 (F := F) a0 a1) (val_main_v147 (F := F) a0 a1)
def val_main_v149 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v1 (F := F) a0 a1) (val_main_v148 (F := F) a0 a1)
def val_main_cst_21 (a0 a1 : (⟨S16384x7x7x30, .f32⟩ : BufTy).Contents (Elt F)) : (⟨S_, .f32⟩ : BufTy).Contents (Elt F) :=
  (constant S_ .f32 0x00000000#32)
def val_main_v150 (a0 a1 : (⟨S16384x7x7x30, .f32⟩ : BufTy).Contents (Elt F)) : (⟨S_, .f32⟩ : BufTy).Contents (Elt F) :=
  ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)) (val_main_v149 (F := F) a0 a1) (val_main_cst_21 (F := F) a0 a1)
def val_main_v151 (a0 a1 : (⟨S16384x7x7x30, .f32⟩ : BufTy).Contents (Elt F)) : (⟨S16384x7x7x1, .f32⟩ : BufTy).Contents (Elt F) :=
  ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)) a0
def val_main_v152 (a0 a1 : (⟨S16384x7x7x30, .f32⟩ : BufTy).Contents (Elt F)) : (⟨S16384x7x7, .f32⟩ : BufTy).Contents (Elt F) :=
  shapeCast _ (val_main_v151 (F := F) a0 a1) shapeCasts_S16384x7x7x1_S16384x7x7
def val_main_v153 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v152 (F := F) a0 a1) (val_main_v152 (F := F) a0 a1)
def val_main_v154 (a0 a1 : (⟨S16384x7x7x30, .f32⟩ : BufTy).Contents (Elt F)) : (⟨S16384x7x7x1, .f32⟩ : BufTy).Contents (Elt F) :=
  ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)) a0
def val_main_v155 (a0 a1 : (⟨S16384x7x7x30, .f32⟩ : BufTy).Contents (Elt F)) : (⟨S16384x7x7, .f32⟩ : BufTy).Contents (Elt F) :=
  shapeCast _ (val_main_v154 (F := F) a0 a1) shapeCasts_S16384x7x7x1_S16384x7x7
def val_main_v156 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v155 (F := F) a0 a1) (val_main_v155 (F := F) a0 a1)
def val_main_v157 (a0 a1 : (⟨S16384x7x7x30, .f32⟩ : BufTy).Contents (Elt F)) : (⟨S16384x7x7, .f32⟩ : BufTy).Contents (Elt F) :=
  (addf : (⟨S16384x7x7, .f32⟩ : BufTy).Contents (Elt F) → (⟨S16384x7x7, .f32⟩ : BufTy).Contents (Elt F) → (⟨S16384x7x7, .f32⟩ : BufTy).Contents (Elt F)) (val_main_v153 (F := F) a0 a1) (val_main_v156 (F := F) a0 a1)
def val_main_v158 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v3 (F := F) a0 a1) (val_main_v157 (F := F) a0 a1)
def val_main_cst_22 (a0 a1 : (⟨S16384x7x7x30, .f32⟩ : BufTy).Contents (Elt F)) : (⟨S_, .f32⟩ : BufTy).Contents (Elt F) :=
  (constant S_ .f32 0x00000000#32)
def val_main_v159 (a0 a1 : (⟨S16384x7x7x30, .f32⟩ : BufTy).Contents (Elt F)) : (⟨S_, .f32⟩ : BufTy).Contents (Elt F) :=
  ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)) (val_main_v158 (F := F) a0 a1) (val_main_cst_22 (F := F) a0 a1)
def val_main_v160 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v122 (F := F) a0 a1) (val_main_v122 (F := F) a0 a1)
def val_main_v161 (a0 a1 : (⟨S16384x7x7x30, .f32⟩ : BufTy).Contents (Elt F)) : (⟨S16384x7x7, .f32⟩ : BufTy).Contents (Elt F) :=
  (mulf : (⟨S16384x7x7, .f32⟩ : BufTy).Contents (Elt F) → (⟨S16384x7x7, .f32⟩ : BufTy).Contents (Elt F) → (⟨S16384x7x7, .f32⟩ : BufTy).Contents (Elt F)) (val_main_v1 (F := F) a0 a1) (val_main_v160 (F := F) a0 a1)
def val_main_cst_23 (a0 a1 : (⟨S16384x7x7x30, .f32⟩ : BufTy).Contents (Elt F)) : (⟨S_, .f32⟩ : BufTy).Contents (Elt F) :=
  (constant S_ .f32 0x00000000#32)
def val_main_v162 (a0 a1 : (⟨S16384x7x7x30, .f32⟩ : BufTy).Contents (Elt F)) : (⟨S_, .f32⟩ : BufTy).Contents (Elt F) :=
  ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)) (val_main_v161 (F := F) a0 a1) (val_main_cst_23 (F := F) a0 a1)
def val_main_v163 (a0 a1 : (⟨S16384x7x7x30, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v159 (F := F) a0 a1) (val_main_v162 (F := F) a0 a1)
def val_main_cst_24 (a0 a1 : (⟨S16384x7x7x30, .f32⟩ : BufTy).Contents (Elt F)) : (⟨S_, .f32⟩ : BufTy).Contents (Elt F) :=
  (constant S_ .f32 0x3F000000#32)
def val_main_v164 (a0 a1 : (⟨S16384x7x7x30, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (val_main_cst_24 (F := F) a0 a1) (val_main_v163 (F := F) a0 a1)
def val_main_v165 (a0 a1 : (⟨S16384x7x7x30, .f32⟩ : BufTy).Contents (Elt F)) : (⟨S16384x7x7x20, .f32⟩ : BufTy).Contents (Elt F) :=
  ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)) a0
def val_main_v166 (a0 a1 : (⟨S16384x7x7x30, .f32⟩ : BufTy).Contents (Elt F)) : (⟨S16384x7x7x20, .f32⟩ : BufTy).Contents (Elt F) :=
  ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)) a1
def val_main_v167 (a0 a1 : (⟨S16384x7x7x30, .f32⟩ : BufTy).Contents (Elt F)) : (⟨S16384x7x7x20, .f32⟩ : BufTy).Contents (Elt F) :=
  (subf : (⟨S16384x7x7x20, .f32⟩ : BufTy).Contents (Elt F) → (⟨S16384x7x7x20, .f32⟩ : BufTy).Contents (Elt F) → (⟨S16384x7x7x20, .f32⟩ : BufTy).Contents (Elt F)) (val_main_v165 (F := F) a0 a1) (val_main_v166 (F := F) a0 a1)
def val_main_v168 (a0 a1 : (⟨S16384x7x7x30, .f32⟩ : BufTy).Contents (Elt F)) : (⟨S16384x7x7x20, .f32⟩ : BufTy).Contents (Elt F) :=
  (mulf : (⟨S16384x7x7x20, .f32⟩ : BufTy).Contents (Elt F) → (⟨S16384x7x7x20, .f32⟩ : BufTy).Contents (Elt F) → (⟨S16384x7x7x20, .f32⟩ : BufTy).Contents (Elt F)) (val_main_v167 (F := F) a0 a1) (val_main_v167 (F := F) a0 a1)
def val_main_v169 (a0 a1 : (⟨S16384x7x7x30, .f32⟩ : BufTy).Contents (Elt F)) : (⟨S16384x7x7x20, .f32⟩ : BufTy).Contents (Elt F) :=
  (broadcastInDim S16384x7x7x20 ![0, 1, 2, 3] bcast_S16384x7x7x1_S16384x7x7x20_0_1_2_3 : (⟨S16384x7x7x1, .f32⟩ : BufTy).Contents (Elt F) → (⟨S16384x7x7x20, .f32⟩ : BufTy).Contents (Elt F)) (val_main_v124 (F := F) a0 a1)
def val_main_v170 (a0 a1 : (⟨S16384x7x7x30, .f32⟩ : BufTy).Contents (Elt F)) : (⟨S16384x7x7x20, .f32⟩ : BufTy).Contents (Elt F) :=
  (mulf : (⟨S16384x7x7x20, .f32⟩ : BufTy).Contents (Elt F) → (⟨S16384x7x7x20, .f32⟩ : BufTy).Contents (Elt F) → (⟨S16384x7x7x20, .f32⟩ : BufTy).Contents (Elt F)) (val_main_v169 (F := F) a0 a1) (val_main_v168 (F := F) a0 a1)
def val_main_cst_25 (a0 a1 : (⟨S16384x7x7x30, .f32⟩ : BufTy).Contents (Elt F)) : (⟨S_, .f32⟩ : BufTy).Contents (Elt F) :=
  (constant S_ .f32 0x00000000#32)
def val_main_v171 (a0 a1 : (⟨S16384x7x7x30, .f32⟩ : BufTy).Contents (Elt F)) : (⟨S_, .f32⟩ : BufTy).Contents (Elt F) :=
  ((fun x v => Host.reduceAdd x v reducesTo_S16384x7x7x20_S_d0_1_2_3 h_S_) : (⟨S16384x7x7x20, .f32⟩ : BufTy).Contents (Elt F) → (⟨S_, .f32⟩ : BufTy).Contents (Elt F) → (⟨S_, .f32⟩ : BufTy).Contents (Elt F)) (val_main_v170 (F := F) a0 a1) (val_main_cst_25 (F := F) a0 a1)
def val_main_v172 (a0 a1 : (⟨S16384x7x7x30, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v132 (F := F) a0 a1) (val_main_v146 (F := F) a0 a1)
def val_main_v173 (a0 a1 : (⟨S16384x7x7x30, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v172 (F := F) a0 a1) (val_main_v150 (F := F) a0 a1)
def val_main_v174 (a0 a1 : (⟨S16384x7x7x30, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v173 (F := F) a0 a1) (val_main_v164 (F := F) a0 a1)
def val_main_v175 (a0 a1 : (⟨S16384x7x7x30, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v174 (F := F) a0 a1) (val_main_v171 (F := F) a0 a1)
def val_main_cst_26 (a0 a1 : (⟨S16384x7x7x30, .f32⟩ : BufTy).Contents (Elt F)) : (⟨S_, .f32⟩ : BufTy).Contents (Elt F) :=
  (constant S_ .f32 0x46800000#32)
def val_main_v176 (a0 a1 : (⟨S16384x7x7x30, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v175 (F := F) a0 a1) (val_main_cst_26 (F := F) a0 a1)

/-! ## The operations, stretch by stretch -/

/-- Stretch 0: 8 operations, main_v0 … main_v6. -/
abbrev ops_0 : List (HloOp τ sig (Elt F)) :=
  [ unary main_arg1 main_v0 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v0 main_v1 rfl shapeCasts_S16384x7x7x1_S16384x7x7,
    nullary main_cst (constant S_ .f32 0x3F800000#32),
    unary main_cst main_v2 (broadcastInDim S16384x7x7 ![] bcast_S_S16384x7x7 : (⟨S_, .f32⟩ : BufTy).Contents (Elt F) → (⟨S16384x7x7, .f32⟩ : BufTy).Contents (Elt F)),
    binary main_v2 main_v1 main_v3 (subf : (⟨S16384x7x7, .f32⟩ : BufTy).Contents (Elt F) → (⟨S16384x7x7, .f32⟩ : BufTy).Contents (Elt F) → (⟨S16384x7x7, .f32⟩ : BufTy).Contents (Elt F)),
    unary main_arg1 main_v4 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_arg0 main_v5 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_arg0 main_v6 ((extractStridedSlice S16384x7x7x4 ![0, 0, 0, 5] · slices_S16384x7x7x30_S16384x7x7x4_0_0_0_5) : (⟨S16384x7x7x30, .f32⟩ : BufTy).Contents (Elt F) → (⟨S16384x7x7x4, .f32⟩ : BufTy).Contents (Elt F)) ]

/-- Stretch 1: 35 operations, main_v7 … main_v34. -/
abbrev ops_1 : List (HloOp τ sig (Elt F)) :=
  [ unary main_v5 main_v7 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v5 main_v8 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_0 (constant S_ .f32 0x3F000000#32),
    unary main_cst_0 main_v9 (broadcastInDim S16384x7x7x2 ![] bcast_S_S16384x7x7x2 : (⟨S_, .f32⟩ : BufTy).Contents (Elt F) → (⟨S16384x7x7x2, .f32⟩ : BufTy).Contents (Elt F)),
    binary main_v8 main_v9 main_v10 (mulf : (⟨S16384x7x7x2, .f32⟩ : BufTy).Contents (Elt F) → (⟨S16384x7x7x2, .f32⟩ : BufTy).Contents (Elt F) → (⟨S16384x7x7x2, .f32⟩ : BufTy).Contents (Elt F)),
    binary main_v7 main_v10 main_v11 (subf : (⟨S16384x7x7x2, .f32⟩ : BufTy).Contents (Elt F) → (⟨S16384x7x7x2, .f32⟩ : BufTy).Contents (Elt F) → (⟨S16384x7x7x2, .f32⟩ : BufTy).Contents (Elt F)),
    unary main_v5 main_v12 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v5 main_v13 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_1 (constant S_ .f32 0x3F000000#32),
    unary main_cst_1 main_v14 (broadcastInDim S16384x7x7x2 ![] bcast_S_S16384x7x7x2 : (⟨S_, .f32⟩ : BufTy).Contents (Elt F) → (⟨S16384x7x7x2, .f32⟩ : BufTy).Contents (Elt F)),
    binary main_v13 main_v14 main_v15 (mulf : (⟨S16384x7x7x2, .f32⟩ : BufTy).Contents (Elt F) → (⟨S16384x7x7x2, .f32⟩ : BufTy).Contents (Elt F) → (⟨S16384x7x7x2, .f32⟩ : BufTy).Contents (Elt F)),
    binary main_v12 main_v15 main_v16 (addf : (⟨S16384x7x7x2, .f32⟩ : BufTy).Contents (Elt F) → (⟨S16384x7x7x2, .f32⟩ : BufTy).Contents (Elt F) → (⟨S16384x7x7x2, .f32⟩ : BufTy).Contents (Elt F)),
    unary main_v4 main_v17 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v4 main_v18 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_2 (constant S_ .f32 0x3F000000#32),
    unary main_cst_2 main_v19 (broadcastInDim S16384x7x7x2 ![] bcast_S_S16384x7x7x2 : (⟨S_, .f32⟩ : BufTy).Contents (Elt F) → (⟨S16384x7x7x2, .f32⟩ : BufTy).Contents (Elt F)),
    binary main_v18 main_v19 main_v20 (mulf : (⟨S16384x7x7x2, .f32⟩ : BufTy).Contents (Elt F) → (⟨S16384x7x7x2, .f32⟩ : BufTy).Contents (Elt F) → (⟨S16384x7x7x2, .f32⟩ : BufTy).Contents (Elt F)),
    binary main_v17 main_v20 main_v21 (subf : (⟨S16384x7x7x2, .f32⟩ : BufTy).Contents (Elt F) → (⟨S16384x7x7x2, .f32⟩ : BufTy).Contents (Elt F) → (⟨S16384x7x7x2, .f32⟩ : BufTy).Contents (Elt F)),
    unary main_v4 main_v22 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v4 main_v23 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_3 (constant S_ .f32 0x3F000000#32),
    unary main_cst_3 main_v24 (broadcastInDim S16384x7x7x2 ![] bcast_S_S16384x7x7x2 : (⟨S_, .f32⟩ : BufTy).Contents (Elt F) → (⟨S16384x7x7x2, .f32⟩ : BufTy).Contents (Elt F)),
    binary main_v23 main_v24 main_v25 (mulf : (⟨S16384x7x7x2, .f32⟩ : BufTy).Contents (Elt F) → (⟨S16384x7x7x2, .f32⟩ : BufTy).Contents (Elt F) → (⟨S16384x7x7x2, .f32⟩ : BufTy).Contents (Elt F)),
    binary main_v22 main_v25 main_v26 (addf : (⟨S16384x7x7x2, .f32⟩ : BufTy).Contents (Elt F) → (⟨S16384x7x7x2, .f32⟩ : BufTy).Contents (Elt F) → (⟨S16384x7x7x2, .f32⟩ : BufTy).Contents (Elt F)),
    binary main_v16 main_v26 main_v27 (minimumf : (⟨S16384x7x7x2, .f32⟩ : BufTy).Contents (Elt F) → (⟨S16384x7x7x2, .f32⟩ : BufTy).Contents (Elt F) → (⟨S16384x7x7x2, .f32⟩ : BufTy).Contents (Elt F)),
    binary main_v11 main_v21 main_v28 (maximumf : (⟨S16384x7x7x2, .f32⟩ : BufTy).Contents (Elt F) → (⟨S16384x7x7x2, .f32⟩ : BufTy).Contents (Elt F) → (⟨S16384x7x7x2, .f32⟩ : BufTy).Contents (Elt F)),
    binary main_v27 main_v28 main_v29 (subf : (⟨S16384x7x7x2, .f32⟩ : BufTy).Contents (Elt F) → (⟨S16384x7x7x2, .f32⟩ : BufTy).Contents (Elt F) → (⟨S16384x7x7x2, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S16384x7x7x2, .f32⟩) main_call0_v1) (broadcastInDim S16384x7x7x2 ![] bcast_S_S16384x7x7x2),
    TRef.binary (TRef.of (T := ⟨S16384x7x7x2, .f32⟩) main_call0_v1) (TRef.of (T := ⟨S16384x7x7x2, .f32⟩) main_v29) (TRef.of (T := ⟨S16384x7x7x2, .f32⟩) main_v30) maximumf,
    unary main_v30 main_v31 ((extractStridedSlice S16384x7x7x1 ![0, 0, 0, 0] · slices_S16384x7x7x2_S16384x7x7x1_0_0_0_0) : (⟨S16384x7x7x2, .f32⟩ : BufTy).Contents (Elt F) → (⟨S16384x7x7x1, .f32⟩ : BufTy).Contents (Elt F)),
    reshape main_v31 main_v32 rfl shapeCasts_S16384x7x7x1_S16384x7x7,
    unary main_v30 main_v33 ((extractStridedSlice S16384x7x7x1 ![0, 0, 0, 1] · slices_S16384x7x7x2_S16384x7x7x1_0_0_0_1) : (⟨S16384x7x7x2, .f32⟩ : BufTy).Contents (Elt F) → (⟨S16384x7x7x1, .f32⟩ : BufTy).Contents (Elt F)),
    reshape main_v33 main_v34 rfl shapeCasts_S16384x7x7x1_S16384x7x7 ]

/-- Stretch 2: 17 operations, main_v35 … main_v50. -/
abbrev ops_2 : List (HloOp τ sig (Elt F)) :=
  [ binary main_v32 main_v34 main_v35 (mulf : (⟨S16384x7x7, .f32⟩ : BufTy).Contents (Elt F) → (⟨S16384x7x7, .f32⟩ : BufTy).Contents (Elt F) → (⟨S16384x7x7, .f32⟩ : BufTy).Contents (Elt F)),
    unary main_v5 main_v36 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v36 main_v37 rfl shapeCasts_S16384x7x7x1_S16384x7x7,
    unary main_v5 main_v38 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v38 main_v39 rfl shapeCasts_S16384x7x7x1_S16384x7x7,
    binary main_v37 main_v39 main_v40 (mulf : (⟨S16384x7x7, .f32⟩ : BufTy).Contents (Elt F) → (⟨S16384x7x7, .f32⟩ : BufTy).Contents (Elt F) → (⟨S16384x7x7, .f32⟩ : BufTy).Contents (Elt F)),
    unary main_v4 main_v41 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v41 main_v42 rfl shapeCasts_S16384x7x7x1_S16384x7x7,
    unary main_v4 main_v43 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v43 main_v44 rfl shapeCasts_S16384x7x7x1_S16384x7x7,
    binary main_v42 main_v44 main_v45 (mulf : (⟨S16384x7x7, .f32⟩ : BufTy).Contents (Elt F) → (⟨S16384x7x7, .f32⟩ : BufTy).Contents (Elt F) → (⟨S16384x7x7, .f32⟩ : BufTy).Contents (Elt F)),
    binary main_v40 main_v45 main_v46 (addf : (⟨S16384x7x7, .f32⟩ : BufTy).Contents (Elt F) → (⟨S16384x7x7, .f32⟩ : BufTy).Contents (Elt F) → (⟨S16384x7x7, .f32⟩ : BufTy).Contents (Elt F)),
    binary main_v46 main_v35 main_v47 (subf : (⟨S16384x7x7, .f32⟩ : BufTy).Contents (Elt F) → (⟨S16384x7x7, .f32⟩ : BufTy).Contents (Elt F) → (⟨S16384x7x7, .f32⟩ : BufTy).Contents (Elt F)),
    nullary main_cst_5 (constant S_ .f32 0x2EDBE6FF#32),
    unary main_cst_5 main_v48 (broadcastInDim S16384x7x7 ![] bcast_S_S16384x7x7 : (⟨S_, .f32⟩ : BufTy).Contents (Elt F) → (⟨S16384x7x7, .f32⟩ : BufTy).Contents (Elt F)),
    binary main_v47 main_v48 main_v49 (addf : (⟨S16384x7x7, .f32⟩ : BufTy).Contents (Elt F) → (⟨S16384x7x7, .f32⟩ : BufTy).Contents (Elt F) → (⟨S16384x7x7, .f32⟩ : BufTy).Contents (Elt F)),
    binary main_v35 main_v49 main_v50 (Host.divf : (⟨S16384x7x7, .f32⟩ : BufTy).Contents (Elt F) → (⟨S16384x7x7, .f32⟩ : BufTy).Contents (Elt F) → (⟨S16384x7x7, .f32⟩ : BufTy).Contents (Elt F)) ]

/-- Stretch 3: 2 operations, main_v51 … main_v52. -/
abbrev ops_3 : List (HloOp τ sig (Elt F)) :=
  [ unary main_v6 main_v51 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v6 main_v52 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)) ]

/-- Stretch 4: 34 operations, main_cst_6 … main_v79. -/
abbrev ops_4 : List (HloOp τ sig (Elt F)) :=
  [ nullary main_cst_6 (constant S_ .f32 0x3F000000#32),
    unary main_cst_6 main_v53 (broadcastInDim S16384x7x7x2 ![] bcast_S_S16384x7x7x2 : (⟨S_, .f32⟩ : BufTy).Contents (Elt F) → (⟨S16384x7x7x2, .f32⟩ : BufTy).Contents (Elt F)),
    binary main_v52 main_v53 main_v54 (mulf : (⟨S16384x7x7x2, .f32⟩ : BufTy).Contents (Elt F) → (⟨S16384x7x7x2, .f32⟩ : BufTy).Contents (Elt F) → (⟨S16384x7x7x2, .f32⟩ : BufTy).Contents (Elt F)),
    binary main_v51 main_v54 main_v55 (subf : (⟨S16384x7x7x2, .f32⟩ : BufTy).Contents (Elt F) → (⟨S16384x7x7x2, .f32⟩ : BufTy).Contents (Elt F) → (⟨S16384x7x7x2, .f32⟩ : BufTy).Contents (Elt F)),
    unary main_v6 main_v56 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v6 main_v57 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_7 (constant S_ .f32 0x3F000000#32),
    unary main_cst_7 main_v58 (broadcastInDim S16384x7x7x2 ![] bcast_S_S16384x7x7x2 : (⟨S_, .f32⟩ : BufTy).Contents (Elt F) → (⟨S16384x7x7x2, .f32⟩ : BufTy).Contents (Elt F)),
    binary main_v57 main_v58 main_v59 (mulf : (⟨S16384x7x7x2, .f32⟩ : BufTy).Contents (Elt F) → (⟨S16384x7x7x2, .f32⟩ : BufTy).Contents (Elt F) → (⟨S16384x7x7x2, .f32⟩ : BufTy).Contents (Elt F)),
    binary main_v56 main_v59 main_v60 (addf : (⟨S16384x7x7x2, .f32⟩ : BufTy).Contents (Elt F) → (⟨S16384x7x7x2, .f32⟩ : BufTy).Contents (Elt F) → (⟨S16384x7x7x2, .f32⟩ : BufTy).Contents (Elt F)),
    unary main_v4 main_v61 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v4 main_v62 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_8 (constant S_ .f32 0x3F000000#32),
    unary main_cst_8 main_v63 (broadcastInDim S16384x7x7x2 ![] bcast_S_S16384x7x7x2 : (⟨S_, .f32⟩ : BufTy).Contents (Elt F) → (⟨S16384x7x7x2, .f32⟩ : BufTy).Contents (Elt F)),
    binary main_v62 main_v63 main_v64 (mulf : (⟨S16384x7x7x2, .f32⟩ : BufTy).Contents (Elt F) → (⟨S16384x7x7x2, .f32⟩ : BufTy).Contents (Elt F) → (⟨S16384x7x7x2, .f32⟩ : BufTy).Contents (Elt F)),
    binary main_v61 main_v64 main_v65 (subf : (⟨S16384x7x7x2, .f32⟩ : BufTy).Contents (Elt F) → (⟨S16384x7x7x2, .f32⟩ : BufTy).Contents (Elt F) → (⟨S16384x7x7x2, .f32⟩ : BufTy).Contents (Elt F)),
    unary main_v4 main_v66 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v4 main_v67 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_9 (constant S_ .f32 0x3F000000#32),
    unary main_cst_9 main_v68 (broadcastInDim S16384x7x7x2 ![] bcast_S_S16384x7x7x2 : (⟨S_, .f32⟩ : BufTy).Contents (Elt F) → (⟨S16384x7x7x2, .f32⟩ : BufTy).Contents (Elt F)),
    binary main_v67 main_v68 main_v69 (mulf : (⟨S16384x7x7x2, .f32⟩ : BufTy).Contents (Elt F) → (⟨S16384x7x7x2, .f32⟩ : BufTy).Contents (Elt F) → (⟨S16384x7x7x2, .f32⟩ : BufTy).Contents (Elt F)),
    binary main_v66 main_v69 main_v70 (addf : (⟨S16384x7x7x2, .f32⟩ : BufTy).Contents (Elt F) → (⟨S16384x7x7x2, .f32⟩ : BufTy).Contents (Elt F) → (⟨S16384x7x7x2, .f32⟩ : BufTy).Contents (Elt F)),
    binary main_v60 main_v70 main_v71 (minimumf : (⟨S16384x7x7x2, .f32⟩ : BufTy).Contents (Elt F) → (⟨S16384x7x7x2, .f32⟩ : BufTy).Contents (Elt F) → (⟨S16384x7x7x2, .f32⟩ : BufTy).Contents (Elt F)),
    binary main_v55 main_v65 main_v72 (maximumf : (⟨S16384x7x7x2, .f32⟩ : BufTy).Contents (Elt F) → (⟨S16384x7x7x2, .f32⟩ : BufTy).Contents (Elt F) → (⟨S16384x7x7x2, .f32⟩ : BufTy).Contents (Elt F)),
    binary main_v71 main_v72 main_v73 (subf : (⟨S16384x7x7x2, .f32⟩ : BufTy).Contents (Elt F) → (⟨S16384x7x7x2, .f32⟩ : BufTy).Contents (Elt F) → (⟨S16384x7x7x2, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S16384x7x7x2, .f32⟩) main_call1_v1) (broadcastInDim S16384x7x7x2 ![] bcast_S_S16384x7x7x2),
    TRef.binary (TRef.of (T := ⟨S16384x7x7x2, .f32⟩) main_call1_v1) (TRef.of (T := ⟨S16384x7x7x2, .f32⟩) main_v73) (TRef.of (T := ⟨S16384x7x7x2, .f32⟩) main_v74) maximumf,
    unary main_v74 main_v75 ((extractStridedSlice S16384x7x7x1 ![0, 0, 0, 0] · slices_S16384x7x7x2_S16384x7x7x1_0_0_0_0) : (⟨S16384x7x7x2, .f32⟩ : BufTy).Contents (Elt F) → (⟨S16384x7x7x1, .f32⟩ : BufTy).Contents (Elt F)),
    reshape main_v75 main_v76 rfl shapeCasts_S16384x7x7x1_S16384x7x7,
    unary main_v74 main_v77 ((extractStridedSlice S16384x7x7x1 ![0, 0, 0, 1] · slices_S16384x7x7x2_S16384x7x7x1_0_0_0_1) : (⟨S16384x7x7x2, .f32⟩ : BufTy).Contents (Elt F) → (⟨S16384x7x7x1, .f32⟩ : BufTy).Contents (Elt F)),
    reshape main_v77 main_v78 rfl shapeCasts_S16384x7x7x1_S16384x7x7,
    binary main_v76 main_v78 main_v79 (mulf : (⟨S16384x7x7, .f32⟩ : BufTy).Contents (Elt F) → (⟨S16384x7x7, .f32⟩ : BufTy).Contents (Elt F) → (⟨S16384x7x7, .f32⟩ : BufTy).Contents (Elt F)) ]

/-- Stretch 5: 16 operations, main_v80 … main_v94. -/
abbrev ops_5 : List (HloOp τ sig (Elt F)) :=
  [ unary main_v6 main_v80 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v80 main_v81 rfl shapeCasts_S16384x7x7x1_S16384x7x7,
    unary main_v6 main_v82 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v82 main_v83 rfl shapeCasts_S16384x7x7x1_S16384x7x7,
    binary main_v81 main_v83 main_v84 (mulf : (⟨S16384x7x7, .f32⟩ : BufTy).Contents (Elt F) → (⟨S16384x7x7, .f32⟩ : BufTy).Contents (Elt F) → (⟨S16384x7x7, .f32⟩ : BufTy).Contents (Elt F)),
    unary main_v4 main_v85 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v85 main_v86 rfl shapeCasts_S16384x7x7x1_S16384x7x7,
    unary main_v4 main_v87 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v87 main_v88 rfl shapeCasts_S16384x7x7x1_S16384x7x7,
    binary main_v86 main_v88 main_v89 (mulf : (⟨S16384x7x7, .f32⟩ : BufTy).Contents (Elt F) → (⟨S16384x7x7, .f32⟩ : BufTy).Contents (Elt F) → (⟨S16384x7x7, .f32⟩ : BufTy).Contents (Elt F)),
    binary main_v84 main_v89 main_v90 (addf : (⟨S16384x7x7, .f32⟩ : BufTy).Contents (Elt F) → (⟨S16384x7x7, .f32⟩ : BufTy).Contents (Elt F) → (⟨S16384x7x7, .f32⟩ : BufTy).Contents (Elt F)),
    binary main_v90 main_v79 main_v91 (subf : (⟨S16384x7x7, .f32⟩ : BufTy).Contents (Elt F) → (⟨S16384x7x7, .f32⟩ : BufTy).Contents (Elt F) → (⟨S16384x7x7, .f32⟩ : BufTy).Contents (Elt F)),
    nullary main_cst_11 (constant S_ .f32 0x2EDBE6FF#32),
    unary main_cst_11 main_v92 (broadcastInDim S16384x7x7 ![] bcast_S_S16384x7x7 : (⟨S_, .f32⟩ : BufTy).Contents (Elt F) → (⟨S16384x7x7, .f32⟩ : BufTy).Contents (Elt F)),
    binary main_v91 main_v92 main_v93 (addf : (⟨S16384x7x7, .f32⟩ : BufTy).Contents (Elt F) → (⟨S16384x7x7, .f32⟩ : BufTy).Contents (Elt F) → (⟨S16384x7x7, .f32⟩ : BufTy).Contents (Elt F)),
    binary main_v79 main_v93 main_v94 (Host.divf : (⟨S16384x7x7, .f32⟩ : BufTy).Contents (Elt F) → (⟨S16384x7x7, .f32⟩ : BufTy).Contents (Elt F) → (⟨S16384x7x7, .f32⟩ : BufTy).Contents (Elt F)) ]

/-- Stretch 6: 11 operations, main_v95 … main_v104. -/
abbrev ops_6 : List (HloOp τ sig (Elt F)) :=
  [ binary main_v50 main_v94 main_v95 (cmpf .ogt : (⟨S16384x7x7, .f32⟩ : BufTy).Contents (Elt F) → (⟨S16384x7x7, .f32⟩ : BufTy).Contents (Elt F) → (⟨S16384x7x7, .i1⟩ : BufTy).Contents (Elt F)),
    unary main_v95 main_v96 (uitofp .f32 : (⟨S16384x7x7, .i1⟩ : BufTy).Contents (Elt F) → (⟨S16384x7x7, .f32⟩ : BufTy).Contents (Elt F)),
    unary main_v96 main_v97 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)),
    unary main_v97 main_v98 (broadcastInDim S16384x7x7x4 ![0, 1, 2, 3] bcast_S16384x7x7x1_S16384x7x7x4_0_1_2_3 : (⟨S16384x7x7x1, .f32⟩ : BufTy).Contents (Elt F) → (⟨S16384x7x7x4, .f32⟩ : BufTy).Contents (Elt F)),
    binary main_v98 main_v5 main_v99 (mulf : (⟨S16384x7x7x4, .f32⟩ : BufTy).Contents (Elt F) → (⟨S16384x7x7x4, .f32⟩ : BufTy).Contents (Elt F) → (⟨S16384x7x7x4, .f32⟩ : BufTy).Contents (Elt F)),
    nullary main_cst_12 (constant S_ .f32 0x3F800000#32),
    unary main_cst_12 main_v100 (broadcastInDim S16384x7x7x1 ![] bcast_S_S16384x7x7x1 : (⟨S_, .f32⟩ : BufTy).Contents (Elt F) → (⟨S16384x7x7x1, .f32⟩ : BufTy).Contents (Elt F)),
    binary main_v100 main_v97 main_v101 (subf : (⟨S16384x7x7x1, .f32⟩ : BufTy).Contents (Elt F) → (⟨S16384x7x7x1, .f32⟩ : BufTy).Contents (Elt F) → (⟨S16384x7x7x1, .f32⟩ : BufTy).Contents (Elt F)),
    unary main_v101 main_v102 (broadcastInDim S16384x7x7x4 ![0, 1, 2, 3] bcast_S16384x7x7x1_S16384x7x7x4_0_1_2_3 : (⟨S16384x7x7x1, .f32⟩ : BufTy).Contents (Elt F) → (⟨S16384x7x7x4, .f32⟩ : BufTy).Contents (Elt F)),
    binary main_v102 main_v6 main_v103 (mulf : (⟨S16384x7x7x4, .f32⟩ : BufTy).Contents (Elt F) → (⟨S16384x7x7x4, .f32⟩ : BufTy).Contents (Elt F) → (⟨S16384x7x7x4, .f32⟩ : BufTy).Contents (Elt F)),
    binary main_v99 main_v103 main_v104 (addf : (⟨S16384x7x7x4, .f32⟩ : BufTy).Contents (Elt F) → (⟨S16384x7x7x4, .f32⟩ : BufTy).Contents (Elt F) → (⟨S16384x7x7x4, .f32⟩ : BufTy).Contents (Elt F)) ]

/-- Stretch 7: 1 operations, main_v105 … main_v105. -/
abbrev ops_7 : List (HloOp τ sig (Elt F)) :=
  [ unary main_arg0 main_v105 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)) ]

/-- Stretch 8: 21 operations, main_v106 … main_v124. -/
abbrev ops_8 : List (HloOp τ sig (Elt F)) :=
  [ reshape main_v105 main_v106 rfl shapeCasts_S16384x7x7x1_S16384x7x7,
    binary main_v96 main_v106 main_v107 (mulf : (⟨S16384x7x7, .f32⟩ : BufTy).Contents (Elt F) → (⟨S16384x7x7, .f32⟩ : BufTy).Contents (Elt F) → (⟨S16384x7x7, .f32⟩ : BufTy).Contents (Elt F)),
    nullary main_cst_13 (constant S_ .f32 0x3F800000#32),
    unary main_cst_13 main_v108 (broadcastInDim S16384x7x7 ![] bcast_S_S16384x7x7 : (⟨S_, .f32⟩ : BufTy).Contents (Elt F) → (⟨S16384x7x7, .f32⟩ : BufTy).Contents (Elt F)),
    binary main_v108 main_v96 main_v109 (subf : (⟨S16384x7x7, .f32⟩ : BufTy).Contents (Elt F) → (⟨S16384x7x7, .f32⟩ : BufTy).Contents (Elt F) → (⟨S16384x7x7, .f32⟩ : BufTy).Contents (Elt F)),
    unary main_arg0 main_v110 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v110 main_v111 rfl shapeCasts_S16384x7x7x1_S16384x7x7,
    binary main_v109 main_v111 main_v112 (mulf : (⟨S16384x7x7, .f32⟩ : BufTy).Contents (Elt F) → (⟨S16384x7x7, .f32⟩ : BufTy).Contents (Elt F) → (⟨S16384x7x7, .f32⟩ : BufTy).Contents (Elt F)),
    binary main_v107 main_v112 main_v113 (addf : (⟨S16384x7x7, .f32⟩ : BufTy).Contents (Elt F) → (⟨S16384x7x7, .f32⟩ : BufTy).Contents (Elt F) → (⟨S16384x7x7, .f32⟩ : BufTy).Contents (Elt F)),
    nullary main_cst_14 (constant S_ .f32 0x3F800000#32),
    unary main_cst_14 main_v114 (broadcastInDim S16384x7x7 ![] bcast_S_S16384x7x7 : (⟨S_, .f32⟩ : BufTy).Contents (Elt F) → (⟨S16384x7x7, .f32⟩ : BufTy).Contents (Elt F)),
    binary main_v114 main_v96 main_v115 (subf : (⟨S16384x7x7, .f32⟩ : BufTy).Contents (Elt F) → (⟨S16384x7x7, .f32⟩ : BufTy).Contents (Elt F) → (⟨S16384x7x7, .f32⟩ : BufTy).Contents (Elt F)),
    unary main_arg0 main_v116 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v116 main_v117 rfl shapeCasts_S16384x7x7x1_S16384x7x7,
    binary main_v115 main_v117 main_v118 (mulf : (⟨S16384x7x7, .f32⟩ : BufTy).Contents (Elt F) → (⟨S16384x7x7, .f32⟩ : BufTy).Contents (Elt F) → (⟨S16384x7x7, .f32⟩ : BufTy).Contents (Elt F)),
    unary main_arg0 main_v119 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v119 main_v120 rfl shapeCasts_S16384x7x7x1_S16384x7x7,
    binary main_v96 main_v120 main_v121 (mulf : (⟨S16384x7x7, .f32⟩ : BufTy).Contents (Elt F) → (⟨S16384x7x7, .f32⟩ : BufTy).Contents (Elt F) → (⟨S16384x7x7, .f32⟩ : BufTy).Contents (Elt F)),
    binary main_v118 main_v121 main_v122 (addf : (⟨S16384x7x7, .f32⟩ : BufTy).Contents (Elt F) → (⟨S16384x7x7, .f32⟩ : BufTy).Contents (Elt F) → (⟨S16384x7x7, .f32⟩ : BufTy).Contents (Elt F)),
    binary main_v50 main_v94 main_v123 (maximumf : (⟨S16384x7x7, .f32⟩ : BufTy).Contents (Elt F) → (⟨S16384x7x7, .f32⟩ : BufTy).Contents (Elt F) → (⟨S16384x7x7, .f32⟩ : BufTy).Contents (Elt F)),
    unary main_v1 main_v124 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)) ]

/-- Stretch 9: 28 operations, main_v125 … main_v146. -/
abbrev ops_9 : List (HloOp τ sig (Elt F)) :=
  [ unary main_v104 main_v125 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v4 main_v126 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    binary main_v125 main_v126 main_v127 (subf : (⟨S16384x7x7x2, .f32⟩ : BufTy).Contents (Elt F) → (⟨S16384x7x7x2, .f32⟩ : BufTy).Contents (Elt F) → (⟨S16384x7x7x2, .f32⟩ : BufTy).Contents (Elt F)),
    binary main_v127 main_v127 main_v128 (mulf : (⟨S16384x7x7x2, .f32⟩ : BufTy).Contents (Elt F) → (⟨S16384x7x7x2, .f32⟩ : BufTy).Contents (Elt F) → (⟨S16384x7x7x2, .f32⟩ : BufTy).Contents (Elt F)),
    unary main_v124 main_v129 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v129 main_v128 main_v130 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_15 (constant S_ .f32 0x00000000#32),
    binary main_v130 main_cst_15 main_v131 ((fun x v => Host.reduceAdd x v reducesTo_S16384x7x7x2_S_d0_1_2_3 h_S_) : (⟨S16384x7x7x2, .f32⟩ : BufTy).Contents (Elt F) → (⟨S_, .f32⟩ : BufTy).Contents (Elt F) → (⟨S_, .f32⟩ : BufTy).Contents (Elt F)),
    nullary main_cst_16 (constant S_ .f32 0x40A00000#32),
    binary main_cst_16 main_v131 main_v132 (mulf : (⟨S_, .f32⟩ : BufTy).Contents (Elt F) → (⟨S_, .f32⟩ : BufTy).Contents (Elt F) → (⟨S_, .f32⟩ : BufTy).Contents (Elt F)),
    unary main_v104 main_v133 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_17 (constant S_ .f32 0x322BCC77#32),
    unary main_cst_17 main_v134 (broadcastInDim S16384x7x7x2 ![] bcast_S_S16384x7x7x2 : (⟨S_, .f32⟩ : BufTy).Contents (Elt F) → (⟨S16384x7x7x2, .f32⟩ : BufTy).Contents (Elt F)),
    binary main_v133 main_v134 main_v135 (maximumf : (⟨S16384x7x7x2, .f32⟩ : BufTy).Contents (Elt F) → (⟨S16384x7x7x2, .f32⟩ : BufTy).Contents (Elt F) → (⟨S16384x7x7x2, .f32⟩ : BufTy).Contents (Elt F)),
    unary main_v135 main_v136 (Host.sqrt : (⟨S16384x7x7x2, .f32⟩ : BufTy).Contents (Elt F) → (⟨S16384x7x7x2, .f32⟩ : BufTy).Contents (Elt F)),
    unary main_v4 main_v137 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_18 (constant S_ .f32 0x322BCC77#32),
    unary main_cst_18 main_v138 (broadcastInDim S16384x7x7x2 ![] bcast_S_S16384x7x7x2 : (⟨S_, .f32⟩ : BufTy).Contents (Elt F) → (⟨S16384x7x7x2, .f32⟩ : BufTy).Contents (Elt F)),
    binary main_v137 main_v138 main_v139 (maximumf : (⟨S16384x7x7x2, .f32⟩ : BufTy).Contents (Elt F) → (⟨S16384x7x7x2, .f32⟩ : BufTy).Contents (Elt F) → (⟨S16384x7x7x2, .f32⟩ : BufTy).Contents (Elt F)),
    unary main_v139 main_v140 (Host.sqrt : (⟨S16384x7x7x2, .f32⟩ : BufTy).Contents (Elt F) → (⟨S16384x7x7x2, .f32⟩ : BufTy).Contents (Elt F)),
    binary main_v136 main_v140 main_v141 (subf : (⟨S16384x7x7x2, .f32⟩ : BufTy).Contents (Elt F) → (⟨S16384x7x7x2, .f32⟩ : BufTy).Contents (Elt F) → (⟨S16384x7x7x2, .f32⟩ : BufTy).Contents (Elt F)),
    binary main_v141 main_v141 main_v142 (mulf : (⟨S16384x7x7x2, .f32⟩ : BufTy).Contents (Elt F) → (⟨S16384x7x7x2, .f32⟩ : BufTy).Contents (Elt F) → (⟨S16384x7x7x2, .f32⟩ : BufTy).Contents (Elt F)),
    unary main_v124 main_v143 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v143 main_v142 main_v144 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_19 (constant S_ .f32 0x00000000#32),
    binary main_v144 main_cst_19 main_v145 ((fun x v => Host.reduceAdd x v reducesTo_S16384x7x7x2_S_d0_1_2_3 h_S_) : (⟨S16384x7x7x2, .f32⟩ : BufTy).Contents (Elt F) → (⟨S_, .f32⟩ : BufTy).Contents (Elt F) → (⟨S_, .f32⟩ : BufTy).Contents (Elt F)),
    nullary main_cst_20 (constant S_ .f32 0x40A00000#32),
    binary main_cst_20 main_v145 main_v146 (mulf : (⟨S_, .f32⟩ : BufTy).Contents (Elt F) → (⟨S_, .f32⟩ : BufTy).Contents (Elt F) → (⟨S_, .f32⟩ : BufTy).Contents (Elt F)) ]

/-- Stretch 10: 11 operations, main_v147 … main_v156. -/
abbrev ops_10 : List (HloOp τ sig (Elt F)) :=
  [ binary main_v113 main_v123 main_v147 (subf : (⟨S16384x7x7, .f32⟩ : BufTy).Contents (Elt F) → (⟨S16384x7x7, .f32⟩ : BufTy).Contents (Elt F) → (⟨S16384x7x7, .f32⟩ : BufTy).Contents (Elt F)),
    binary main_v147 main_v147 main_v148 (mulf : (⟨S16384x7x7, .f32⟩ : BufTy).Contents (Elt F) → (⟨S16384x7x7, .f32⟩ : BufTy).Contents (Elt F) → (⟨S16384x7x7, .f32⟩ : BufTy).Contents (Elt F)),
    binary main_v1 main_v148 main_v149 (mulf : (⟨S16384x7x7, .f32⟩ : BufTy).Contents (Elt F) → (⟨S16384x7x7, .f32⟩ : BufTy).Contents (Elt F) → (⟨S16384x7x7, .f32⟩ : BufTy).Contents (Elt F)),
    nullary main_cst_21 (constant S_ .f32 0x00000000#32),
    binary main_v149 main_cst_21 main_v150 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    unary main_arg0 main_v151 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v151 main_v152 rfl shapeCasts_S16384x7x7x1_S16384x7x7,
    binary main_v152 main_v152 main_v153 (mulf : (⟨S16384x7x7, .f32⟩ : BufTy).Contents (Elt F) → (⟨S16384x7x7, .f32⟩ : BufTy).Contents (Elt F) → (⟨S16384x7x7, .f32⟩ : BufTy).Contents (Elt F)),
    unary main_arg0 main_v154 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v154 main_v155 rfl shapeCasts_S16384x7x7x1_S16384x7x7,
    binary main_v155 main_v155 main_v156 (mulf : (⟨S16384x7x7, .f32⟩ : BufTy).Contents (Elt F) → (⟨S16384x7x7, .f32⟩ : BufTy).Contents (Elt F) → (⟨S16384x7x7, .f32⟩ : BufTy).Contents (Elt F)) ]

/-- Stretch 11: 11 operations, main_v157 … main_v164. -/
abbrev ops_11 : List (HloOp τ sig (Elt F)) :=
  [ binary main_v153 main_v156 main_v157 (addf : (⟨S16384x7x7, .f32⟩ : BufTy).Contents (Elt F) → (⟨S16384x7x7, .f32⟩ : BufTy).Contents (Elt F) → (⟨S16384x7x7, .f32⟩ : BufTy).Contents (Elt F)),
    binary main_v3 main_v157 main_v158 (mulf : (⟨S16384x7x7, .f32⟩ : BufTy).Contents (Elt F) → (⟨S16384x7x7, .f32⟩ : BufTy).Contents (Elt F) → (⟨S16384x7x7, .f32⟩ : BufTy).Contents (Elt F)),
    nullary main_cst_22 (constant S_ .f32 0x00000000#32),
    binary main_v158 main_cst_22 main_v159 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v122 main_v122 main_v160 (mulf : (⟨S16384x7x7, .f32⟩ : BufTy).Contents (Elt F) → (⟨S16384x7x7, .f32⟩ : BufTy).Contents (Elt F) → (⟨S16384x7x7, .f32⟩ : BufTy).Contents (Elt F)),
    binary main_v1 main_v160 main_v161 (mulf : (⟨S16384x7x7, .f32⟩ : BufTy).Contents (Elt F) → (⟨S16384x7x7, .f32⟩ : BufTy).Contents (Elt F) → (⟨S16384x7x7, .f32⟩ : BufTy).Contents (Elt F)),
    nullary main_cst_23 (constant S_ .f32 0x00000000#32),
    binary main_v161 main_cst_23 main_v162 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v159 main_v162 main_v163 (addf : (⟨S_, .f32⟩ : BufTy).Contents (Elt F) → (⟨S_, .f32⟩ : BufTy).Contents (Elt F) → (⟨S_, .f32⟩ : BufTy).Contents (Elt F)),
    nullary main_cst_24 (constant S_ .f32 0x3F000000#32),
    binary main_cst_24 main_v163 main_v164 (mulf : (⟨S_, .f32⟩ : BufTy).Contents (Elt F) → (⟨S_, .f32⟩ : BufTy).Contents (Elt F) → (⟨S_, .f32⟩ : BufTy).Contents (Elt F)) ]

/-- Stretch 12: 14 operations, main_v165 … main_v176. -/
abbrev ops_12 : List (HloOp τ sig (Elt F)) :=
  [ unary main_arg0 main_v165 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    unary main_arg1 main_v166 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    binary main_v165 main_v166 main_v167 (subf : (⟨S16384x7x7x20, .f32⟩ : BufTy).Contents (Elt F) → (⟨S16384x7x7x20, .f32⟩ : BufTy).Contents (Elt F) → (⟨S16384x7x7x20, .f32⟩ : BufTy).Contents (Elt F)),
    binary main_v167 main_v167 main_v168 (mulf : (⟨S16384x7x7x20, .f32⟩ : BufTy).Contents (Elt F) → (⟨S16384x7x7x20, .f32⟩ : BufTy).Contents (Elt F) → (⟨S16384x7x7x20, .f32⟩ : BufTy).Contents (Elt F)),
    unary main_v124 main_v169 (broadcastInDim S16384x7x7x20 ![0, 1, 2, 3] bcast_S16384x7x7x1_S16384x7x7x20_0_1_2_3 : (⟨S16384x7x7x1, .f32⟩ : BufTy).Contents (Elt F) → (⟨S16384x7x7x20, .f32⟩ : BufTy).Contents (Elt F)),
    binary main_v169 main_v168 main_v170 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_25 (constant S_ .f32 0x00000000#32),
    binary main_v170 main_cst_25 main_v171 ((fun x v => Host.reduceAdd x v reducesTo_S16384x7x7x20_S_d0_1_2_3 h_S_) : (⟨S16384x7x7x20, .f32⟩ : BufTy).Contents (Elt F) → (⟨S_, .f32⟩ : BufTy).Contents (Elt F) → (⟨S_, .f32⟩ : BufTy).Contents (Elt F)),
    binary main_v132 main_v146 main_v172 (addf : (⟨S_, .f32⟩ : BufTy).Contents (Elt F) → (⟨S_, .f32⟩ : BufTy).Contents (Elt F) → (⟨S_, .f32⟩ : BufTy).Contents (Elt F)),
    binary main_v172 main_v150 main_v173 (addf : (⟨S_, .f32⟩ : BufTy).Contents (Elt F) → (⟨S_, .f32⟩ : BufTy).Contents (Elt F) → (⟨S_, .f32⟩ : BufTy).Contents (Elt F)),
    binary main_v173 main_v164 main_v174 (addf : (⟨S_, .f32⟩ : BufTy).Contents (Elt F) → (⟨S_, .f32⟩ : BufTy).Contents (Elt F) → (⟨S_, .f32⟩ : BufTy).Contents (Elt F)),
    binary main_v174 main_v171 main_v175 (addf : (⟨S_, .f32⟩ : BufTy).Contents (Elt F) → (⟨S_, .f32⟩ : BufTy).Contents (Elt F) → (⟨S_, .f32⟩ : BufTy).Contents (Elt F)),
    nullary main_cst_26 (constant S_ .f32 0x46800000#32),
    binary main_v175 main_cst_26 main_v176 (Host.divf : (⟨S_, .f32⟩ : BufTy).Contents (Elt F) → (⟨S_, .f32⟩ : BufTy).Contents (Elt F) → (⟨S_, .f32⟩ : BufTy).Contents (Elt F)) ]

theorem ops_0_sub : (ops_0 : List (HloOp τ sig (Elt F))).Forall fun op => op.bufs ⊆ tcRefs τ sig :=
  ⟨unary_bufs_sub .., reshape_bufs_sub .., nullary_bufs_sub .., unary_bufs_sub .., binary_bufs_sub .., unary_bufs_sub .., unary_bufs_sub .., unary_bufs_sub ..⟩
theorem ops_0_fresh : ∀ op ∈ (ops_0 : List (HloOp τ sig (Elt F))), op.fresh = ∅ := by
  intro _ h; (repeat (cases h with | head => rfl | tail _ h => ?_)); exact nomatch h

theorem ops_1_sub : (ops_1 : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub .., unary_bufs_sub .., reshape_bufs_sub .., unary_bufs_sub .., reshape_bufs_sub ..⟩
theorem ops_1_fresh : ∀ op ∈ (ops_1 : List (HloOp τ sig (Elt F))), op.fresh = ∅ := by
  intro _ h; (repeat (cases h with | head => rfl | tail _ h => ?_)); exact nomatch h

theorem ops_2_sub : (ops_2 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub ..⟩
theorem ops_2_fresh : ∀ op ∈ (ops_2 : List (HloOp τ sig (Elt F))), op.fresh = ∅ := by
  intro _ h; (repeat (cases h with | head => rfl | tail _ h => ?_)); exact nomatch h

theorem ops_3_sub : (ops_3 : List (HloOp τ sig (Elt F))).Forall fun op => op.bufs ⊆ tcRefs τ sig :=
  ⟨unary_bufs_sub .., unary_bufs_sub ..⟩
theorem ops_3_fresh : ∀ op ∈ (ops_3 : List (HloOp τ sig (Elt F))), op.fresh = ∅ := by
  intro _ h; (repeat (cases h with | head => rfl | tail _ h => ?_)); exact nomatch h

theorem ops_4_sub : (ops_4 : List (HloOp τ sig (Elt F))).Forall fun op => op.bufs ⊆ tcRefs τ sig :=
  ⟨nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub ..⟩
theorem ops_4_fresh : ∀ op ∈ (ops_4 : List (HloOp τ sig (Elt F))), op.fresh = ∅ := by
  intro _ h; (repeat (cases h with | head => rfl | tail _ h => ?_)); exact nomatch h

theorem ops_5_sub : (ops_5 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub ..⟩
theorem ops_5_fresh : ∀ op ∈ (ops_5 : List (HloOp τ sig (Elt F))), op.fresh = ∅ := by
  intro _ h; (repeat (cases h with | head => rfl | tail _ h => ?_)); exact nomatch h

theorem ops_6_sub : (ops_6 : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub .., unary_bufs_sub .., binary_bufs_sub .., binary_bufs_sub ..⟩
theorem ops_6_fresh : ∀ op ∈ (ops_6 : List (HloOp τ sig (Elt F))), op.fresh = ∅ := by
  intro _ h; (repeat (cases h with | head => rfl | tail _ h => ?_)); exact nomatch h

theorem ops_7_sub : (ops_7 : List (HloOp τ sig (Elt F))).Forall fun op => op.bufs ⊆ tcRefs τ sig :=
  by simp only [List.Forall]; exact unary_bufs_sub ..
theorem ops_7_fresh : ∀ op ∈ (ops_7 : List (HloOp τ sig (Elt F))), op.fresh = ∅ := by
  intro _ h; (repeat (cases h with | head => rfl | tail _ h => ?_)); exact nomatch h

theorem ops_8_sub : (ops_8 : List (HloOp τ sig (Elt F))).Forall fun op => op.bufs ⊆ tcRefs τ sig :=
  ⟨reshape_bufs_sub .., binary_bufs_sub .., nullary_bufs_sub .., unary_bufs_sub .., binary_bufs_sub .., unary_bufs_sub .., reshape_bufs_sub .., binary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., binary_bufs_sub .., unary_bufs_sub ..⟩
theorem ops_8_fresh : ∀ op ∈ (ops_8 : List (HloOp τ sig (Elt F))), op.fresh = ∅ := by
  intro _ h; (repeat (cases h with | head => rfl | tail _ h => ?_)); exact nomatch h

theorem ops_9_sub : (ops_9 : List (HloOp τ sig (Elt F))).Forall fun op => op.bufs ⊆ tcRefs τ sig :=
  ⟨unary_bufs_sub .., unary_bufs_sub .., binary_bufs_sub .., binary_bufs_sub .., unary_bufs_sub .., binary_bufs_sub .., nullary_bufs_sub .., binary_bufs_sub .., nullary_bufs_sub .., binary_bufs_sub .., unary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., binary_bufs_sub .., nullary_bufs_sub .., binary_bufs_sub ..⟩
theorem ops_9_fresh : ∀ op ∈ (ops_9 : List (HloOp τ sig (Elt F))), op.fresh = ∅ := by
  intro _ h; (repeat (cases h with | head => rfl | tail _ h => ?_)); exact nomatch h

theorem ops_10_sub : (ops_10 : List (HloOp τ sig (Elt F))).Forall fun op => op.bufs ⊆ tcRefs τ sig :=
  ⟨binary_bufs_sub .., binary_bufs_sub .., binary_bufs_sub .., nullary_bufs_sub .., binary_bufs_sub .., unary_bufs_sub .., reshape_bufs_sub .., binary_bufs_sub .., unary_bufs_sub .., reshape_bufs_sub .., binary_bufs_sub ..⟩
theorem ops_10_fresh : ∀ op ∈ (ops_10 : List (HloOp τ sig (Elt F))), op.fresh = ∅ := by
  intro _ h; (repeat (cases h with | head => rfl | tail _ h => ?_)); exact nomatch h

theorem ops_11_sub : (ops_11 : List (HloOp τ sig (Elt F))).Forall fun op => op.bufs ⊆ tcRefs τ sig :=
  ⟨binary_bufs_sub .., binary_bufs_sub .., nullary_bufs_sub .., binary_bufs_sub .., binary_bufs_sub .., binary_bufs_sub .., nullary_bufs_sub .., binary_bufs_sub .., binary_bufs_sub .., nullary_bufs_sub .., binary_bufs_sub ..⟩
theorem ops_11_fresh : ∀ op ∈ (ops_11 : List (HloOp τ sig (Elt F))), op.fresh = ∅ := by
  intro _ h; (repeat (cases h with | head => rfl | tail _ h => ?_)); exact nomatch h

theorem ops_12_sub : (ops_12 : List (HloOp τ sig (Elt F))).Forall fun op => op.bufs ⊆ tcRefs τ sig :=
  ⟨unary_bufs_sub .., unary_bufs_sub .., binary_bufs_sub .., binary_bufs_sub .., unary_bufs_sub .., binary_bufs_sub .., nullary_bufs_sub .., binary_bufs_sub .., binary_bufs_sub .., binary_bufs_sub .., binary_bufs_sub .., binary_bufs_sub .., nullary_bufs_sub .., binary_bufs_sub ..⟩
theorem ops_12_fresh : ∀ op ∈ (ops_12 : List (HloOp τ sig (Elt F))), op.fresh = ∅ := by
  intro _ h; (repeat (cases h with | head => rfl | tail _ h => ?_)); exact nomatch h

/-! ## The program's windows, and the whole line -/

/-- The operations of @main's window 0 (its statements 1 …): stretches 0, 1, 2, 3. -/
abbrev win_0 : List (HloOp τ sig (Elt F)) := ops_0 ++ (ops_1 ++ (ops_2 ++ (ops_3)))

/-- The operations of @main's window 1 (its statements 61 …): stretches 4, 5, 6, 7. -/
abbrev win_1 : List (HloOp τ sig (Elt F)) := ops_4 ++ (ops_5 ++ (ops_6 ++ (ops_7)))

/-- The operations of @main's window 2 (its statements 121 …): stretches 8, 9, 10. -/
abbrev win_2 : List (HloOp τ sig (Elt F)) := ops_8 ++ (ops_9 ++ (ops_10))

/-- The operations of @main's window 3 (its statements 181 …): stretches 11, 12. -/
abbrev win_3 : List (HloOp τ sig (Elt F)) := ops_11 ++ (ops_12)

/-- @main's 209 operations, in order: the windows one after the other. -/
abbrev ops : List (HloOp τ sig (Elt F)) := win_0 ++ (win_1 ++ (win_2 ++ (win_3)))

/-- Each operation touches TensorCore references only. -/
theorem ops_sub : (ops : List (HloOp τ sig (Elt F))).Forall fun op => op.bufs ⊆ tcRefs τ sig :=
  forall_append (forall_append ops_0_sub (forall_append ops_1_sub (forall_append ops_2_sub (ops_3_sub)))) (forall_append (forall_append ops_4_sub (forall_append ops_5_sub (forall_append ops_6_sub (ops_7_sub)))) (forall_append (forall_append ops_8_sub (forall_append ops_9_sub (ops_10_sub))) ((forall_append ops_11_sub (ops_12_sub)))))

/-- No operation allocates a buffer. -/
theorem ops_fresh : ∀ op ∈ (ops : List (HloOp τ sig (Elt F))), op.fresh = ∅ :=
  mem_append_elim (mem_append_elim ops_0_fresh (mem_append_elim ops_1_fresh (mem_append_elim ops_2_fresh (ops_3_fresh)))) (mem_append_elim (mem_append_elim ops_4_fresh (mem_append_elim ops_5_fresh (mem_append_elim ops_6_fresh (ops_7_fresh)))) (mem_append_elim (mem_append_elim ops_8_fresh (mem_append_elim ops_9_fresh (ops_10_fresh))) ((mem_append_elim ops_11_fresh (ops_12_fresh)))))

end Cert.RefStages

end
-- ==== Proof.TileWalk.lean ====
/-
  The kernel's body and the reference apply the same row-by-row operations in the same order (slices of the 30 channels,
  the box corners, the two overlap ratios, the comparison that picks the responsible box, the squared differences). So
  "the kernel's array on tile t is tile t of the reference's array" is carried from the operands of an operation to its
  result, one operation at a time: the tactic below does that walk, choosing at each step the lemma of LibTiles for the
  operation at the head of both sides, and stops at the relations assumed of the operands.
-/
import proofs.«400913_j74620761801586_4_alg».proof.Proof.LibTiles
import proofs.«400913_j74620761801586_4_alg».proof.Proof.KernelStep
import proofs.«400913_j74620761801586_4_alg».proof.Proof.RefStages

namespace Cert.TileValues

/-- Carries the tile relation through one operation at a time, until only the relations assumed of the operands are left.
    The clip at zero comes before the plain maximum: its two sides list their arguments in opposite orders. The facts about
    shapes that the reference's side of an operation takes are decided where they come up. A module that walks makes the
    vector operations irreducible first, so that a lemma is chosen by the operation at the head and by nothing under it. -/
macro "tile_walk" : tactic => `(tactic| repeat' (first
  | assumption
  | decide
  | apply Cert.Tiles.Rel.slice
  | apply Cert.Tiles.Rel.dropUnit
  | apply Cert.Tiles.Rel.addUnit
  | apply Cert.Tiles.Rel.stretch
  | apply Cert.Tiles.Rel.splat
  | apply Cert.Tiles.Rel.clip
  | apply Cert.Tiles.Rel.bit_to_float
  | apply Cert.Tiles.Rel.mulf
  | apply Cert.Tiles.Rel.addf
  | apply Cert.Tiles.Rel.subf
  | apply Cert.Tiles.Rel.minimumf
  | apply Cert.Tiles.Rel.maximumf
  | apply Cert.Tiles.Rel.divf_host
  | apply Cert.Tiles.Rel.sqrt_host
  | apply Cert.Tiles.Rel.cmpf))

end Cert.TileValues
-- ==== Proof.TileTable.lean ====
/-
  The table of the values the kernel's body passes from one stretch of its text to the next, each beside the reference's
  stage that the same line of the model produced: computed on the 256-row tile t of the inputs, the kernel's value is
  tile t of the stage computed on the whole inputs, given the same of the values it is computed from. Every row is closed
  by the one tactic of TileWalk.lean, which carries the relation through the operations one at a time.
-/
import proofs.«400913_j74620761801586_4_alg».proof.Proof.TileWalk

noncomputable section

open Idealize.ShloMosaic Idealize.ShloMosaic.ValueIdx Cert.Tiles

namespace Cert.TileValues

-- the walk chooses its lemma by the operation at the head (TileWalk.lean)
attribute [local irreducible] shapeCast extractStridedSlice broadcastTo broadcastInDim broadcast constant mulf addf subf divf minimumf maximumf sqrt cmpf sitofp uitofp extui Host.divf Host.sqrt

variable (t : Fin 64) (a0 a1 : (⟨Cert.ReferenceIdeal.S16384x7x7x30, .f32⟩ : BufTy).Contents (Elt Ideal))

/-- The object flag (channel 4 of the labels). -/
theorem rel_v6 {v4 : Vec Ideal Cert.KernelIdeal.S256x7x7x30 .f32}
    (h4 : Rel (up4 t 30) v4 a1) :
    Rel (up3 t) (Cert.KernelIdeal.Gen.k0_pay4 v4) (Cert.RefStages.val_main_v1 (F := Ideal) a0 a1) := by
  simp only [Cert.KernelIdeal.Gen.k0_pay4]
  tile_walk

/-- One minus the object flag. -/
theorem rel_v8 {v4 : Vec Ideal Cert.KernelIdeal.S256x7x7x30 .f32}
    (h4 : Rel (up4 t 30) v4 a1) :
    Rel (up3 t) (Cert.KernelIdeal.Gen.k0_pay5 v4) (Cert.RefStages.val_main_v3 (F := Ideal) a0 a1) := by
  simp only [Cert.KernelIdeal.Gen.k0_pay5]
  tile_walk

/-- The ground-truth box (channels 0–3 of the labels). -/
theorem rel_v9 {v4 : Vec Ideal Cert.KernelIdeal.S256x7x7x30 .f32}
    (h4 : Rel (up4 t 30) v4 a1) :
    Rel (up4 t 4) (Cert.KernelIdeal.Gen.k0_pay6 v4) (Cert.RefStages.val_main_v4 (F := Ideal) a0 a1) := by
  simp only [Cert.KernelIdeal.Gen.k0_pay6]
  tile_walk

/-- The first predicted box (channels 0–3). -/
theorem rel_v10 {v3 : Vec Ideal Cert.KernelIdeal.S256x7x7x30 .f32}
    (h3 : Rel (up4 t 30) v3 a0) :
    Rel (up4 t 4) (Cert.KernelIdeal.Gen.k0_pay7 v3) (Cert.RefStages.val_main_v5 (F := Ideal) a0 a1) := by
  simp only [Cert.KernelIdeal.Gen.k0_pay7]
  tile_walk

/-- The second predicted box (channels 5–8). -/
theorem rel_v11 {v3 : Vec Ideal Cert.KernelIdeal.S256x7x7x30 .f32}
    (h3 : Rel (up4 t 30) v3 a0) :
    Rel (up4 t 4) (Cert.KernelIdeal.Gen.k0_pay8 v3) (Cert.RefStages.val_main_v6 (F := Ideal) a0 a1) := by
  simp only [Cert.KernelIdeal.Gen.k0_pay8]
  tile_walk

/-- The width of the first box's overlap with the truth. -/
theorem rel_v38 {v3 : Vec Ideal Cert.KernelIdeal.S256x7x7x30 .f32} {v4 : Vec Ideal Cert.KernelIdeal.S256x7x7x30 .f32}
    (h3 : Rel (up4 t 30) v3 a0) (h4 : Rel (up4 t 30) v4 a1) :
    Rel (up3 t) (Cert.KernelIdeal.Gen.k0_pay10 v3 v4) (Cert.RefStages.val_main_v32 (F := Ideal) a0 a1) := by
  simp only [Cert.KernelIdeal.Gen.k0_pay10]
  tile_walk

/-- The height of that overlap. -/
theorem rel_v40 {v3 : Vec Ideal Cert.KernelIdeal.S256x7x7x30 .f32} {v4 : Vec Ideal Cert.KernelIdeal.S256x7x7x30 .f32}
    (h3 : Rel (up4 t 30) v3 a0) (h4 : Rel (up4 t 30) v4 a1) :
    Rel (up3 t) (Cert.KernelIdeal.Gen.k0_pay11 v3 v4) (Cert.RefStages.val_main_v34 (F := Ideal) a0 a1) := by
  simp only [Cert.KernelIdeal.Gen.k0_pay11]
  tile_walk

/-- The first box's intersection over union. -/
theorem rel_v56 {v9 : FVec Ideal Cert.KernelIdeal.S256x7x7x4 .f32} {v10 : FVec Ideal Cert.KernelIdeal.S256x7x7x4 .f32} {v38 : FVec Ideal Cert.KernelIdeal.S256x7x7 .f32} {v40 : FVec Ideal Cert.KernelIdeal.S256x7x7 .f32}
    (h9 : Rel (up4 t 4) v9 (Cert.RefStages.val_main_v4 (F := Ideal) a0 a1)) (h10 : Rel (up4 t 4) v10 (Cert.RefStages.val_main_v5 (F := Ideal) a0 a1)) (h38 : Rel (up3 t) v38 (Cert.RefStages.val_main_v32 (F := Ideal) a0 a1)) (h40 : Rel (up3 t) v40 (Cert.RefStages.val_main_v34 (F := Ideal) a0 a1)) :
    Rel (up3 t) (Cert.KernelIdeal.Gen.k0_pay12 v9 v10 v38 v40) (Cert.RefStages.val_main_v50 (F := Ideal) a0 a1) := by
  simp only [Cert.KernelIdeal.Gen.k0_pay12]
  tile_walk

/-- The second box's intersection area. -/
theorem rel_v86 {v9 : FVec Ideal Cert.KernelIdeal.S256x7x7x4 .f32} {v11 : FVec Ideal Cert.KernelIdeal.S256x7x7x4 .f32}
    (h9 : Rel (up4 t 4) v9 (Cert.RefStages.val_main_v4 (F := Ideal) a0 a1)) (h11 : Rel (up4 t 4) v11 (Cert.RefStages.val_main_v6 (F := Ideal) a0 a1)) :
    Rel (up3 t) (Cert.KernelIdeal.Gen.k0_pay13 v9 v11) (Cert.RefStages.val_main_v79 (F := Ideal) a0 a1) := by
  simp only [Cert.KernelIdeal.Gen.k0_pay13]
  tile_walk

/-- The second box's own area. -/
theorem rel_v91 {v11 : FVec Ideal Cert.KernelIdeal.S256x7x7x4 .f32}
    (h11 : Rel (up4 t 4) v11 (Cert.RefStages.val_main_v6 (F := Ideal) a0 a1)) :
    Rel (up3 t) (Cert.KernelIdeal.Gen.k0_pay14 v11) (Cert.RefStages.val_main_v84 (F := Ideal) a0 a1) := by
  simp only [Cert.KernelIdeal.Gen.k0_pay14]
  tile_walk

/-- The truth box's width. -/
theorem rel_v93 {v9 : FVec Ideal Cert.KernelIdeal.S256x7x7x4 .f32}
    (h9 : Rel (up4 t 4) v9 (Cert.RefStages.val_main_v4 (F := Ideal) a0 a1)) :
    Rel (up3 t) (Cert.KernelIdeal.Gen.k0_pay15 v9) (Cert.RefStages.val_main_v86 (F := Ideal) a0 a1) := by
  simp only [Cert.KernelIdeal.Gen.k0_pay15]
  tile_walk

/-- The truth box's height, still with its unit channel axis. -/
theorem rel_v94 {v9 : FVec Ideal Cert.KernelIdeal.S256x7x7x4 .f32}
    (h9 : Rel (up4 t 4) v9 (Cert.RefStages.val_main_v4 (F := Ideal) a0 a1)) :
    Rel (up4 t 1) (Cert.KernelIdeal.Gen.k0_pay16 v9) (Cert.RefStages.val_main_v87 (F := Ideal) a0 a1) := by
  simp only [Cert.KernelIdeal.Gen.k0_pay16]
  tile_walk

/-- The responsible box: the first where its overlap ratio is the larger, else the second. -/
theorem rel_v112 {v10 : FVec Ideal Cert.KernelIdeal.S256x7x7x4 .f32} {v11 : FVec Ideal Cert.KernelIdeal.S256x7x7x4 .f32} {v56 : FVec Ideal Cert.KernelIdeal.S256x7x7 .f32} {v86 : FVec Ideal Cert.KernelIdeal.S256x7x7 .f32} {v91 : FVec Ideal Cert.KernelIdeal.S256x7x7 .f32} {v93 : FVec Ideal Cert.KernelIdeal.S256x7x7 .f32} {v94 : FVec Ideal Cert.KernelIdeal.S256x7x7x1 .f32}
    (h10 : Rel (up4 t 4) v10 (Cert.RefStages.val_main_v5 (F := Ideal) a0 a1)) (h11 : Rel (up4 t 4) v11 (Cert.RefStages.val_main_v6 (F := Ideal) a0 a1)) (h56 : Rel (up3 t) v56 (Cert.RefStages.val_main_v50 (F := Ideal) a0 a1)) (h86 : Rel (up3 t) v86 (Cert.RefStages.val_main_v79 (F := Ideal) a0 a1)) (h91 : Rel (up3 t) v91 (Cert.RefStages.val_main_v84 (F := Ideal) a0 a1)) (h93 : Rel (up3 t) v93 (Cert.RefStages.val_main_v86 (F := Ideal) a0 a1)) (h94 : Rel (up4 t 1) v94 (Cert.RefStages.val_main_v87 (F := Ideal) a0 a1)) :
    Rel (up4 t 4) (Cert.KernelIdeal.Gen.k0_pay19 v10 v11 v56 v86 v91 v93 v94) (Cert.RefStages.val_main_v104 (F := Ideal) a0 a1) := by
  simp only [Cert.KernelIdeal.Gen.k0_pay19]
  tile_walk

/-- The responsible box's confidence. -/
theorem rel_v121 {v3 : Vec Ideal Cert.KernelIdeal.S256x7x7x30 .f32} {v56 : FVec Ideal Cert.KernelIdeal.S256x7x7 .f32} {v86 : FVec Ideal Cert.KernelIdeal.S256x7x7 .f32} {v91 : FVec Ideal Cert.KernelIdeal.S256x7x7 .f32} {v93 : FVec Ideal Cert.KernelIdeal.S256x7x7 .f32} {v94 : FVec Ideal Cert.KernelIdeal.S256x7x7x1 .f32}
    (h3 : Rel (up4 t 30) v3 a0) (h56 : Rel (up3 t) v56 (Cert.RefStages.val_main_v50 (F := Ideal) a0 a1)) (h86 : Rel (up3 t) v86 (Cert.RefStages.val_main_v79 (F := Ideal) a0 a1)) (h91 : Rel (up3 t) v91 (Cert.RefStages.val_main_v84 (F := Ideal) a0 a1)) (h93 : Rel (up3 t) v93 (Cert.RefStages.val_main_v86 (F := Ideal) a0 a1)) (h94 : Rel (up4 t 1) v94 (Cert.RefStages.val_main_v87 (F := Ideal) a0 a1)) :
    Rel (up3 t) (Cert.KernelIdeal.Gen.k0_pay20 v3 v56 v86 v91 v93 v94) (Cert.RefStages.val_main_v113 (F := Ideal) a0 a1) := by
  simp only [Cert.KernelIdeal.Gen.k0_pay20]
  tile_walk

/-- The other box's confidence. -/
theorem rel_v130 {v3 : Vec Ideal Cert.KernelIdeal.S256x7x7x30 .f32} {v56 : FVec Ideal Cert.KernelIdeal.S256x7x7 .f32} {v86 : FVec Ideal Cert.KernelIdeal.S256x7x7 .f32} {v91 : FVec Ideal Cert.KernelIdeal.S256x7x7 .f32} {v93 : FVec Ideal Cert.KernelIdeal.S256x7x7 .f32} {v94 : FVec Ideal Cert.KernelIdeal.S256x7x7x1 .f32}
    (h3 : Rel (up4 t 30) v3 a0) (h56 : Rel (up3 t) v56 (Cert.RefStages.val_main_v50 (F := Ideal) a0 a1)) (h86 : Rel (up3 t) v86 (Cert.RefStages.val_main_v79 (F := Ideal) a0 a1)) (h91 : Rel (up3 t) v91 (Cert.RefStages.val_main_v84 (F := Ideal) a0 a1)) (h93 : Rel (up3 t) v93 (Cert.RefStages.val_main_v86 (F := Ideal) a0 a1)) (h94 : Rel (up4 t 1) v94 (Cert.RefStages.val_main_v87 (F := Ideal) a0 a1)) :
    Rel (up3 t) (Cert.KernelIdeal.Gen.k0_pay21 v3 v56 v86 v91 v93 v94) (Cert.RefStages.val_main_v122 (F := Ideal) a0 a1) := by
  simp only [Cert.KernelIdeal.Gen.k0_pay21]
  tile_walk

/-- The larger of the two overlap ratios. -/
theorem rel_v131 {v56 : FVec Ideal Cert.KernelIdeal.S256x7x7 .f32} {v86 : FVec Ideal Cert.KernelIdeal.S256x7x7 .f32} {v91 : FVec Ideal Cert.KernelIdeal.S256x7x7 .f32} {v93 : FVec Ideal Cert.KernelIdeal.S256x7x7 .f32} {v94 : FVec Ideal Cert.KernelIdeal.S256x7x7x1 .f32}
    (h56 : Rel (up3 t) v56 (Cert.RefStages.val_main_v50 (F := Ideal) a0 a1)) (h86 : Rel (up3 t) v86 (Cert.RefStages.val_main_v79 (F := Ideal) a0 a1)) (h91 : Rel (up3 t) v91 (Cert.RefStages.val_main_v84 (F := Ideal) a0 a1)) (h93 : Rel (up3 t) v93 (Cert.RefStages.val_main_v86 (F := Ideal) a0 a1)) (h94 : Rel (up4 t 1) v94 (Cert.RefStages.val_main_v87 (F := Ideal) a0 a1)) :
    Rel (up3 t) (Cert.KernelIdeal.Gen.k0_pay22 v56 v86 v91 v93 v94) (Cert.RefStages.val_main_v123 (F := Ideal) a0 a1) := by
  simp only [Cert.KernelIdeal.Gen.k0_pay22]
  tile_walk

/-- The object flag with a unit channel axis. -/
theorem rel_v132 {v6 : FVec Ideal Cert.KernelIdeal.S256x7x7 .f32}
    (h6 : Rel (up3 t) v6 (Cert.RefStages.val_main_v1 (F := Ideal) a0 a1)) :
    Rel (up4 t 1) (Cert.KernelIdeal.Gen.k0_pay23 v6) (Cert.RefStages.val_main_v124 (F := Ideal) a0 a1) := by
  simp only [Cert.KernelIdeal.Gen.k0_pay23]
  tile_walk

end Cert.TileValues

end
-- ==== Proof.TileSums.lean ====
/-
  The six sums of a tile and the kernel's step. Each of the body's reductions, read at the extended reals, is the sum over
  the tile's rows, cells and channels of the reference's summand array at the tile's rows: the body's summand array is tile
  t of the reference's (the walk), and the reduction chain is a nested sum (LibTiles). The body then weights the sums —
  5 for the two box terms, one half for the no-object term —, adds them, and adds the total to the accumulator.
-/
import proofs.«400913_j74620761801586_4_alg».proof.Proof.TileTable

noncomputable section

open Idealize.ShloMosaic Idealize.ShloMosaic.ValueIdx Cert.Tiles

namespace Cert.TileValues

variable (t : Fin 64) (a0 a1 : (⟨Cert.ReferenceIdeal.S16384x7x7x30, .f32⟩ : BufTy).Contents (Elt Ideal))

/-- The weight 5 of the two box terms, and the weight one half of the no-object term, as the kernel's text has them. -/
abbrev w5 : EReal := Scalar.ofBits (F := Ideal) .f32 0x40A00000#32
abbrev wHalf : EReal := Scalar.ofBits (F := Ideal) .f32 0x3F000000#32

/-- The centre term's sum over tile `t`: object flag times squared differences of the box centres. -/
def tXY (a0 a1 : (⟨Cert.ReferenceIdeal.S16384x7x7x30, .f32⟩ : BufTy).Contents (Elt Ideal)) : EReal :=
  ∑ b : Fin 256, ∑ s1 : Fin 7, ∑ s2 : Fin 7, ∑ c : Fin 2, Cert.RefStages.val_main_v130 (F := Ideal) a0 a1 (up4 t 2 (ix4 b s1 s2 c))
/-- The size term's: object flag times squared differences of the square roots of widths and heights. -/
def tWH (a0 a1 : (⟨Cert.ReferenceIdeal.S16384x7x7x30, .f32⟩ : BufTy).Contents (Elt Ideal)) : EReal :=
  ∑ b : Fin 256, ∑ s1 : Fin 7, ∑ s2 : Fin 7, ∑ c : Fin 2, Cert.RefStages.val_main_v144 (F := Ideal) a0 a1 (up4 t 2 (ix4 b s1 s2 c))
/-- The object-confidence term's. -/
def tOBJ (a0 a1 : (⟨Cert.ReferenceIdeal.S16384x7x7x30, .f32⟩ : BufTy).Contents (Elt Ideal)) : EReal :=
  ∑ b : Fin 256, ∑ s1 : Fin 7, ∑ s2 : Fin 7, Cert.RefStages.val_main_v149 (F := Ideal) a0 a1 (up3 t (ix3 b s1 s2))
/-- The no-object term's first half: cells without an object. -/
def tNO (a0 a1 : (⟨Cert.ReferenceIdeal.S16384x7x7x30, .f32⟩ : BufTy).Contents (Elt Ideal)) : EReal :=
  ∑ b : Fin 256, ∑ s1 : Fin 7, ∑ s2 : Fin 7, Cert.RefStages.val_main_v158 (F := Ideal) a0 a1 (up3 t (ix3 b s1 s2))
/-- Its second half: the box that is not responsible, in cells with an object. -/
def tOT (a0 a1 : (⟨Cert.ReferenceIdeal.S16384x7x7x30, .f32⟩ : BufTy).Contents (Elt Ideal)) : EReal :=
  ∑ b : Fin 256, ∑ s1 : Fin 7, ∑ s2 : Fin 7, Cert.RefStages.val_main_v161 (F := Ideal) a0 a1 (up3 t (ix3 b s1 s2))
/-- The class term's: twenty channels. -/
def tCLS (a0 a1 : (⟨Cert.ReferenceIdeal.S16384x7x7x30, .f32⟩ : BufTy).Contents (Elt Ideal)) : EReal :=
  ∑ b : Fin 256, ∑ s1 : Fin 7, ∑ s2 : Fin 7, ∑ c : Fin 20, Cert.RefStages.val_main_v170 (F := Ideal) a0 a1 (up4 t 20 (ix4 b s1 s2 c))

/-- The loss of tile `t`, weighted and added up in the kernel's order. -/
def tileLoss (a0 a1 : (⟨Cert.ReferenceIdeal.S16384x7x7x30, .f32⟩ : BufTy).Contents (Elt Ideal)) : EReal :=
  (((w5 * tXY t a0 a1 + w5 * tWH t a0 a1) + tOBJ t a0 a1) + wHalf * (tNO t a0 a1 + tOT t a0 a1)) + tCLS t a0 a1

section Walks

-- the walk chooses its lemma by the operation at the head (TileWalk.lean)
attribute [local irreducible] shapeCast extractStridedSlice broadcastTo broadcastInDim broadcast constant mulf addf subf divf minimumf maximumf sqrt cmpf sitofp uitofp extui Host.divf Host.sqrt

theorem sum_xy {v6 : FVec Ideal Cert.KernelIdeal.S256x7x7 .f32} {v9 : FVec Ideal Cert.KernelIdeal.S256x7x7x4 .f32} {v10 : FVec Ideal Cert.KernelIdeal.S256x7x7x4 .f32} {v11 : FVec Ideal Cert.KernelIdeal.S256x7x7x4 .f32} {v56 : FVec Ideal Cert.KernelIdeal.S256x7x7 .f32} {v86 : FVec Ideal Cert.KernelIdeal.S256x7x7 .f32} {v91 : FVec Ideal Cert.KernelIdeal.S256x7x7 .f32} {v93 : FVec Ideal Cert.KernelIdeal.S256x7x7 .f32} {v94 : FVec Ideal Cert.KernelIdeal.S256x7x7x1 .f32}
    (h6 : Rel (up3 t) v6 (Cert.RefStages.val_main_v1 (F := Ideal) a0 a1)) (h9 : Rel (up4 t 4) v9 (Cert.RefStages.val_main_v4 (F := Ideal) a0 a1)) (h10 : Rel (up4 t 4) v10 (Cert.RefStages.val_main_v5 (F := Ideal) a0 a1)) (h11 : Rel (up4 t 4) v11 (Cert.RefStages.val_main_v6 (F := Ideal) a0 a1)) (h56 : Rel (up3 t) v56 (Cert.RefStages.val_main_v50 (F := Ideal) a0 a1)) (h86 : Rel (up3 t) v86 (Cert.RefStages.val_main_v79 (F := Ideal) a0 a1)) (h91 : Rel (up3 t) v91 (Cert.RefStages.val_main_v84 (F := Ideal) a0 a1)) (h93 : Rel (up3 t) v93 (Cert.RefStages.val_main_v86 (F := Ideal) a0 a1)) (h94 : Rel (up4 t 1) v94 (Cert.RefStages.val_main_v87 (F := Ideal) a0 a1)) (i : Cert.KernelIdeal.S1x1.Idx) :
    Cert.KernelIdeal.Gen.k0_pay24 v6 v9 v10 v11 v56 v86 v91 v93 v94 i = tXY t a0 a1 := by
  simp only [Cert.KernelIdeal.Gen.k0_pay24]
  exact tile_sum4 t _ (Cert.RefStages.val_main_v130 (F := Ideal) a0 a1) (by tile_walk) _ _ _ _ _ _ _ _ _ _ _ _ _ _ _ i

theorem sum_wh {v9 : FVec Ideal Cert.KernelIdeal.S256x7x7x4 .f32} {v112 : FVec Ideal Cert.KernelIdeal.S256x7x7x4 .f32} {v132 : FVec Ideal Cert.KernelIdeal.S256x7x7x1 .f32}
    (h9 : Rel (up4 t 4) v9 (Cert.RefStages.val_main_v4 (F := Ideal) a0 a1)) (h112 : Rel (up4 t 4) v112 (Cert.RefStages.val_main_v104 (F := Ideal) a0 a1)) (h132 : Rel (up4 t 1) v132 (Cert.RefStages.val_main_v124 (F := Ideal) a0 a1)) (i : Cert.KernelIdeal.S1x1.Idx) :
    Cert.KernelIdeal.Gen.k0_pay27 v9 v112 v132 i = w5 * tWH t a0 a1 := by
  simp only [Cert.KernelIdeal.Gen.k0_pay27]
  rw [mulf_apply, broadcast_apply]
  refine congrArg (fun y => w5 * y) ?_
  exact tile_sum4 t _ (Cert.RefStages.val_main_v144 (F := Ideal) a0 a1) (by tile_walk) _ _ _ _ _ _ _ _ _ _ _ _ _ _ _ i

theorem sum_obj {v6 : FVec Ideal Cert.KernelIdeal.S256x7x7 .f32} {v121 : FVec Ideal Cert.KernelIdeal.S256x7x7 .f32} {v131 : FVec Ideal Cert.KernelIdeal.S256x7x7 .f32}
    (h6 : Rel (up3 t) v6 (Cert.RefStages.val_main_v1 (F := Ideal) a0 a1)) (h121 : Rel (up3 t) v121 (Cert.RefStages.val_main_v113 (F := Ideal) a0 a1)) (h131 : Rel (up3 t) v131 (Cert.RefStages.val_main_v123 (F := Ideal) a0 a1)) (i : Cert.KernelIdeal.S1x1.Idx) :
    Cert.KernelIdeal.Gen.k0_pay28 v6 v121 v131 i = tOBJ t a0 a1 := by
  simp only [Cert.KernelIdeal.Gen.k0_pay28]
  exact tile_sum3 t _ (Cert.RefStages.val_main_v149 (F := Ideal) a0 a1) (by tile_walk) _ _ _ _ _ _ _ _ _ _ _ _ i

theorem sum_no {v3 : Vec Ideal Cert.KernelIdeal.S256x7x7x30 .f32} {v8 : FVec Ideal Cert.KernelIdeal.S256x7x7 .f32}
    (h3 : Rel (up4 t 30) v3 a0) (h8 : Rel (up3 t) v8 (Cert.RefStages.val_main_v3 (F := Ideal) a0 a1)) (i : Cert.KernelIdeal.S1x1.Idx) :
    Cert.KernelIdeal.Gen.k0_pay29 v3 v8 i = tNO t a0 a1 := by
  simp only [Cert.KernelIdeal.Gen.k0_pay29]
  exact tile_sum3 t _ (Cert.RefStages.val_main_v158 (F := Ideal) a0 a1) (by tile_walk) _ _ _ _ _ _ _ _ _ _ _ _ i

theorem sum_ot {v6 : FVec Ideal Cert.KernelIdeal.S256x7x7 .f32} {v130 : FVec Ideal Cert.KernelIdeal.S256x7x7 .f32}
    (h6 : Rel (up3 t) v6 (Cert.RefStages.val_main_v1 (F := Ideal) a0 a1)) (h130 : Rel (up3 t) v130 (Cert.RefStages.val_main_v122 (F := Ideal) a0 a1)) (b : Fin 256) (s1 : Fin 7) :
    Cert.KernelIdeal.Gen.k0_pay30 v6 v130 (ix2 b s1) = ∑ s2 : Fin 7, Cert.RefStages.val_main_v161 (F := Ideal) a0 a1 (up3 t (ix3 b s1 s2)) := by
  simp only [Cert.KernelIdeal.Gen.k0_pay30]
  exact tile_sum_cols t _ (Cert.RefStages.val_main_v161 (F := Ideal) a0 a1) (by tile_walk) _ _ _ _ b s1

/-- The body's last stretch: the class term summed, the five terms added to the accumulator's contents. -/
theorem last_stretch {v3 : Vec Ideal Cert.KernelIdeal.S256x7x7x30 .f32} {v4 : Vec Ideal Cert.KernelIdeal.S256x7x7x30 .f32} {v132 : FVec Ideal Cert.KernelIdeal.S256x7x7x1 .f32}
    (h3 : Rel (up4 t 30) v3 a0) (h4 : Rel (up4 t 30) v4 a1) (h132 : Rel (up4 t 1) v132 (Cert.RefStages.val_main_v124 (F := Ideal) a0 a1))
    (v146 v166 v174 v187 : FVec Ideal Cert.KernelIdeal.S1x1 .f32) (v190 : FVec Ideal Cert.KernelIdeal.S256x7 .f32) (v214 : Vec Ideal Cert.KernelIdeal.S1x1 .f32)
    (i : Cert.KernelIdeal.S1x1.Idx) :
    Cert.KernelIdeal.Gen.k0_pay1 v3 v4 v132 v146 v166 v174 v187 v190 v214 i
      = v214 i + ((((v146 i + v166 i) + v174 i) + wHalf * (v187 i + ∑ b : Fin 256, ∑ s1 : Fin 7, v190 (ix2 b s1))) + tCLS t a0 a1) := by
  simp only [Cert.KernelIdeal.Gen.k0_pay1]
  rw [shapeCast_self]
  simp only [addf_apply, mulf_apply, broadcast_apply]
  refine congrArg (fun y => v214 i + y) ?_
  refine congrArg₂ (fun y z => (((v146 i + v166 i) + v174 i) + wHalf * (v187 i + y)) + z) ?_ ?_
  · exact sum_rows _ _ _ _ _ _ _ _ _ _ i
  · exact tile_sum4 t _ (Cert.RefStages.val_main_v170 (F := Ideal) a0 a1) (by tile_walk) _ _ _ _ _ _ _ _ _ _ _ _ _ _ _ i

end Walks

/-! ## One grid point -/

/-- The first box term's weight is a splat of 5, and the weighting a product of two one-word arrays. -/
theorem weight_apply (i : Cert.KernelIdeal.S1x1.Idx) : (Cert.KernelIdeal.Gen.k0_pay25 : FVec Ideal Cert.KernelIdeal.S1x1 .f32) i = w5 := rfl
theorem weighted_apply (v144 v145 : FVec Ideal Cert.KernelIdeal.S1x1 .f32) (i : Cert.KernelIdeal.S1x1.Idx) :
    Cert.KernelIdeal.Gen.k0_pay26 v144 v145 i = v145 i * v144 i := rfl

set_option maxHeartbeats 2000000 in
/-- A point of the grid on tile `t` adds the tile's loss to the accumulator. -/
theorem tileStep_apply {x0 x1 : Vec Ideal Cert.KernelIdeal.S256x7x7x30 .f32} (hx0 : Rel (up4 t 30) x0 a0) (hx1 : Rel (up4 t 30) x1 a1)
    (xs : Vec Ideal Cert.KernelIdeal.S1x1 .f32) (i : Cert.KernelIdeal.S1x1.Idx) :
    Cert.KernelIdeal.Step.tileStep x0 x1 xs i = xs i + tileLoss t a0 a1 := by
  have h6 := rel_v6 t a0 a1 hx1
  have h8 := rel_v8 t a0 a1 hx1
  have h9 := rel_v9 t a0 a1 hx1
  have h10 := rel_v10 t a0 a1 hx0
  have h11 := rel_v11 t a0 a1 hx0
  have h38 := rel_v38 t a0 a1 hx0 hx1
  have h40 := rel_v40 t a0 a1 hx0 hx1
  have h56 := rel_v56 t a0 a1 h9 h10 h38 h40
  have h86 := rel_v86 t a0 a1 h9 h11
  have h91 := rel_v91 t a0 a1 h11
  have h93 := rel_v93 t a0 a1 h9
  have h94 := rel_v94 t a0 a1 h9
  have h112 := rel_v112 t a0 a1 h10 h11 h56 h86 h91 h93 h94
  have h121 := rel_v121 t a0 a1 hx0 h56 h86 h91 h93 h94
  have h130 := rel_v130 t a0 a1 hx0 h56 h86 h91 h93 h94
  have h131 := rel_v131 t a0 a1 h56 h86 h91 h93 h94
  have h132 := rel_v132 t a0 a1 h6
  unfold Cert.KernelIdeal.Step.tileStep
  rw [last_stretch t a0 a1 hx0 hx1 h132]
  rw [sum_wh t a0 a1 h9 h112 h132, sum_obj t a0 a1 h6 h121 h131, sum_no t a0 a1 hx0 h8]
  simp only [sum_ot t a0 a1 h6 h130]
  rw [weighted_apply, weight_apply, sum_xy t a0 a1 h6 h9 h10 h11 h56 h86 h91 h93 h94]
  rfl

end Cert.TileValues

end
-- ==== Proof.LibSums.lean ====
/-
  Sums over an array of 16384 batch rows, tile by tile. A sum over every index of an array with a leading batch axis is
  the sum, over the 64 tiles, of the sum over the tile's 256 rows, the 7 × 7 cells and the channels of the entry at the
  tile's row: the index set is the product of its coordinate ranges, and the 16384 rows are the 64 × 256 pairs
  (tile, row in the tile). And on the extended reals a NON-NEGATIVE REAL factor distributes over any finite sum — the
  one instance of distributivity that holds whatever infinities the summands are.
-/
import proofs.«400913_j74620761801586_4_alg».proof.Proof.LibTiles

noncomputable section

namespace Cert.Tiles

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The 16384 rows are the pairs (tile, row in the tile). -/
def rowEquiv : Fin 64 × Fin 256 ≃ Fin 16384 where
  toFun p := row p.1 p.2
  invFun n := (⟨n.val / 256, by have := n.isLt; omega⟩, ⟨n.val % 256, Nat.mod_lt _ (by decide)⟩)
  left_inv p := by
    obtain ⟨t, b⟩ := p
    have ht := t.isLt
    have hb := b.isLt
    apply Prod.ext <;> apply Fin.ext
    · show (256 * t.val + b.val) / 256 = t.val; omega
    · show (256 * t.val + b.val) % 256 = b.val; omega
  right_inv n := by
    apply Fin.ext
    show 256 * (n.val / 256) + n.val % 256 = n.val
    omega

theorem sum_rows_tiles {M : Type*} [AddCommMonoid M] (g : Fin 16384 → M) :
    ∑ n, g n = ∑ t : Fin 64, ∑ b : Fin 256, g (row t b) := by
  rw [← Equiv.sum_comp rowEquiv g, Fintype.sum_prod_type]
  rfl

/-- A sum over a whole array with channels, tile by tile. -/
theorem sum_tiles4 {M : Type*} [AddCommMonoid M] {K : ℕ} (f : (W4 K).Idx → M) :
    ∑ i, f i = ∑ t : Fin 64, ∑ b : Fin 256, ∑ s1 : Fin 7, ∑ s2 : Fin 7, ∑ c : Fin K, f (up4 t K (ix4 b s1 s2 c)) := by
  rw [sum_idx4 f, sum_rows_tiles]
  rfl

/-- The same without a channel axis. -/
theorem sum_tiles3 {M : Type*} [AddCommMonoid M] (f : W3.Idx → M) :
    ∑ i, f i = ∑ t : Fin 64, ∑ b : Fin 256, ∑ s1 : Fin 7, ∑ s2 : Fin 7, f (up3 t (ix3 b s1 s2)) := by
  rw [sum_idx3 f, sum_rows_tiles]
  rfl

/-- On the extended reals a non-negative real factor distributes over a finite sum, whatever the summands. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

end Cert.Tiles

end
-- ==== Proof.KernelValue.lean ====
/-
  The kernel's value at the extended reals. A point's two input blocks are tile t of the two arguments, t the point's
  number (core × 32 + step), so the point adds tile t's loss to the accumulator; the accumulator after point n is the sum
  of the losses of the tiles of n's core up to n; and the result is zero plus the two cores' totals, divided by the
  batch size.
-/
import proofs.«400913_j74620761801586_4_alg».proof.Proof.KernelRun
import proofs.«400913_j74620761801586_4_alg».proof.Proof.TileSums
import proofs.«400913_j74620761801586_4_alg».proof.Proof.LibSums

noncomputable section

open Idealize.ShloMosaic Idealize.ShloMosaic.TcCoe Idealize.SL.Sem Idealize.ShloMosaic.ValueIdx
open Cert.Tiles Cert.TileValues

namespace Cert.KernelIdeal.IdealValue

open Cert.KernelIdeal Cert.KernelIdeal.Gen Cert.KernelIdeal.Step Cert.KernelIdeal.RunValue

variable (m : (ℓ : Loc nD τ sig) → Buf (Elt Ideal) ℓ)

/-- The two arguments' launch contents on core `c`. -/
abbrev arg0 (c : Dev nD) : (⟨Cert.ReferenceIdeal.S16384x7x7x30, .f32⟩ : BufTy).Contents (Elt Ideal) := m ((c.tc : Thread nD τ).loc main_arg0)
abbrev arg1 (c : Dev nD) : (⟨Cert.ReferenceIdeal.S16384x7x7x30, .f32⟩ : BufTy).Contents (Elt Ideal) := m ((c.tc : Thread nD τ).loc main_arg1)

/-- A grid point's number, as a tile's. -/
def tileOf (t : Fin cfg0.N) : Fin 64 := ⟨t.val, by have := N64; omega⟩

/-- Both inputs' block index at a point is the point's number on the batch axis and zero on the others. -/
theorem in_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0) :=
  (by decide +kernel : ∀ t : Fin grid0.N, _)

/-- The predictions' block at a point is its tile of the predictions. -/
theorem blk0_rel (c : Dev nD) (t : Fin cfg0.N) : Rel (up4 (tileOf t) 30) (iblk m c 0 t) (arg0 m c) := by
  intro i
  obtain ⟨⟨e0, e1, e2, e3⟩, -⟩ := in_index t
  unfold iblk
  rw [View.read_apply]
  show m ((c.tc : Thread nD τ).loc main_arg0) (((cfg0.win 0).blk t).view.emb i) = m ((c.tc : Thread nD τ).loc main_arg0) (up4 (tileOf t) 30 i)
  refine congrArg _ (funext fun a => Fin.ext ?_)
  match a with
  | ⟨0, _⟩ => show win0_0.index t (0 : Fin 4) * 256 + 1 * (i 0).val = 256 * t.val + (i 0).val; rw [e0]; omega
  | ⟨1, _⟩ => show win0_0.index t (1 : Fin 4) * 7 + 1 * (i 1).val = (i 1).val; rw [e1]; omega
  | ⟨2, _⟩ => show win0_0.index t (2 : Fin 4) * 7 + 1 * (i 2).val = (i 2).val; rw [e2]; omega
  | ⟨3, _⟩ => show win0_0.index t (3 : Fin 4) * 30 + 1 * (i 3).val = (i 3).val; rw [e3]; omega

/-- The labels' likewise. -/
theorem blk1_rel (c : Dev nD) (t : Fin cfg0.N) : Rel (up4 (tileOf t) 30) (iblk m c 1 t) (arg1 m c) := by
  intro i
  obtain ⟨-, ⟨e0, e1, e2, e3⟩⟩ := in_index t
  unfold iblk
  rw [View.read_apply]
  show m ((c.tc : Thread nD τ).loc main_arg1) (((cfg0.win 1).blk t).view.emb i) = m ((c.tc : Thread nD τ).loc main_arg1) (up4 (tileOf t) 30 i)
  refine congrArg _ (funext fun a => Fin.ext ?_)
  match a with
  | ⟨0, _⟩ => show win0_1.index t (0 : Fin 4) * 256 + 1 * (i 0).val = 256 * t.val + (i 0).val; rw [e0]; omega
  | ⟨1, _⟩ => show win0_1.index t (1 : Fin 4) * 7 + 1 * (i 1).val = (i 1).val; rw [e1]; omega
  | ⟨2, _⟩ => show win0_1.index t (2 : Fin 4) * 7 + 1 * (i 2).val = (i 2).val; rw [e2]; omega
  | ⟨3, _⟩ => show win0_1.index t (3 : Fin 4) * 30 + 1 * (i 3).val = (i 3).val; rw [e3]; omega

/-- The loss of tile `n`, as a function of the natural number (zero past the last tile). -/
def lossAt (c : Dev nD) (n : ℕ) : EReal := if h : n < 64 then tileLoss ⟨n, h⟩ (arg0 m c) (arg1 m c) else 0

/-- The accumulator's one index. -/
abbrev i0 : S1x1.Idx := ix2 ⟨0, Nat.one_pos⟩ ⟨0, Nat.one_pos⟩

/-- The word a core's first point resets the accumulator to is zero. -/
theorem zeroAcc_apply : (zeroAcc : FVec Ideal S1x1 .f32) i0 = 0 := by
  unfold zeroAcc k0_pay3
  rw [shapeCast_self]
  exact Ideal.ofBits_zero_f32

/-- A point adds its tile's loss to the accumulator's word. -/
theorem step_eq (c : Dev nD) (t : Fin cfg0.N) (xs : Vec Ideal S1x1 .f32) :
    tileStep (iblk m c 0 t) (iblk m c 1 t) xs i0 = xs i0 + lossAt m c t.val := by
  rw [tileStep_apply (tileOf t) (arg0 m c) (arg1 m c) (blk0_rel m c t) (blk1_rel m c t) xs i0]
  have ht : t.val < 64 := by have := N64; have := t.isLt; omega
  unfold lossAt
  rw [dif_pos ht]
  rfl

/-- The accumulator after point `n` holds the losses of the tiles of `n`'s core up to `n`, added up. -/
theorem acc_closed (c : Dev nD) : ∀ (n : ℕ) (h : n < cfg0.N),
    accAt m c n h i0 = ∑ j ∈ Finset.range (n % 32 + 1), lossAt m c (32 * (n / 32) + j)
  | 0, h => by
    show tileStep (iblk m c 0 ⟨0, h⟩) (iblk m c 1 ⟨0, h⟩) (zeroAcc (F := Ideal)) i0 = _
    rw [step_eq m c ⟨0, h⟩, zeroAcc_apply, zero_add]
    simp
  | n + 1, h => by
    by_cases h0 : (n + 1) % 32 = 0
    · have e : accAt m c (n + 1) h = tileStep (iblk m c 0 ⟨n + 1, h⟩) (iblk m c 1 ⟨n + 1, h⟩) (zeroAcc (F := Ideal)) := by
        simp only [accAt, if_pos h0]
      rw [e, step_eq m c ⟨n + 1, h⟩, zeroAcc_apply, zero_add, h0]
      have : 32 * ((n + 1) / 32) = n + 1 := by omega
      simp [this]
    · have e : accAt m c (n + 1) h = tileStep (iblk m c 0 ⟨n + 1, h⟩) (iblk m c 1 ⟨n + 1, h⟩) (accAt m c n (Nat.lt_of_succ_lt h)) := by
        simp only [accAt, if_neg h0]
      rw [e, step_eq m c ⟨n + 1, h⟩, acc_closed c n (Nat.lt_of_succ_lt h)]
      have hq : (n + 1) / 32 = n / 32 := by omega
      have hr : (n + 1) % 32 = n % 32 + 1 := by omega
      rw [hq, hr, Finset.sum_range_succ _ (n % 32 + 1)]
      have : 32 * (n / 32) + (n % 32 + 1) = n + 1 := by omega
      rw [this]

/-- The divisor: the batch size, as the program's text has it. -/
abbrev batch : EReal := Ideal.ofBits .f32 0x46800000#32

/-- A rank-one index set is its one coordinate range. -/
theorem sum_idx1 {M : Type*} [AddCommMonoid M] {n : Nat} (f : (⟨1, ![n]⟩ : Shape).Idx → M) : ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

/-- The host lines on an output array: zero plus word (0, 0) and word (8, 0), divided by the batch size. -/
theorem tailOf_apply (o : FVec Ideal S16x128 .f32) (j : S_.Idx) :
    tailOf o j = Ideal.div (0 + (o (ix2 ⟨0, by decide⟩ ⟨0, by decide⟩) + o (ix2 ⟨8, by decide⟩ ⟨0, by decide⟩))) batch := by
  unfold tailOf
  show Ideal.div (Ideal.hostReduceAdd reducesTo_S2_S_d0 _ (Ideal.ofBits .f32 0x00000000#32) j) batch = _
  rw [Ideal.hostReduceAdd_total reducesTo_S2_S_d0 (fun b => b.elim0), Ideal.ofBits_zero_f32, sum_idx1, Fin.sum_univ_two]
  have key : ∀ k : Fin 2, shapeCast S2 (extractStridedSlice S2x1x1 ![0, 0, 0] (shapeCast S2x8x128 o shapeCasts_S16x128_S2x8x128) slices_S2x8x128_S2x1x1_0_0_0) shapeCasts_S2x1x1_S2 (ix1 k)
      = o (ix2 ⟨8 * k.val, by have := k.isLt; omega⟩ ⟨0, by decide⟩) := by
    intro k
    have hk := k.isLt
    refine (shapeCast_apply _ shapeCasts_S2x1x1_S2 (ix1 k) (ix3 k ⟨0, Nat.one_pos⟩ ⟨0, Nat.one_pos⟩) ?_).trans ?_
    · rewrite [Shape.rowMajor_val_three, Shape.rowMajor_val_one]
      show (k.val * 1 + 0) * 1 + 0 = k.val
      omega
    refine (extractStridedSlice_apply _ _ slices_S2x8x128_S2x1x1_0_0_0 _ (ix3 k ⟨0, by decide⟩ ⟨0, by decide⟩) ?_).trans ?_
    · intro a
      match a with
      | ⟨0, _⟩ => show k.val = 0 + k.val; omega
      | ⟨1, _⟩ => rfl
      | ⟨2, _⟩ => rfl
    refine shapeCast_apply o shapeCasts_S16x128_S2x8x128 _ _ ?_
    rewrite [Shape.rowMajor_val_two, Shape.rowMajor_val_three]
    show 8 * k.val * 128 + 0 = (k.val * 8 + 0) * 128 + 0
    omega
  rw [key 0, key 1]
  rfl

/-- The kernel's result: zero plus the two cores' totals, over the batch size; the two totals together are the losses of
    all 64 tiles. -/
theorem value (c : Dev nD) (j : S_.Idx) :
    tailOf (outFinal m c) j = Ideal.div (∑ t : Fin 64, tileLoss t (arg0 m c) (arg1 m c)) batch := by
  rw [tailOf_apply, zero_add]
  refine congrArg (fun x => Ideal.div x batch) ?_
  have hN := N64
  have a0 : outFinal m c (ix2 ⟨0, by decide⟩ ⟨0, by decide⟩) = accAt m c 31 (by omega) i0 := rfl
  have a1 : outFinal m c (ix2 ⟨8, by decide⟩ ⟨0, by decide⟩) = accAt m c 63 (by omega) i0 := rfl
  rw [a0, a1, acc_closed, acc_closed]
  show ∑ j ∈ Finset.range 32, lossAt m c (0 + j) + ∑ j ∈ Finset.range 32, lossAt m c (32 + j) = _
  simp only [zero_add]
  rw [← Finset.sum_range_add (lossAt m c) 32 32, ← Fin.sum_univ_eq_sum_range (lossAt m c) 64]
  refine Finset.sum_congr rfl fun t _ => ?_
  unfold lossAt
  rw [dif_pos t.isLt]

end Cert.KernelIdeal.IdealValue

end
-- ==== Proof.RefChunks.lean ====
/-
  Stretch by stretch: from buffer contents that hold, at each buffer a later operation still reads, that buffer's stage,
  a stretch of the operations leaves contents that hold the stages of the buffers read after it — the arguments
  unchanged throughout. One statement per stretch (the table: which stages a stretch finds and which it leaves), each
  closed by the tactic of RefTac.lean; then the stretches chained over the whole list.
-/
import proofs.«400913_j74620761801586_4_alg».proof.Proof.RefStages
import proofs.«400913_j74620761801586_4_alg».proof.Proof.RefTac
import Idealize.ShloMosaic.Lib.Pipeline.Frame

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 16000000 in
theorem stretch_0 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1) :
    after (ops_0 (F := F)) W (Proc.devRef .tc main_arg0) = a0
    ∧ after (ops_0 (F := F)) W (Proc.devRef .tc main_arg1) = a1
    ∧ after (ops_0 (F := F)) W (Proc.devRef .tc main_v5) = (val_main_v5 (F := F) a0 a1)
    ∧ after (ops_0 (F := F)) W (Proc.devRef .tc main_v4) = (val_main_v4 (F := F) a0 a1)
    ∧ after (ops_0 (F := F)) W (Proc.devRef .tc main_v6) = (val_main_v6 (F := F) a0 a1)
    ∧ after (ops_0 (F := F)) W (Proc.devRef .tc main_v1) = (val_main_v1 (F := F) a0 a1)
    ∧ after (ops_0 (F := F)) W (Proc.devRef .tc main_v3) = (val_main_v3 (F := F) a0 a1) := by
  refine ⟨?_, ?_, ?_, ?_, ?_, ?_, ?_⟩ <;> ref_stretch [h_arg0, h_arg1]

set_option maxHeartbeats 16000000 in
theorem stretch_1 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v5 : W (Proc.devRef .tc main_v5) = (val_main_v5 (F := F) a0 a1))
    (h_v4 : W (Proc.devRef .tc main_v4) = (val_main_v4 (F := F) a0 a1))
    (h_v6 : W (Proc.devRef .tc main_v6) = (val_main_v6 (F := F) a0 a1))
    (h_v1 : W (Proc.devRef .tc main_v1) = (val_main_v1 (F := F) a0 a1))
    (h_v3 : W (Proc.devRef .tc main_v3) = (val_main_v3 (F := F) a0 a1)) :
    after (ops_1 (F := F)) W (Proc.devRef .tc main_arg0) = a0
    ∧ after (ops_1 (F := F)) W (Proc.devRef .tc main_arg1) = a1
    ∧ after (ops_1 (F := F)) W (Proc.devRef .tc main_v32) = (val_main_v32 (F := F) a0 a1)
    ∧ after (ops_1 (F := F)) W (Proc.devRef .tc main_v34) = (val_main_v34 (F := F) a0 a1)
    ∧ after (ops_1 (F := F)) W (Proc.devRef .tc main_v5) = (val_main_v5 (F := F) a0 a1)
    ∧ after (ops_1 (F := F)) W (Proc.devRef .tc main_v4) = (val_main_v4 (F := F) a0 a1)
    ∧ after (ops_1 (F := F)) W (Proc.devRef .tc main_v6) = (val_main_v6 (F := F) a0 a1)
    ∧ after (ops_1 (F := F)) W (Proc.devRef .tc main_v1) = (val_main_v1 (F := F) a0 a1)
    ∧ after (ops_1 (F := F)) W (Proc.devRef .tc main_v3) = (val_main_v3 (F := F) a0 a1) := by
  refine ⟨?_, ?_, ?_, ?_, ?_, ?_, ?_, ?_, ?_⟩ <;> ref_stretch [h_arg0, h_arg1, h_v5, h_v4, h_v6, h_v1, h_v3]

set_option maxHeartbeats 16000000 in
theorem stretch_2 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v32 : W (Proc.devRef .tc main_v32) = (val_main_v32 (F := F) a0 a1))
    (h_v34 : W (Proc.devRef .tc main_v34) = (val_main_v34 (F := F) a0 a1))
    (h_v5 : W (Proc.devRef .tc main_v5) = (val_main_v5 (F := F) a0 a1))
    (h_v4 : W (Proc.devRef .tc main_v4) = (val_main_v4 (F := F) a0 a1))
    (h_v6 : W (Proc.devRef .tc main_v6) = (val_main_v6 (F := F) a0 a1))
    (h_v1 : W (Proc.devRef .tc main_v1) = (val_main_v1 (F := F) a0 a1))
    (h_v3 : W (Proc.devRef .tc main_v3) = (val_main_v3 (F := F) a0 a1)) :
    after (ops_2 (F := F)) W (Proc.devRef .tc main_arg0) = a0
    ∧ after (ops_2 (F := F)) W (Proc.devRef .tc main_arg1) = a1
    ∧ after (ops_2 (F := F)) W (Proc.devRef .tc main_v6) = (val_main_v6 (F := F) a0 a1)
    ∧ after (ops_2 (F := F)) W (Proc.devRef .tc main_v4) = (val_main_v4 (F := F) a0 a1)
    ∧ after (ops_2 (F := F)) W (Proc.devRef .tc main_v50) = (val_main_v50 (F := F) a0 a1)
    ∧ after (ops_2 (F := F)) W (Proc.devRef .tc main_v5) = (val_main_v5 (F := F) a0 a1)
    ∧ after (ops_2 (F := F)) W (Proc.devRef .tc main_v1) = (val_main_v1 (F := F) a0 a1)
    ∧ after (ops_2 (F := F)) W (Proc.devRef .tc main_v3) = (val_main_v3 (F := F) a0 a1) := by
  refine ⟨?_, ?_, ?_, ?_, ?_, ?_, ?_, ?_⟩ <;> ref_stretch [h_arg0, h_arg1, h_v32, h_v34, h_v5, h_v4, h_v6, h_v1, h_v3]

set_option maxHeartbeats 16000000 in
theorem stretch_3 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v6 : W (Proc.devRef .tc main_v6) = (val_main_v6 (F := F) a0 a1))
    (h_v4 : W (Proc.devRef .tc main_v4) = (val_main_v4 (F := F) a0 a1))
    (h_v50 : W (Proc.devRef .tc main_v50) = (val_main_v50 (F := F) a0 a1))
    (h_v5 : W (Proc.devRef .tc main_v5) = (val_main_v5 (F := F) a0 a1))
    (h_v1 : W (Proc.devRef .tc main_v1) = (val_main_v1 (F := F) a0 a1))
    (h_v3 : W (Proc.devRef .tc main_v3) = (val_main_v3 (F := F) a0 a1)) :
    after (ops_3 (F := F)) W (Proc.devRef .tc main_arg0) = a0
    ∧ after (ops_3 (F := F)) W (Proc.devRef .tc main_arg1) = a1
    ∧ after (ops_3 (F := F)) W (Proc.devRef .tc main_v52) = (val_main_v52 (F := F) a0 a1)
    ∧ after (ops_3 (F := F)) W (Proc.devRef .tc main_v51) = (val_main_v51 (F := F) a0 a1)
    ∧ after (ops_3 (F := F)) W (Proc.devRef .tc main_v6) = (val_main_v6 (F := F) a0 a1)
    ∧ after (ops_3 (F := F)) W (Proc.devRef .tc main_v4) = (val_main_v4 (F := F) a0 a1)
    ∧ after (ops_3 (F := F)) W (Proc.devRef .tc main_v50) = (val_main_v50 (F := F) a0 a1)
    ∧ after (ops_3 (F := F)) W (Proc.devRef .tc main_v5) = (val_main_v5 (F := F) a0 a1)
    ∧ after (ops_3 (F := F)) W (Proc.devRef .tc main_v1) = (val_main_v1 (F := F) a0 a1)
    ∧ after (ops_3 (F := F)) W (Proc.devRef .tc main_v3) = (val_main_v3 (F := F) a0 a1) := by
  refine ⟨?_, ?_, ?_, ?_, ?_, ?_, ?_, ?_, ?_, ?_⟩ <;> ref_stretch [h_arg0, h_arg1, h_v6, h_v4, h_v50, h_v5, h_v1, h_v3]

set_option maxHeartbeats 16000000 in
theorem stretch_4 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v52 : W (Proc.devRef .tc main_v52) = (val_main_v52 (F := F) a0 a1))
    (h_v51 : W (Proc.devRef .tc main_v51) = (val_main_v51 (F := F) a0 a1))
    (h_v6 : W (Proc.devRef .tc main_v6) = (val_main_v6 (F := F) a0 a1))
    (h_v4 : W (Proc.devRef .tc main_v4) = (val_main_v4 (F := F) a0 a1))
    (h_v50 : W (Proc.devRef .tc main_v50) = (val_main_v50 (F := F) a0 a1))
    (h_v5 : W (Proc.devRef .tc main_v5) = (val_main_v5 (F := F) a0 a1))
    (h_v1 : W (Proc.devRef .tc main_v1) = (val_main_v1 (F := F) a0 a1))
    (h_v3 : W (Proc.devRef .tc main_v3) = (val_main_v3 (F := F) a0 a1)) :
    after (ops_4 (F := F)) W (Proc.devRef .tc main_arg0) = a0
    ∧ after (ops_4 (F := F)) W (Proc.devRef .tc main_arg1) = a1
    ∧ after (ops_4 (F := F)) W (Proc.devRef .tc main_v6) = (val_main_v6 (F := F) a0 a1)
    ∧ after (ops_4 (F := F)) W (Proc.devRef .tc main_v4) = (val_main_v4 (F := F) a0 a1)
    ∧ after (ops_4 (F := F)) W (Proc.devRef .tc main_v79) = (val_main_v79 (F := F) a0 a1)
    ∧ after (ops_4 (F := F)) W (Proc.devRef .tc main_v50) = (val_main_v50 (F := F) a0 a1)
    ∧ after (ops_4 (F := F)) W (Proc.devRef .tc main_v5) = (val_main_v5 (F := F) a0 a1)
    ∧ after (ops_4 (F := F)) W (Proc.devRef .tc main_v1) = (val_main_v1 (F := F) a0 a1)
    ∧ after (ops_4 (F := F)) W (Proc.devRef .tc main_v3) = (val_main_v3 (F := F) a0 a1) := by
  refine ⟨?_, ?_, ?_, ?_, ?_, ?_, ?_, ?_, ?_⟩ <;> ref_stretch [h_arg0, h_arg1, h_v52, h_v51, h_v6, h_v4, h_v50, h_v5, h_v1, h_v3]

set_option maxHeartbeats 16000000 in
theorem stretch_5 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v6 : W (Proc.devRef .tc main_v6) = (val_main_v6 (F := F) a0 a1))
    (h_v4 : W (Proc.devRef .tc main_v4) = (val_main_v4 (F := F) a0 a1))
    (h_v79 : W (Proc.devRef .tc main_v79) = (val_main_v79 (F := F) a0 a1))
    (h_v50 : W (Proc.devRef .tc main_v50) = (val_main_v50 (F := F) a0 a1))
    (h_v5 : W (Proc.devRef .tc main_v5) = (val_main_v5 (F := F) a0 a1))
    (h_v1 : W (Proc.devRef .tc main_v1) = (val_main_v1 (F := F) a0 a1))
    (h_v3 : W (Proc.devRef .tc main_v3) = (val_main_v3 (F := F) a0 a1)) :
    after (ops_5 (F := F)) W (Proc.devRef .tc main_arg0) = a0
    ∧ after (ops_5 (F := F)) W (Proc.devRef .tc main_arg1) = a1
    ∧ after (ops_5 (F := F)) W (Proc.devRef .tc main_v50) = (val_main_v50 (F := F) a0 a1)
    ∧ after (ops_5 (F := F)) W (Proc.devRef .tc main_v94) = (val_main_v94 (F := F) a0 a1)
    ∧ after (ops_5 (F := F)) W (Proc.devRef .tc main_v5) = (val_main_v5 (F := F) a0 a1)
    ∧ after (ops_5 (F := F)) W (Proc.devRef .tc main_v6) = (val_main_v6 (F := F) a0 a1)
    ∧ after (ops_5 (F := F)) W (Proc.devRef .tc main_v1) = (val_main_v1 (F := F) a0 a1)
    ∧ after (ops_5 (F := F)) W (Proc.devRef .tc main_v4) = (val_main_v4 (F := F) a0 a1)
    ∧ after (ops_5 (F := F)) W (Proc.devRef .tc main_v3) = (val_main_v3 (F := F) a0 a1) := by
  refine ⟨?_, ?_, ?_, ?_, ?_, ?_, ?_, ?_, ?_⟩ <;> ref_stretch [h_arg0, h_arg1, h_v6, h_v4, h_v79, h_v50, h_v5, h_v1, h_v3]

set_option maxHeartbeats 16000000 in
theorem stretch_6 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v50 : W (Proc.devRef .tc main_v50) = (val_main_v50 (F := F) a0 a1))
    (h_v94 : W (Proc.devRef .tc main_v94) = (val_main_v94 (F := F) a0 a1))
    (h_v5 : W (Proc.devRef .tc main_v5) = (val_main_v5 (F := F) a0 a1))
    (h_v6 : W (Proc.devRef .tc main_v6) = (val_main_v6 (F := F) a0 a1))
    (h_v1 : W (Proc.devRef .tc main_v1) = (val_main_v1 (F := F) a0 a1))
    (h_v4 : W (Proc.devRef .tc main_v4) = (val_main_v4 (F := F) a0 a1))
    (h_v3 : W (Proc.devRef .tc main_v3) = (val_main_v3 (F := F) a0 a1)) :
    after (ops_6 (F := F)) W (Proc.devRef .tc main_arg0) = a0
    ∧ after (ops_6 (F := F)) W (Proc.devRef .tc main_arg1) = a1
    ∧ after (ops_6 (F := F)) W (Proc.devRef .tc main_v96) = (val_main_v96 (F := F) a0 a1)
    ∧ after (ops_6 (F := F)) W (Proc.devRef .tc main_v50) = (val_main_v50 (F := F) a0 a1)
    ∧ after (ops_6 (F := F)) W (Proc.devRef .tc main_v94) = (val_main_v94 (F := F) a0 a1)
    ∧ after (ops_6 (F := F)) W (Proc.devRef .tc main_v1) = (val_main_v1 (F := F) a0 a1)
    ∧ after (ops_6 (F := F)) W (Proc.devRef .tc main_v104) = (val_main_v104 (F := F) a0 a1)
    ∧ after (ops_6 (F := F)) W (Proc.devRef .tc main_v4) = (val_main_v4 (F := F) a0 a1)
    ∧ after (ops_6 (F := F)) W (Proc.devRef .tc main_v3) = (val_main_v3 (F := F) a0 a1) := by
  refine ⟨?_, ?_, ?_, ?_, ?_, ?_, ?_, ?_, ?_⟩ <;> ref_stretch [h_arg0, h_arg1, h_v50, h_v94, h_v5, h_v6, h_v1, h_v4, h_v3]

set_option maxHeartbeats 16000000 in
theorem stretch_7 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v96 : W (Proc.devRef .tc main_v96) = (val_main_v96 (F := F) a0 a1))
    (h_v50 : W (Proc.devRef .tc main_v50) = (val_main_v50 (F := F) a0 a1))
    (h_v94 : W (Proc.devRef .tc main_v94) = (val_main_v94 (F := F) a0 a1))
    (h_v1 : W (Proc.devRef .tc main_v1) = (val_main_v1 (F := F) a0 a1))
    (h_v104 : W (Proc.devRef .tc main_v104) = (val_main_v104 (F := F) a0 a1))
    (h_v4 : W (Proc.devRef .tc main_v4) = (val_main_v4 (F := F) a0 a1))
    (h_v3 : W (Proc.devRef .tc main_v3) = (val_main_v3 (F := F) a0 a1)) :
    after (ops_7 (F := F)) W (Proc.devRef .tc main_arg0) = a0
    ∧ after (ops_7 (F := F)) W (Proc.devRef .tc main_arg1) = a1
    ∧ after (ops_7 (F := F)) W (Proc.devRef .tc main_v105) = (val_main_v105 (F := F) a0 a1)
    ∧ after (ops_7 (F := F)) W (Proc.devRef .tc main_v96) = (val_main_v96 (F := F) a0 a1)
    ∧ after (ops_7 (F := F)) W (Proc.devRef .tc main_v50) = (val_main_v50 (F := F) a0 a1)
    ∧ after (ops_7 (F := F)) W (Proc.devRef .tc main_v94) = (val_main_v94 (F := F) a0 a1)
    ∧ after (ops_7 (F := F)) W (Proc.devRef .tc main_v1) = (val_main_v1 (F := F) a0 a1)
    ∧ after (ops_7 (F := F)) W (Proc.devRef .tc main_v104) = (val_main_v104 (F := F) a0 a1)
    ∧ after (ops_7 (F := F)) W (Proc.devRef .tc main_v4) = (val_main_v4 (F := F) a0 a1)
    ∧ after (ops_7 (F := F)) W (Proc.devRef .tc main_v3) = (val_main_v3 (F := F) a0 a1) := by
  refine ⟨?_, ?_, ?_, ?_, ?_, ?_, ?_, ?_, ?_, ?_⟩ <;> ref_stretch [h_arg0, h_arg1, h_v96, h_v50, h_v94, h_v1, h_v104, h_v4, h_v3]

set_option maxHeartbeats 16000000 in
theorem stretch_8 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v105 : W (Proc.devRef .tc main_v105) = (val_main_v105 (F := F) a0 a1))
    (h_v96 : W (Proc.devRef .tc main_v96) = (val_main_v96 (F := F) a0 a1))
    (h_v50 : W (Proc.devRef .tc main_v50) = (val_main_v50 (F := F) a0 a1))
    (h_v94 : W (Proc.devRef .tc main_v94) = (val_main_v94 (F := F) a0 a1))
    (h_v1 : W (Proc.devRef .tc main_v1) = (val_main_v1 (F := F) a0 a1))
    (h_v104 : W (Proc.devRef .tc main_v104) = (val_main_v104 (F := F) a0 a1))
    (h_v4 : W (Proc.devRef .tc main_v4) = (val_main_v4 (F := F) a0 a1))
    (h_v3 : W (Proc.devRef .tc main_v3) = (val_main_v3 (F := F) a0 a1)) :
    after (ops_8 (F := F)) W (Proc.devRef .tc main_arg0) = a0
    ∧ after (ops_8 (F := F)) W (Proc.devRef .tc main_arg1) = a1
    ∧ after (ops_8 (F := F)) W (Proc.devRef .tc main_v104) = (val_main_v104 (F := F) a0 a1)
    ∧ after (ops_8 (F := F)) W (Proc.devRef .tc main_v4) = (val_main_v4 (F := F) a0 a1)
    ∧ after (ops_8 (F := F)) W (Proc.devRef .tc main_v124) = (val_main_v124 (F := F) a0 a1)
    ∧ after (ops_8 (F := F)) W (Proc.devRef .tc main_v113) = (val_main_v113 (F := F) a0 a1)
    ∧ after (ops_8 (F := F)) W (Proc.devRef .tc main_v123) = (val_main_v123 (F := F) a0 a1)
    ∧ after (ops_8 (F := F)) W (Proc.devRef .tc main_v1) = (val_main_v1 (F := F) a0 a1)
    ∧ after (ops_8 (F := F)) W (Proc.devRef .tc main_v3) = (val_main_v3 (F := F) a0 a1)
    ∧ after (ops_8 (F := F)) W (Proc.devRef .tc main_v122) = (val_main_v122 (F := F) a0 a1) := by
  refine ⟨?_, ?_, ?_, ?_, ?_, ?_, ?_, ?_, ?_, ?_⟩ <;> ref_stretch [h_arg0, h_arg1, h_v105, h_v96, h_v50, h_v94, h_v1, h_v104, h_v4, h_v3]

set_option maxHeartbeats 16000000 in
theorem stretch_9 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v104 : W (Proc.devRef .tc main_v104) = (val_main_v104 (F := F) a0 a1))
    (h_v4 : W (Proc.devRef .tc main_v4) = (val_main_v4 (F := F) a0 a1))
    (h_v124 : W (Proc.devRef .tc main_v124) = (val_main_v124 (F := F) a0 a1))
    (h_v113 : W (Proc.devRef .tc main_v113) = (val_main_v113 (F := F) a0 a1))
    (h_v123 : W (Proc.devRef .tc main_v123) = (val_main_v123 (F := F) a0 a1))
    (h_v1 : W (Proc.devRef .tc main_v1) = (val_main_v1 (F := F) a0 a1))
    (h_v3 : W (Proc.devRef .tc main_v3) = (val_main_v3 (F := F) a0 a1))
    (h_v122 : W (Proc.devRef .tc main_v122) = (val_main_v122 (F := F) a0 a1)) :
    after (ops_9 (F := F)) W (Proc.devRef .tc main_arg0) = a0
    ∧ after (ops_9 (F := F)) W (Proc.devRef .tc main_arg1) = a1
    ∧ after (ops_9 (F := F)) W (Proc.devRef .tc main_v113) = (val_main_v113 (F := F) a0 a1)
    ∧ after (ops_9 (F := F)) W (Proc.devRef .tc main_v123) = (val_main_v123 (F := F) a0 a1)
    ∧ after (ops_9 (F := F)) W (Proc.devRef .tc main_v1) = (val_main_v1 (F := F) a0 a1)
    ∧ after (ops_9 (F := F)) W (Proc.devRef .tc main_v3) = (val_main_v3 (F := F) a0 a1)
    ∧ after (ops_9 (F := F)) W (Proc.devRef .tc main_v122) = (val_main_v122 (F := F) a0 a1)
    ∧ after (ops_9 (F := F)) W (Proc.devRef .tc main_v124) = (val_main_v124 (F := F) a0 a1)
    ∧ after (ops_9 (F := F)) W (Proc.devRef .tc main_v132) = (val_main_v132 (F := F) a0 a1)
    ∧ after (ops_9 (F := F)) W (Proc.devRef .tc main_v146) = (val_main_v146 (F := F) a0 a1) := by
  refine ⟨?_, ?_, ?_, ?_, ?_, ?_, ?_, ?_, ?_, ?_⟩ <;> ref_stretch [h_arg0, h_arg1, h_v104, h_v4, h_v124, h_v113, h_v123, h_v1, h_v3, h_v122]

set_option maxHeartbeats 16000000 in
theorem stretch_10 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v113 : W (Proc.devRef .tc main_v113) = (val_main_v113 (F := F) a0 a1))
    (h_v123 : W (Proc.devRef .tc main_v123) = (val_main_v123 (F := F) a0 a1))
    (h_v1 : W (Proc.devRef .tc main_v1) = (val_main_v1 (F := F) a0 a1))
    (h_v3 : W (Proc.devRef .tc main_v3) = (val_main_v3 (F := F) a0 a1))
    (h_v122 : W (Proc.devRef .tc main_v122) = (val_main_v122 (F := F) a0 a1))
    (h_v124 : W (Proc.devRef .tc main_v124) = (val_main_v124 (F := F) a0 a1))
    (h_v132 : W (Proc.devRef .tc main_v132) = (val_main_v132 (F := F) a0 a1))
    (h_v146 : W (Proc.devRef .tc main_v146) = (val_main_v146 (F := F) a0 a1)) :
    after (ops_10 (F := F)) W (Proc.devRef .tc main_arg0) = a0
    ∧ after (ops_10 (F := F)) W (Proc.devRef .tc main_arg1) = a1
    ∧ after (ops_10 (F := F)) W (Proc.devRef .tc main_v153) = (val_main_v153 (F := F) a0 a1)
    ∧ after (ops_10 (F := F)) W (Proc.devRef .tc main_v156) = (val_main_v156 (F := F) a0 a1)
    ∧ after (ops_10 (F := F)) W (Proc.devRef .tc main_v3) = (val_main_v3 (F := F) a0 a1)
    ∧ after (ops_10 (F := F)) W (Proc.devRef .tc main_v122) = (val_main_v122 (F := F) a0 a1)
    ∧ after (ops_10 (F := F)) W (Proc.devRef .tc main_v1) = (val_main_v1 (F := F) a0 a1)
    ∧ after (ops_10 (F := F)) W (Proc.devRef .tc main_v124) = (val_main_v124 (F := F) a0 a1)
    ∧ after (ops_10 (F := F)) W (Proc.devRef .tc main_v132) = (val_main_v132 (F := F) a0 a1)
    ∧ after (ops_10 (F := F)) W (Proc.devRef .tc main_v146) = (val_main_v146 (F := F) a0 a1)
    ∧ after (ops_10 (F := F)) W (Proc.devRef .tc main_v150) = (val_main_v150 (F := F) a0 a1) := by
  refine ⟨?_, ?_, ?_, ?_, ?_, ?_, ?_, ?_, ?_, ?_, ?_⟩ <;> ref_stretch [h_arg0, h_arg1, h_v113, h_v123, h_v1, h_v3, h_v122, h_v124, h_v132, h_v146]

set_option maxHeartbeats 16000000 in
theorem stretch_11 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v153 : W (Proc.devRef .tc main_v153) = (val_main_v153 (F := F) a0 a1))
    (h_v156 : W (Proc.devRef .tc main_v156) = (val_main_v156 (F := F) a0 a1))
    (h_v3 : W (Proc.devRef .tc main_v3) = (val_main_v3 (F := F) a0 a1))
    (h_v122 : W (Proc.devRef .tc main_v122) = (val_main_v122 (F := F) a0 a1))
    (h_v1 : W (Proc.devRef .tc main_v1) = (val_main_v1 (F := F) a0 a1))
    (h_v124 : W (Proc.devRef .tc main_v124) = (val_main_v124 (F := F) a0 a1))
    (h_v132 : W (Proc.devRef .tc main_v132) = (val_main_v132 (F := F) a0 a1))
    (h_v146 : W (Proc.devRef .tc main_v146) = (val_main_v146 (F := F) a0 a1))
    (h_v150 : W (Proc.devRef .tc main_v150) = (val_main_v150 (F := F) a0 a1)) :
    after (ops_11 (F := F)) W (Proc.devRef .tc main_arg0) = a0
    ∧ after (ops_11 (F := F)) W (Proc.devRef .tc main_arg1) = a1
    ∧ after (ops_11 (F := F)) W (Proc.devRef .tc main_v124) = (val_main_v124 (F := F) a0 a1)
    ∧ after (ops_11 (F := F)) W (Proc.devRef .tc main_v132) = (val_main_v132 (F := F) a0 a1)
    ∧ after (ops_11 (F := F)) W (Proc.devRef .tc main_v146) = (val_main_v146 (F := F) a0 a1)
    ∧ after (ops_11 (F := F)) W (Proc.devRef .tc main_v150) = (val_main_v150 (F := F) a0 a1)
    ∧ after (ops_11 (F := F)) W (Proc.devRef .tc main_v164) = (val_main_v164 (F := F) a0 a1) := by
  refine ⟨?_, ?_, ?_, ?_, ?_, ?_, ?_⟩ <;> ref_stretch [h_arg0, h_arg1, h_v153, h_v156, h_v3, h_v122, h_v1, h_v124, h_v132, h_v146, h_v150]

set_option maxHeartbeats 16000000 in
theorem stretch_12 (W : Valuation τ sig (Elt F)) (a0 a1 : (⟨S16384x7x7x30, .f32⟩ : BufTy).Contents (Elt F))
    (h_arg0 : W (Proc.devRef .tc main_arg0) = a0)
    (h_arg1 : W (Proc.devRef .tc main_arg1) = a1)
    (h_v124 : W (Proc.devRef .tc main_v124) = (val_main_v124 (F := F) a0 a1))
    (h_v132 : W (Proc.devRef .tc main_v132) = (val_main_v132 (F := F) a0 a1))
    (h_v146 : W (Proc.devRef .tc main_v146) = (val_main_v146 (F := F) a0 a1))
    (h_v150 : W (Proc.devRef .tc main_v150) = (val_main_v150 (F := F) a0 a1))
    (h_v164 : W (Proc.devRef .tc main_v164) = (val_main_v164 (F := F) a0 a1)) :
    after (ops_12 (F := F)) W (Proc.devRef .tc main_arg0) = a0
    ∧ after (ops_12 (F := F)) W (Proc.devRef .tc main_arg1) = a1
    ∧ after (ops_12 (F := F)) W (Proc.devRef .tc main_v176) = (val_main_v176 (F := F) a0 a1) := by
  refine ⟨?_, ?_, ?_⟩ <;> ref_stretch [h_arg0, h_arg1, h_v124, h_v132, h_v146, h_v150, h_v164]

/-- The whole list: the result buffer ends at the last stage, the arguments as they were. -/
theorem after_ops (V : Valuation τ sig (Elt F)) (a0 a1 : (⟨S16384x7x7x30, .f32⟩ : BufTy).Contents (Elt F))
    (h_arg0 : V (Proc.devRef .tc main_arg0) = a0) (h_arg1 : V (Proc.devRef .tc main_arg1) = a1) :
    after (ops (F := F)) V (Proc.devRef .tc main_v176) = (val_main_v176 (F := F) a0 a1)
    ∧ after (ops (F := F)) V (Proc.devRef .tc main_arg0) = a0 ∧ after (ops (F := F)) V (Proc.devRef .tc main_arg1) = a1 := by
  obtain ⟨e0_arg0, e0_arg1, e0_v5, e0_v4, e0_v6, e0_v1, e0_v3⟩ := stretch_0 (F := F) V a0 a1 h_arg0 h_arg1
  obtain ⟨e1_arg0, e1_arg1, e1_v32, e1_v34, e1_v5, e1_v4, e1_v6, e1_v1, e1_v3⟩ := stretch_1 (F := F) (after (ops_0 (F := F)) V) a0 a1 e0_arg0 e0_arg1 e0_v5 e0_v4 e0_v6 e0_v1 e0_v3
  obtain ⟨e2_arg0, e2_arg1, e2_v6, e2_v4, e2_v50, e2_v5, e2_v1, e2_v3⟩ := stretch_2 (F := F) (after (ops_1 (F := F)) (after (ops_0 (F := F)) V)) a0 a1 e1_arg0 e1_arg1 e1_v32 e1_v34 e1_v5 e1_v4 e1_v6 e1_v1 e1_v3
  obtain ⟨e3_arg0, e3_arg1, e3_v52, e3_v51, e3_v6, e3_v4, e3_v50, e3_v5, e3_v1, e3_v3⟩ := stretch_3 (F := F) (after (ops_2 (F := F)) (after (ops_1 (F := F)) (after (ops_0 (F := F)) V))) a0 a1 e2_arg0 e2_arg1 e2_v6 e2_v4 e2_v50 e2_v5 e2_v1 e2_v3
  obtain ⟨e4_arg0, e4_arg1, e4_v6, e4_v4, e4_v79, e4_v50, e4_v5, e4_v1, e4_v3⟩ := stretch_4 (F := F) (after (ops_3 (F := F)) (after (ops_2 (F := F)) (after (ops_1 (F := F)) (after (ops_0 (F := F)) V)))) a0 a1 e3_arg0 e3_arg1 e3_v52 e3_v51 e3_v6 e3_v4 e3_v50 e3_v5 e3_v1 e3_v3
  obtain ⟨e5_arg0, e5_arg1, e5_v50, e5_v94, e5_v5, e5_v6, e5_v1, e5_v4, e5_v3⟩ := stretch_5 (F := F) (after (ops_4 (F := F)) (after (ops_3 (F := F)) (after (ops_2 (F := F)) (after (ops_1 (F := F)) (after (ops_0 (F := F)) V))))) a0 a1 e4_arg0 e4_arg1 e4_v6 e4_v4 e4_v79 e4_v50 e4_v5 e4_v1 e4_v3
  obtain ⟨e6_arg0, e6_arg1, e6_v96, e6_v50, e6_v94, e6_v1, e6_v104, e6_v4, e6_v3⟩ := stretch_6 (F := F) (after (ops_5 (F := F)) (after (ops_4 (F := F)) (after (ops_3 (F := F)) (after (ops_2 (F := F)) (after (ops_1 (F := F)) (after (ops_0 (F := F)) V)))))) a0 a1 e5_arg0 e5_arg1 e5_v50 e5_v94 e5_v5 e5_v6 e5_v1 e5_v4 e5_v3
  obtain ⟨e7_arg0, e7_arg1, e7_v105, e7_v96, e7_v50, e7_v94, e7_v1, e7_v104, e7_v4, e7_v3⟩ := stretch_7 (F := F) (after (ops_6 (F := F)) (after (ops_5 (F := F)) (after (ops_4 (F := F)) (after (ops_3 (F := F)) (after (ops_2 (F := F)) (after (ops_1 (F := F)) (after (ops_0 (F := F)) V))))))) a0 a1 e6_arg0 e6_arg1 e6_v96 e6_v50 e6_v94 e6_v1 e6_v104 e6_v4 e6_v3
  obtain ⟨e8_arg0, e8_arg1, e8_v104, e8_v4, e8_v124, e8_v113, e8_v123, e8_v1, e8_v3, e8_v122⟩ := stretch_8 (F := F) (after (ops_7 (F := F)) (after (ops_6 (F := F)) (after (ops_5 (F := F)) (after (ops_4 (F := F)) (after (ops_3 (F := F)) (after (ops_2 (F := F)) (after (ops_1 (F := F)) (after (ops_0 (F := F)) V)))))))) a0 a1 e7_arg0 e7_arg1 e7_v105 e7_v96 e7_v50 e7_v94 e7_v1 e7_v104 e7_v4 e7_v3
  obtain ⟨e9_arg0, e9_arg1, e9_v113, e9_v123, e9_v1, e9_v3, e9_v122, e9_v124, e9_v132, e9_v146⟩ := stretch_9 (F := F) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V))))))))) a0 a1 e8_arg0 e8_arg1 e8_v104 e8_v4 e8_v124 e8_v113 e8_v123 e8_v1 e8_v3 e8_v122
  obtain ⟨e10_arg0, e10_arg1, e10_v153, e10_v156, e10_v3, e10_v122, e10_v1, e10_v124, e10_v132, e10_v146, e10_v150⟩ := stretch_10 (F := F) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V)))))))))) a0 a1 e9_arg0 e9_arg1 e9_v113 e9_v123 e9_v1 e9_v3 e9_v122 e9_v124 e9_v132 e9_v146
  obtain ⟨e11_arg0, e11_arg1, e11_v124, e11_v132, e11_v146, e11_v150, e11_v164⟩ := stretch_11 (F := F) (after (ops_10 (F := F)) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V))))))))))) a0 a1 e10_arg0 e10_arg1 e10_v153 e10_v156 e10_v3 e10_v122 e10_v1 e10_v124 e10_v132 e10_v146 e10_v150
  obtain ⟨e12_arg0, e12_arg1, e12_v176⟩ := stretch_12 (F := F) (after (ops_11 (F := F)) (after (ops_10 (F := F)) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V)))))))))))) a0 a1 e11_arg0 e11_arg1 e11_v124 e11_v132 e11_v146 e11_v150 e11_v164
  simp only [ops, win_0, win_1, win_2, win_3, after_append]
  exact ⟨e12_v176, e12_arg0, e12_arg1⟩

end Cert.RefStages

end
-- ==== Proof.RefRun.lean ====
/-
  The reference's run. Its @main is a straight line of host operations, so every weakly fair execution ends with each
  buffer at the fold of the operations over the launch contents; stretch by stretch that fold leaves the result buffer
  at the last stage — the loss as the reference computes it from the two arguments — and the arguments as they were.
-/
import proofs.«400913_j74620761801586_4_alg».proof.Proof.RefChunks

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Each of the printed @main's four windows, the calls of the clip function in it unfolded, is its operations in order. -/
theorem main_part0_eq (d : Dev nD) : main_part0 (F := F) d = seq win_0 := rfl
set_option maxRecDepth 8192 in
set_option maxHeartbeats 4000000 in
theorem main_part1_eq (d : Dev nD) : main_part1 (F := F) d = seq win_1 := rfl
set_option maxRecDepth 8192 in
set_option maxHeartbeats 4000000 in
theorem main_part2_eq (d : Dev nD) : main_part2 (F := F) d = seq win_2 := rfl
set_option maxRecDepth 8192 in
set_option maxHeartbeats 4000000 in
theorem main_part3_eq (d : Dev nD) : main_part3 (F := F) d = seq win_3 := rfl

/-- So @main, which runs its windows in order, is the whole line. -/
theorem main_eq (d : Dev nD) : main (F := F) d = seq ops := by
  simp only [main, main_part0_eq, main_part1_eq, main_part2_eq, main_part3_eq, ops, seq_append]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 80000000 in
/-- On every device, for any float values, from any memory with zero counters: every weakly fair execution of @main
    terminates with the result buffer at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v176)
          = val_main_v176 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨e, e0, e1⟩ := after_ops (F := F) (launchContents m c)
        (m ((c.tc : Thread nD τ).loc main_arg0)) (m ((c.tc : Thread nD τ).loc main_arg1)) rfl rfl
      exact ⟨(h c main_v176).trans e, (h c main_arg0).trans e0, (h c main_arg1).trans e1⟩)
    (run_seq scopedRefs_eq scopedSems_eq defs main (fun _ => ops) main_eq (fun _ => ops_sub) m ρ (fun _ => ops_fresh))

end Cert.RefStages

end
-- ==== Proof.Bridge.lean ====
/-
  The two values are one. The reference sums each of the six summand arrays over the whole batch, weights the sums (5, 5,
  1, one half for the two no-object sums together, 1), adds them and divides by the batch size. The kernel divides the sum
  of the 64 tile losses by the batch size, and a tile's loss is the same weighted sum of the tile's six sums. A sum over
  the whole batch is the sum of the tiles' sums; the extended reals' addition is commutative and associative; and a
  non-negative real weight distributes over a finite sum of extended reals whatever infinities occur: nothing else is
  used, so the inputs' finiteness is not needed.
-/
import proofs.«400913_j74620761801586_4_alg».proof.Proof.KernelValue
import proofs.«400913_j74620761801586_4_alg».proof.Proof.RefRun

noncomputable section

open Idealize.ShloMosaic Idealize.ShloMosaic.ValueIdx
open Cert.Tiles Cert.TileValues

namespace Cert.Bridge

open Cert.KernelIdeal.IdealValue (batch)

variable (a0 a1 : (⟨Cert.ReferenceIdeal.S16384x7x7x30, .f32⟩ : BufTy).Contents (Elt Ideal))

/-- The two weights as reals. -/
theorem w5_eq : w5 = ((5 : ℝ) : EReal) := by
  show Ideal.ofBits .f32 0x40A00000#32 = _
  simp [Ideal.ofBits, Ideal.ieee, -EReal.coe_mul]
  norm_num

theorem wHalf_eq : wHalf = ((1 / 2 : ℝ) : EReal) := by
  show Ideal.ofBits .f32 0x3F000000#32 = _
  simp [Ideal.ofBits, Ideal.ieee, -EReal.coe_mul]
  norm_num

/-- The 64 tile losses added up: the weights taken out of the sums. -/
theorem loss_sum : ∑ t : Fin 64, tileLoss t a0 a1
    = (((w5 * ∑ t : Fin 64, tXY t a0 a1 + w5 * ∑ t : Fin 64, tWH t a0 a1) + ∑ t : Fin 64, tOBJ t a0 a1)
        + wHalf * (∑ t : Fin 64, tNO t a0 a1 + ∑ t : Fin 64, tOT t a0 a1)) + ∑ t : Fin 64, tCLS t a0 a1 := by
  simp only [tileLoss]
  rw [Finset.sum_add_distrib, Finset.sum_add_distrib, Finset.sum_add_distrib, Finset.sum_add_distrib,
    ← Finset.sum_add_distrib (f := fun t => tNO t a0 a1) (g := fun t => tOT t a0 a1)]
  rw [w5_eq, wHalf_eq, coe_mul_sum _ 5 (by norm_num), coe_mul_sum _ 5 (by norm_num), coe_mul_sum _ (1 / 2) (by norm_num)]

/-- One of the reference's whole-array sums with channels, tile by tile. -/
theorem whole_sum4 {K : ℕ} (x : (W4 K).Idx → EReal) (h : (W4 K).ReducesTo [0, 1, 2, 3] ⟨0, ![]⟩) (j : (⟨0, ![]⟩ : Shape).Idx) :
    Ideal.hostReduceAdd h x (Ideal.ofBits .f32 0x00000000#32) j
      = ∑ t : Fin 64, ∑ b : Fin 256, ∑ s1 : Fin 7, ∑ s2 : Fin 7, ∑ c : Fin K, x (up4 t K (ix4 b s1 s2 c)) := by
  rw [Ideal.hostReduceAdd_total h (fun b => b.elim0), Ideal.ofBits_zero_f32, zero_add, sum_tiles4]

theorem whole_sum3 (x : W3.Idx → EReal) (h : W3.ReducesTo [0, 1, 2] ⟨0, ![]⟩) (j : (⟨0, ![]⟩ : Shape).Idx) :
    Ideal.hostReduceAdd h x (Ideal.ofBits .f32 0x00000000#32) j
      = ∑ t : Fin 64, ∑ b : Fin 256, ∑ s1 : Fin 7, ∑ s2 : Fin 7, x (up3 t (ix3 b s1 s2)) := by
  rw [Ideal.hostReduceAdd_total h (fun b => b.elim0), Ideal.ofBits_zero_f32, zero_add, sum_tiles3]

/-- The reference's result: the weighted whole-batch sums over the batch size. -/
theorem ref_value (j : Cert.ReferenceIdeal.S_.Idx) :
    Cert.RefStages.val_main_v176 (F := Ideal) a0 a1 j
      = Ideal.div ((((w5 * ∑ t : Fin 64, tXY t a0 a1 + w5 * ∑ t : Fin 64, tWH t a0 a1) + ∑ t : Fin 64, tOBJ t a0 a1)
          + wHalf * (∑ t : Fin 64, tNO t a0 a1 + ∑ t : Fin 64, tOT t a0 a1)) + ∑ t : Fin 64, tCLS t a0 a1) batch := by
  have r131 : Cert.RefStages.val_main_v131 (F := Ideal) a0 a1 j = ∑ t : Fin 64, tXY t a0 a1 := whole_sum4 _ _ j
  have r145 : Cert.RefStages.val_main_v145 (F := Ideal) a0 a1 j = ∑ t : Fin 64, tWH t a0 a1 := whole_sum4 _ _ j
  have r150 : Cert.RefStages.val_main_v150 (F := Ideal) a0 a1 j = ∑ t : Fin 64, tOBJ t a0 a1 := whole_sum3 _ _ j
  have r159 : Cert.RefStages.val_main_v159 (F := Ideal) a0 a1 j = ∑ t : Fin 64, tNO t a0 a1 := whole_sum3 _ _ j
  have r162 : Cert.RefStages.val_main_v162 (F := Ideal) a0 a1 j = ∑ t : Fin 64, tOT t a0 a1 := whole_sum3 _ _ j
  have r171 : Cert.RefStages.val_main_v171 (F := Ideal) a0 a1 j = ∑ t : Fin 64, tCLS t a0 a1 := whole_sum4 _ _ j
  show Ideal.div ((((w5 * Cert.RefStages.val_main_v131 (F := Ideal) a0 a1 j + w5 * Cert.RefStages.val_main_v145 (F := Ideal) a0 a1 j) + Cert.RefStages.val_main_v150 (F := Ideal) a0 a1 j)
      + wHalf * (Cert.RefStages.val_main_v159 (F := Ideal) a0 a1 j + Cert.RefStages.val_main_v162 (F := Ideal) a0 a1 j)) + Cert.RefStages.val_main_v171 (F := Ideal) a0 a1 j) batch = _
  rw [r131, r145, r150, r159, r162, r171]

/-- The kernel's value and the reference's, of the same arguments, are equal. -/
theorem values_eq (m : (ℓ : Loc Cert.KernelIdeal.nD Cert.KernelIdeal.τ Cert.KernelIdeal.sig) → Buf (Elt Ideal) ℓ) (c : Dev Cert.KernelIdeal.nD)
    (j : Cert.KernelIdeal.S_.Idx) :
    Cert.KernelIdeal.RunValue.tailOf (Cert.KernelIdeal.RunValue.outFinal m c) j
      = Cert.RefStages.val_main_v176 (F := Ideal) (Cert.KernelIdeal.IdealValue.arg0 m c) (Cert.KernelIdeal.IdealValue.arg1 m c) j := by
  rw [Cert.KernelIdeal.IdealValue.value, ref_value, loss_sum]

end Cert.Bridge

end
-- ==== Proof.lean ====
/-
  The certificate of the YOLO-loss kernel against its reference, over the extended reals.

  The kernel cuts the batch of 16384 grids into 64 tiles of 256 and walks them on a 2 × 32 grid of points; a point
  computes its tile's loss — five sums over the tile's 256 × 7 × 7 cells, weighted 5, 5, 1, one half, 1 — and adds it to a
  one-word accumulator that is reset at each core's first point and copied out after its last; the host lines after
  the region add the two cores' totals and divide by the batch size. The reference computes the same per-cell summands
  on the whole batch, sums each over the whole batch, weights, adds and divides.

  * The three runs: the kernel's two are the generated frame runs (for the idealized kernel read further as values in
    KernelRun.lean); the reference's is RefRun.lean, over its operations' named stages.
  * The ideal pass rewrote nothing, so there is nothing to preserve.
  * The two results are equal extended reals: the kernel's summand arrays on a tile are the tile of the reference's
    (TileWalk.lean, TileTable.lean), its reductions are nested sums (LibTiles.lean), and the rest is re-indexing a
    sum over the batch by tiles and taking the non-negative weights out of the sums (LibSums.lean, Bridge.lean).
-/
import proofs.«400913_j74620761801586_4_alg».proof.Defs
import proofs.«400913_j74620761801586_4_alg».proof.Proof.Gen.Kernel
import proofs.«400913_j74620761801586_4_alg».proof.Proof.Gen.Kernel.Frame
import proofs.«400913_j74620761801586_4_alg».proof.Proof.Gen.KernelIdeal
import proofs.«400913_j74620761801586_4_alg».proof.Proof.Gen.KernelIdeal.Frame
import proofs.«400913_j74620761801586_4_alg».proof.Proof.Gen.ReferenceIdeal
import proofs.«400913_j74620761801586_4_alg».proof.Proof.Gen.Pre_finite_inputs
import proofs.«400913_j74620761801586_4_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.RefStages.run (F := Ideal) m ρ)

theorem preserves : Cert.preserves_Kernel_KernelIdeal := trivial

/-- Both programs run; the kernel's result is the host lines of its output array, the reference's its last stage, and of
    arguments that agree the two are one extended real. -/
theorem algebraic : Cert.algebraic_KernelIdeal_ReferenceIdeal := by
  intro m ρ m' ρ' _ hagree
  refine ⟨fun c => Cert.KernelIdeal.RunValue.tailOf (Cert.KernelIdeal.RunValue.outFinal m c),
    Cert.KernelIdeal.RunValue.run (F := Ideal) m ρ, ?_⟩
  refine (θ_run Cert.ReferenceIdeal.defs _ _).mono (fun _ h c => ⟨(h c).1.trans ?_, (h c).2⟩)
    (Cert.RefStages.run (F := Ideal) m' ρ')
  rw [(hagree c).1, (hagree c).2]
  exact (funext fun j => Cert.Bridge.values_eq m c j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
